-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S16x64x1024 : Shape := ⟨3, ![16, 64, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_

variable [Facts]

def fn_part1 {F : FTy → Type} [FloatOps F] (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  main_v18

def fn {F : FTy → Type} [FloatOps F] (main_arg0 : FVec F S8x1024x1024 .f32) (main_arg1 : FVec F S16x64x1024 .f32) (main_arg2 : FVec F S16x64x1024 .f32) (main_arg3 : FVec F S16x64x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S16x64x1024 .f32 := Host.absf main_arg2
  let main_cst_2 : FVec F S_ .f32 := constant S_ .f32 0x7F800000#32
  let main_v10 : FVec F S16x64x1024 .f32 := broadcastInDim S16x64x1024 ![] bcast_S_S16x64x1024 main_cst_2
  let main_v11 : IVec S16x64x1024 1 := cmpf .olt main_v9 main_v10
  let main_c_3 : IVec S_ 1 := constantI S_ 1 1#1
  let main_v12 : IVec S_ 1 := (fun x v => Host.reduce IntOp.andi x v reducesTo_S16x64x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_v13 main_v16
-- ==== Kernel.lean ====
abbrev S8x1024x1024 : Shape := ⟨3, ![8, 1024, 1024]⟩
abbrev S16x64x1024 : Shape := ⟨3, ![16, 64, 1024]⟩
abbrev S8192x1024 : Shape := ⟨2, ![8192, 1024]⟩
abbrev S1024x1024 : Shape := ⟨2, ![1024, 1024]⟩
abbrev S8x1024x16x64 : Shape := ⟨4, ![8, 1024, 16, 64]⟩
abbrev S8x16x1024x64 : Shape := ⟨4, ![8, 16, 1024, 64]⟩
abbrev S1x1x1024x64 : Shape := ⟨4, ![1, 1, 1024, 64]⟩
abbrev S1x1x256x64 : Shape := ⟨4, ![1, 1, 256, 64]⟩
abbrev S256x64 : Shape := ⟨2, ![256, 64]⟩
abbrev S256x1 : Shape := ⟨2, ![256, 1]⟩
abbrev S64x256 : Shape := ⟨2, ![64, 256]⟩
abbrev S256x256 : Shape := ⟨2, ![256, 256]⟩
abbrev S256 : Shape := ⟨1, ![256]⟩

abbrev nBuf : Space → Nat
  | .hbm => 20
  | .vmem => 23
  | .smem => 0
  | _ => 0

abbrev bufTy : (tb : Table) → Fin (tcTables nBuf tb) → BufTy
  | .hbm, ⟨0, _⟩ => ⟨S8x1024x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8x1024x16x64, .bf16⟩
  | .hbm, ⟨12, _⟩ => ⟨S8x16x1024x64, .bf16⟩
  | .hbm, ⟨13, _⟩ => ⟨S8x1024x16x64, .bf16⟩
  | .hbm, ⟨14, _⟩ => ⟨S8x16x1024x64, .bf16⟩
  | .hbm, ⟨15, _⟩ => ⟨S8x1024x16x64, .bf16⟩
  | .hbm, ⟨16, _⟩ => ⟨S8x16x1024x64, .bf16⟩
  | .hbm, ⟨17, _⟩ => ⟨S8x16x1024x64, .f32⟩
  | .hbm, ⟨18, _⟩ => ⟨S8x1024x16x64, .f32⟩
  | .hbm, ⟨19, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x1x1024x64, .bf16⟩
  | .local _ .vmem, ⟨18, _⟩ => ⟨S1x1x1024x64, .bf16⟩
  | .local _ .vmem, ⟨19, _⟩ => ⟨S1x1x1024x64, .bf16⟩
  | .local _ .vmem, ⟨20, _⟩ => ⟨S1x1x1024x64, .bf16⟩
  | .local _ .vmem, ⟨21, _⟩ => ⟨S1x1x1024x64, .f32⟩
  | .local _ .vmem, ⟨22, _⟩ => ⟨S1x1x1024x64, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 16], ![false, false]⟩

def k3_mult1 : BitVec 32 :=
  let c0_i32 : BitVec 32 := 0#32
  let c256_i32 : BitVec 32 := 256#32
  let v5 : BitVec 32 := Scalar.muli c0_i32 c256_i32
  v5
def k3_off1 : Fin 4 → Nat :=
  let c0_5 : Index := 0#32
  let c0_6 : Index := 0#32
  let c0_i32 : BitVec 32 := 0#32
  let c256_i32 : BitVec 32 := 256#32
  let v5 : BitVec 32 := Scalar.muli c0_i32 c256_i32
  let v6 : BitVec 32 := v5
  let v7 : Index := Scalar.indexCast v6
  let c0_7 : Index := 0#32
  ![0, 0, v7.toNat, 0]
@[reducible] def k3_t1_loop : Scf.Loop 32 :=
  let c0_i32_29 : BitVec 32 := 0#32
  let c2_i32 : BitVec 32 := 2#32
  let v54 : BitVec 32 := Scalar.addi c0_i32_29 c2_i32
  let c1_i32_30 : BitVec 32 := 1#32
  ⟨c0_i32_29, v54, c1_i32_30⟩
def k3_mult2 (k3_t1 : Fin k3_t1_loop.trips) : BitVec 32 :=
  let c0_i32_29 : BitVec 32 := 0#32
  let c1_i32_30 : BitVec 32 := 1#32
  let arg6 : BitVec 32 := Scf.iv c0_i32_29 c1_i32_30 k3_t1
  let c256_i32_62 : BitVec 32 := 256#32
  let v85 : BitVec 32 := Scalar.muli arg6 c256_i32_62
  v85
def k3_off2 (k3_t1 : Fin k3_t1_loop.trips) : Fin 4 → Nat :=
  let c0_63 : Index := 0#32
  let c0_64 : Index := 0#32
  let c0_i32_29 : BitVec 32 := 0#32
  let c1_i32_30 : BitVec 32 := 1#32
  let arg6 : BitVec 32 := Scf.iv c0_i32_29 c1_i32_30 k3_t1
  let c256_i32_62 : BitVec 32 := 256#32
  let v85 : BitVec 32 := Scalar.muli arg6 c256_i32_62
  let v86 : BitVec 32 := v85
  let v87 : Index := Scalar.indexCast v86
  let c0_65 : Index := 0#32
  ![0, 0, v87.toNat, 0]
@[reducible] def k3_t2_loop : Scf.Loop 32 :=
  let c0_i32_42 : BitVec 32 := 0#32
  let c3_i32 : BitVec 32 := 3#32
  let v66 : BitVec 32 := Scalar.addi c0_i32_42 c3_i32
  let c1_i32_43 : BitVec 32 := 1#32
  ⟨c0_i32_42, v66, c1_i32_43⟩
def k3_mult3 (k3_t2 : Fin k3_t2_loop.trips) : BitVec 32 :=
  let c0_i32_42 : BitVec 32 := 0#32
  let c1_i32_43 : BitVec 32 := 1#32
  let arg6 : BitVec 32 := Scf.iv c0_i32_42 c1_i32_43 k3_t2
  let c256_i32_62 : BitVec 32 := 256#32
  let v85 : BitVec 32 := Scalar.muli arg6 c256_i32_62
  v85
def k3_off3 (k3_t2 : Fin k3_t2_loop.trips) : Fin 4 → Nat :=
  let c0_63 : Index := 0#32
  let c0_64 : Index := 0#32
  let c0_i32_42 : BitVec 32 := 0#32
  let c1_i32_43 : BitVec 32 := 1#32
  let arg6 : BitVec 32 := Scf.iv c0_i32_42 c1_i32_43 k3_t2
  let c256_i32_62 : BitVec 32 := 256#32
  let v85 : BitVec 32 := Scalar.muli arg6 c256_i32_62
  let v86 : BitVec 32 := v85
  let v87 : Index := Scalar.indexCast v86
  let c0_65 : Index := 0#32
  ![0, 0, v87.toNat, 0]
@[reducible] def k3_t3_loop : Scf.Loop 32 :=
  let c0_i32_55 : BitVec 32 := 0#32
  let c4_i32 : BitVec 32 := 4#32
  let v78 : BitVec 32 := Scalar.addi c0_i32_55 c4_i32
  let c1_i32_56 : BitVec 32 := 1#32
  ⟨c0_i32_55, v78, c1_i32_56⟩
def k3_mult4 (k3_t3 : Fin k3_t3_loop.trips) : BitVec 32 :=
  let c0_i32_55 : BitVec 32 := 0#32
  let c1_i32_56 : BitVec 32 := 1#32
  let arg6 : BitVec 32 := Scf.iv c0_i32_55 c1_i32_56 k3_t3
  let c256_i32_62 : BitVec 32 := 256#32
  let v85 : BitVec 32 := Scalar.muli arg6 c256_i32_62
  v85
def k3_off4 (k3_t3 : Fin k3_t3_loop.trips) : Fin 4 → Nat :=
  let c0_63 : Index := 0#32
  let c0_64 : Index := 0#32
  let c0_i32_55 : BitVec 32 := 0#32
  let c1_i32_56 : BitVec 32 := 1#32
  let arg6 : BitVec 32 := Scf.iv c0_i32_55 c1_i32_56 k3_t3
  let c256_i32_62 : BitVec 32 := 256#32
  let v85 : BitVec 32 := Scalar.muli arg6 c256_i32_62
  let v86 : BitVec 32 := v85
  let v87 : Index := Scalar.indexCast v86
  let c0_65 : Index := 0#32
  ![0, 0, v87.toNat, 0]
def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x1024x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S8x1024x1024_S8192x1024 : S8x1024x1024.ShapeCasts S8192x1024
  shapeCasts_S16x64x1024_S1024x1024 : S16x64x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192x1024_S8x1024x16x64 : S8192x1024.ShapeCasts S8x1024x16x64
  transposes_S8x1024x16x64_S8x16x1024x64_0_2_1_3 : S8x1024x16x64.Transposes [0, 2, 1, 3] S8x16x1024x64
  inb_S1x1x1024x64_S1x1x256x64_0_0_0_0 : ∀ a, (![0, 0, 0, 0] : Fin 4 → Nat) a + S1x1x256x64.size a ≤ S1x1x1024x64.size a
  h_S1x1x256x64 : 0 < S1x1x256x64.numel
  shapeCasts_S1x1x256x64_S256x64 : S1x1x256x64.ShapeCasts S256x64
  transposes_S256x64_p1_0_S64x256 : S256x64.Transposes [1, 0] S64x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  shapeCasts_S256x64_S1x1x256x64 : S256x64.ShapeCasts S1x1x256x64
  inb_S1x1x1024x64_S1x1x256x64_0_0_256_0 : ∀ a, (![0, 0, 256, 0] : Fin 4 → Nat) a + S1x1x256x64.size a ≤ S1x1x1024x64.size a
  inb_S1x1x1024x64_S1x1x256x64_0_0_512_0 : ∀ a, (![0, 0, 512, 0] : Fin 4 → Nat) a + S1x1x256x64.size a ≤ S1x1x1024x64.size a
  inb_S1x1x1024x64_S1x1x256x64_0_0_768_0 : ∀ a, (![0, 0, 768, 0] : Fin 4 → Nat) a + S1x1x256x64.size a ≤ S1x1x1024x64.size a
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S1024x1024_S1024x1024_S1024x1024_1_1_0_0_n_n_wf : DotDims.WF S1024x1024 S1024x1024 S1024x1024 [1] [1] [0] [0] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hrank3 : 0 < grid3.rank
  k3_mult1_dvd : 256 ∣ k3_mult1.toNat
  k3_off1_inb : ∀ a, k3_off1 a + S1x1x256x64.size a ≤ S1x1x1024x64.size a
  k3_t1_ok : k3_t1_loop.OK
  k3_mult2_dvd : ∀ k3_t1 : Fin k3_t1_loop.trips, 256 ∣ (k3_mult2 k3_t1).toNat
  k3_off2_inb : ∀ k3_t1 : Fin k3_t1_loop.trips, ∀ a, (k3_off2 k3_t1) a + S1x1x256x64.size a ≤ S1x1x1024x64.size a
  k3_t2_ok : k3_t2_loop.OK
  k3_mult3_dvd : ∀ k3_t2 : Fin k3_t2_loop.trips, 256 ∣ (k3_mult3 k3_t2).toNat
  k3_off3_inb : ∀ k3_t2 : Fin k3_t2_loop.trips, ∀ a, (k3_off3 k3_t2) a + S1x1x256x64.size a ≤ S1x1x1024x64.size a
  k3_t3_ok : k3_t3_loop.OK
  k3_mult4_dvd : ∀ k3_t3 : Fin k3_t3_loop.trips, 256 ∣ (k3_mult4 k3_t3).toNat
  k3_off4_inb : ∀ k3_t3 : Fin k3_t3_loop.trips, ∀ a, (k3_off4 k3_t3) a + S1x1x256x64.size a ≤ S1x1x1024x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x1024x64.size a ≤ S8x16x1024x64.size a
  hwx3_0 : ∀ i : grid3.Coords, EltTy.bits .bf16 = 32 ∨ (Rect.block (s := S8x16x1024x64) S1x1x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x1024x64.size a ≤ S8x16x1024x64.size a
  hwx3_1 : ∀ i : grid3.Coords, EltTy.bits .bf16 = 32 ∨ (Rect.block (s := S8x16x1024x64) S1x1x1024x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1024x64.size a ≤ S8x16x1024x64.size a
  hwx3_2 : ∀ i : grid3.Coords, EltTy.bits .bf16 = 32 ∨ (Rect.block (s := S8x16x1024x64) S1x1x1024x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1024x64.size a ≤ S8x16x1024x64.size a
  hwx3_3 : ∀ i : grid3.Coords, EltTy.bits .f32 = 32 ∨ (Rect.block (s := S8x16x1024x64) S1x1x1024x64.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S1x1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x1x1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x1x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x1x1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x1024x1024 : Shape := ⟨3, ![8, 1024, 1024]⟩
abbrev S16x64x1024 : Shape := ⟨3, ![16, 64, 1024]⟩
abbrev S16x64x8x1024 : Shape := ⟨4, ![16, 64, 8, 1024]⟩
abbrev S8x16x1024x64 : Shape := ⟨4, ![8, 16, 1024, 64]⟩
abbrev S8x16x1024x1024 : Shape := ⟨4, ![8, 16, 1024, 1024]⟩
abbrev S_ : Shape := ⟨0, ![]⟩
abbrev S1024x1024 : Shape := ⟨2, ![1024, 1024]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64x8x1024, .f32⟩
  | .hbm, ⟨5, _⟩ => ⟨S8x16x1024x64, .f32⟩
  | .hbm, ⟨6, _⟩ => ⟨S16x64x8x1024, .f32⟩
  | .hbm, ⟨7, _⟩ => ⟨S8x16x1024x64, .f32⟩
  | .hbm, ⟨8, _⟩ => ⟨S16x64x8x1024, .f32⟩
  | .hbm, ⟨9, _⟩ => ⟨S8x16x1024x64, .f32⟩
  | .hbm, ⟨10, _⟩ => ⟨S8x16x1024x1024, .f32⟩
  | .hbm, ⟨11, _⟩ => ⟨S_, .f32⟩
  | .hbm, ⟨12, _⟩ => ⟨S8x16x1024x1024, .f32⟩
  | .hbm, ⟨13, _⟩ => ⟨S8x16x1024x1024, .f32⟩
  | .hbm, ⟨14, _⟩ => ⟨S_, .i1⟩
  | .hbm, ⟨15, _⟩ => ⟨S1024x1024, .i1⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S_, .i1⟩
  | .hbm, ⟨23, _⟩ => ⟨S1024x1024, .i1⟩
  | .hbm, ⟨24, _⟩ => ⟨S1024x1024, .i1⟩
  | .hbm, ⟨25, _⟩ => ⟨S_, .f32⟩
  | .hbm, ⟨26, _⟩ => ⟨S_, .f32⟩
  | .hbm, ⟨27, _⟩ => ⟨S8x16x1024x1024, .i1⟩
  | .hbm, ⟨28, _⟩ => ⟨S8x16x1024x1024, .f32⟩
  | .hbm, ⟨29, _⟩ => ⟨S8x16x1024x1024, .f32⟩
  | .hbm, ⟨30, _⟩ => ⟨S_, .f32⟩
  | .hbm, ⟨31, _⟩ => ⟨S8x16x1024, .f32⟩
  | .hbm, ⟨32, _⟩ => ⟨S_, .f32⟩
  | .hbm, ⟨33, _⟩ => ⟨S8x16x1024, .f32⟩
  | .hbm, ⟨34, _⟩ => ⟨S8x16x1024, .f32⟩
  | .hbm, ⟨35, _⟩ => ⟨S8x16x1024x1, .f32⟩
  | .hbm, ⟨36, _⟩ => ⟨S8x16x1024x1024, .f32⟩
  | .hbm, ⟨37, _⟩ => ⟨S8x16x1024x1024, .f32⟩
  | .hbm, ⟨38, _⟩ => ⟨S8x16x1024x1024, .f32⟩
  | .hbm, ⟨39, _⟩ => ⟨S_, .f32⟩
  | .hbm, ⟨40, _⟩ => ⟨S8x16x1024, .f32⟩
  | .hbm, ⟨41, _⟩ => ⟨S8x16x1024x1, .f32⟩
  | .hbm, ⟨42, _⟩ => ⟨S8x16x1024x1024, .f32⟩
  | .hbm, ⟨43, _⟩ => ⟨S8x16x1024x1024, .f32⟩
  | .hbm, ⟨44, _⟩ => ⟨S8x16x1024x64, .f32⟩
  | .hbm, ⟨45, _⟩ => ⟨S8x1024x16x64, .f32⟩
  | .hbm, ⟨46, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v10 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  transposes_S16x64x8x1024_S8x16x1024x64_2_0_3_1 : S16x64x8x1024.Transposes [2, 0, 3, 1] S8x16x1024x64
  bcast_S_S8x16x1024x1024 : S_.BroadcastsInDim S8x16x1024x1024 (![] : Fin 0 → Fin S8x16x1024x1024.rank)
  bcast_S_S1024x1024 : S_.BroadcastsInDim S1024x1024 (![] : Fin 0 → Fin S1024x1024.rank)
  bcast_S1024x1024_S8x16x1024x1024_2_3 : S1024x1024.BroadcastsInDim S8x16x1024x1024 (![2, 3] : Fin 2 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S16x64x1024_S8x1024x1024_S16x64x8x1024_2_2_01_01_n_n_wf : DotDims.WF S16x64x1024 S8x1024x1024 S16x64x8x1024 [2] [2] [0, 1] [0, 1] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S16x64x1024_S8x1024x1024_S16x64x8x1024_2_2_01_01_n_n : DotDims S16x64x1024 S8x1024x1024 S16x64x8x1024 where
  lhsContracting := [2]
  rhsContracting := [2]
  lhsNonContracting := [0, 1]
  rhsNonContracting := [0, 1]
  lhsBatch := []
  rhsBatch := []
  wf := dot_S16x64x1024_S8x1024x1024_S16x64x8x1024_2_2_01_01_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Spec.lean ====
/-
  Causal single-head attention on the extended reals, as ONE function of the argument arrays.

  For a batch entry b and a head h the queries, keys and values are the rows
  q[t,d] = Σ_c x[b,t,c]·Wq[h,d,c] (and likewise k, v).  Row t of the masked scores is
  S[s] = (Σ_d q[t,d]·k[s,d])·(1/32) for s ≤ t and -∞ beyond the diagonal; the result is the softmax-weighted sum
  Σ_s (exp(S[s] - M)/L)·v[s,d] with M the row's maximum and L = Σ_s exp(S[s] - M).

  The second half of the file describes the SAME row computed tile by tile (256 key columns at a time) with a running
  maximum m, a running normaliser l and a running weighted sum a, each rescaled by exp(m - m') when the maximum moves:
  the recurrence whose final quotient a/l is the softmax-weighted sum above.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The score scale 1/32, kept as the binary word both programs carry. -/
def scale : EReal := Ideal.ofBits .f32 0x3D000000#32

/-- One head's projection of one token: Σ_c x[b,t,c]·W[h,d,c]. -/
def proj (x : (⟨3, ![8, 1024, 1024]⟩ : Shape).Idx → EReal) (W : (⟨3, ![16, 64, 1024]⟩ : Shape).Idx → EReal)
    (b : Fin 8) (h : Fin 16) (t : Fin 1024) (d : Fin 64) : EReal :=
  ∑ c : Fin 1024, x (ix3 b t c) * W (ix3 h d c)

/-- Row t of the causally masked, scaled scores. -/
def scoreRow (q k : Fin 1024 → Fin 64 → EReal) (t : Fin 1024) : Fin 1024 → EReal :=
  fun s => if s.val ≤ t.val then (∑ e : Fin 64, q t e * k s e) * scale else ⊥

/-- A row's maximum (from -∞). -/
def rowMax (S : Fin 1024 → EReal) : EReal := (Finset.univ : Finset (Fin 1024)).fold max ⊥ S

/-- A row's normaliser Σ_s exp(S[s] - M). -/
def rowSum (S : Fin 1024 → EReal) : EReal := ∑ s : Fin 1024, Ideal.exp (S s - rowMax S)

/-- The softmax-weighted sum of v along a row of scores. -/
def softmaxRow (S v : Fin 1024 → EReal) : EReal :=
  ∑ s : Fin 1024, Ideal.div (Ideal.exp (S s - rowMax S)) (rowSum S) * v s

/-- One head: out[t,d] = Σ_s softmax(S_t)[s]·v[s,d]. -/
def attn (q k v : Fin 1024 → Fin 64 → EReal) (t : Fin 1024) (d : Fin 64) : EReal :=
  softmaxRow (scoreRow q k t) (fun s => v s d)

/-- The whole result: heads concatenated along the last axis, entry (b, t, 64·h + d). -/
def G (x : (⟨3, ![8, 1024, 1024]⟩ : Shape).Idx → EReal) (Wq Wk Wv : (⟨3, ![16, 64, 1024]⟩ : Shape).Idx → EReal) :
    (⟨3, ![8, 1024, 1024]⟩ : Shape).Idx → EReal := fun i =>
  attn (fun t e => proj x Wq ⟨(i 0).val, (i 0).isLt⟩ ⟨(i 2).val / 64, by have := (i 2).isLt; simp at this; omega⟩ t e)
       (fun s e => proj x Wk ⟨(i 0).val, (i 0).isLt⟩ ⟨(i 2).val / 64, by have := (i 2).isLt; simp at this; omega⟩ s e)
       (fun s e => proj x Wv ⟨(i 0).val, (i 0).isLt⟩ ⟨(i 2).val / 64, by have := (i 2).isLt; simp at this; omega⟩ s e)
       ⟨(i 1).val, (i 1).isLt⟩ ⟨(i 2).val % 64, Nat.mod_lt _ (by decide)⟩

/-! ## The arrays the kernel's four launches leave, as functions of the arrays they read -/

/-- A projection launch on the flattened operands: out[i,j] = Σ_k X[i,k]·Wm[j,k]. -/
def projArr (X : (⟨2, ![8192, 1024]⟩ : Shape).Idx → EReal) (Wm : (⟨2, ![1024, 1024]⟩ : Shape).Idx → EReal) :
    (⟨2, ![8192, 1024]⟩ : Shape).Idx → EReal :=
  fun i => ∑ k : Fin 1024, X (ix2 ⟨(i 0).val, (i 0).isLt⟩ k) * Wm (ix2 ⟨(i 1).val, (i 1).isLt⟩ k)

/-- The attention launch: every (batch, head) block is one head's attention of that block's q, k, v. -/
def attnArr (Q K V : (⟨4, ![8, 16, 1024, 64]⟩ : Shape).Idx → EReal) : (⟨4, ![8, 16, 1024, 64]⟩ : Shape).Idx → EReal :=
  fun i => attn (fun t e => Q (ix4 ⟨(i 0).val, (i 0).isLt⟩ ⟨(i 1).val, (i 1).isLt⟩ t e))
                (fun s e => K (ix4 ⟨(i 0).val, (i 0).isLt⟩ ⟨(i 1).val, (i 1).isLt⟩ s e))
                (fun s e => V (ix4 ⟨(i 0).val, (i 0).isLt⟩ ⟨(i 1).val, (i 1).isLt⟩ s e))
                ⟨(i 2).val, (i 2).isLt⟩ ⟨(i 3).val, (i 3).isLt⟩

/-! ## The same row, 256 key columns at a time -/

/-- The running maximum after a tile of masked scores s. -/
def tileM (m : EReal) (s : Fin 256 → EReal) : EReal := max m ((Finset.univ : Finset (Fin 256)).fold max ⊥ s)

/-- The running normaliser after the tile: the old one rescaled, plus the tile's exponentials. -/
def tileL (m l : EReal) (s : Fin 256 → EReal) : EReal :=
  Ideal.exp (m - tileM m s) * l + ∑ c : Fin 256, Ideal.exp (s c - tileM m s)

/-- The running weighted sum after the tile: the old one rescaled, plus the tile's exponentials times its values. -/
def tileA (m a : EReal) (s v : Fin 256 → EReal) : EReal :=
  Ideal.exp (m - tileM m s) * a + ∑ c : Fin 256, Ideal.exp (s c - tileM m s) * v c

/-- A tile's masked, scaled scores for the query row of global index `rowIdx`, the tile's first column being `colBase`. -/
def tileScore (qrow : Fin 64 → EReal) (kt : Fin 256 → Fin 64 → EReal) (colBase rowIdx : ℕ) : Fin 256 → EReal :=
  fun c => if colBase + c.val ≤ rowIdx then (∑ e : Fin 64, qrow e * kt c e) * scale else ⊥

/-- Columns 256·n … 256·n+255 of a row (-∞ past the row's end, which no tile of the kernel reaches). -/
def tileOf (f : Fin 1024 → EReal) (n : ℕ) : Fin 256 → EReal :=
  fun c => if h : n * 256 + c.val < 1024 then f ⟨n * 256 + c.val, h⟩ else ⊥

/-- The running (m, l, a) before tile n, from (-∞, 0, 0). -/
def onlineState (S v : Fin 1024 → EReal) : ℕ → EReal × EReal × EReal
  | 0 => (⊥, 0, 0)
  | n + 1 =>
    (tileM (onlineState S v n).1 (tileOf S n),
     tileL (onlineState S v n).1 (onlineState S v n).2.1 (tileOf S n),
     tileA (onlineState S v n).1 (onlineState S v n).2.2 (tileOf S n) (tileOf v n))

theorem onlineState_zero (S v : Fin 1024 → EReal) : onlineState S v 0 = (⊥, 0, 0) := rfl

theorem onlineState_succ (S v : Fin 1024 → EReal) (n : ℕ) :
    onlineState S v (n + 1) =
      (tileM (onlineState S v n).1 (tileOf S n),
       tileL (onlineState S v n).1 (onlineState S v n).2.1 (tileOf S n),
       tileA (onlineState S v n).1 (onlineState S v n).2.2 (tileOf S n) (tileOf v n)) := rfl

/-- A tile of the kernel's own masked scores is the corresponding stretch of the full masked row. -/
theorem tileScore_eq_tileOf (q k : Fin 1024 → Fin 64 → EReal) (t : Fin 1024) (n : ℕ) (hn : n < 4)
    (kt : Fin 256 → Fin 64 → EReal) (hk : ∀ (c : Fin 256) (e : Fin 64), kt c e = k ⟨n * 256 + c.val, by have := c.isLt; omega⟩ e) :
    tileScore (q t) kt (n * 256) t.val = tileOf (scoreRow q k t) n := by
  funext c
  have hc : n * 256 + c.val < 1024 := by have := c.isLt; omega
  simp only [tileScore, tileOf, scoreRow, dif_pos hc, hk]

/-- A sum of products of real entries is real: the projected q, k, v are finite when x and W are. -/
theorem proj_real (x : (⟨3, ![8, 1024, 1024]⟩ : Shape).Idx → EReal) (W : (⟨3, ![16, 64, 1024]⟩ : Shape).Idx → EReal)
    (hx : ∀ i, ∃ r : ℝ, x i = r) (hW : ∀ i, ∃ r : ℝ, W i = r) (b : Fin 8) (h : Fin 16) (t : Fin 1024) (d : Fin 64) :
    ∃ r : ℝ, proj x W b h t d = r := by
  unfold proj
  choose fx hfx using hx
  choose fW hfW using hW
  refine ⟨∑ c : Fin 1024, fx (ix3 b t c) * fW (ix3 h d c), ?_⟩
  simp only [hfx, hfW, ← EReal.coe_mul]
  induction (Finset.univ : Finset (Fin 1024)) using Finset.induction_on with
  | empty => simp
  | insert a s ha ih => rw [Finset.sum_insert ha, Finset.sum_insert ha, ih, EReal.coe_add]

end Cert.Attn

end
-- ==== Proof.Bridge.lean ====
/-
  The kernel program's host operations around its four launches, composed: flatten x and the weights, project, view the
  projections as [batch, token, head, dim] and move the head axis forward, attend per (batch, head), move the head axis
  back and concatenate the heads. Read at an index this composite is the specification G; and its projected q, k, v
  are real whenever x and the weights are.
-/
import proofs.«406224_j55722905699212_3_alg».proof.KernelIdeal
import proofs.«406224_j55722905699212_3_alg».proof.Proof.Gen.KernelIdeal
import proofs.«406224_j55722905699212_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bridge

open Idealize.ShloMosaic Idealize.ShloMosaic.TcCoe Idealize.ShloMosaic.ValueIdx Cert.KernelIdeal Cert.KernelIdeal.Facts₀ Cert.KernelIdeal.Facts

/-- One of q, k, v as the attention launch reads it: the projection of the flattened operands, viewed as
    [8, 1024, 16, 64] and transposed to [8, 16, 1024, 64]. -/
def qkvArr (x : Vec Ideal S8x1024x1024 .f32) (W : Vec Ideal S16x64x1024 .f32) : Vec Ideal S8x16x1024x64 .bf16 :=
  transpose S8x16x1024x64 [0, 2, 1, 3]
    (shapeCast S8x1024x16x64
      (Attn.projArr (shapeCast S8192x1024 x shapeCasts_S8x1024x1024_S8192x1024) (shapeCast S1024x1024 W shapeCasts_S16x64x1024_S1024x1024))
      shapeCasts_S8192x1024_S8x1024x16x64)
    transposes_S8x1024x16x64_S8x16x1024x64_0_2_1_3

/-- The kernel program's result as a function of its four arguments. -/
def kernelOut (x : Vec Ideal S8x1024x1024 .f32) (Wq Wk Wv : Vec Ideal S16x64x1024 .f32) : Vec Ideal S8x1024x1024 .f32 :=
  shapeCast S8x1024x1024
    (transpose S8x1024x16x64 [0, 2, 1, 3] (Attn.attnArr (qkvArr x Wq) (qkvArr x Wk) (qkvArr x Wv))
      transposes_S8x16x1024x64_S8x1024x16x64_0_2_1_3)
    shapeCasts_S8x1024x16x64_S8x1024x1024

/-- Entry (b, h, t, d) of a projected operand is the head's projection of token (b, t). -/
theorem qkvArr_apply (x : Vec Ideal S8x1024x1024 .f32) (W : Vec Ideal S16x64x1024 .f32) (b : Fin 8) (h : Fin 16) (t : Fin 1024) (d : Fin 64) :
    qkvArr x W (ix4 b h t d) = Attn.proj x W b h t d := by
  unfold qkvArr
  refine (transpose_apply _ _ _ (ix4 b h t d) (ix4 b t h d) ?_).trans ?_
  · intro a
    match a with
    | ⟨0, _⟩ => rfl
    | ⟨1, _⟩ => rfl
    | ⟨2, _⟩ => rfl
    | ⟨3, _⟩ => rfl
  have hb := b.isLt; have hh := h.isLt; have ht := t.isLt; have hd := d.isLt
  refine (shapeCast_apply _ _ (ix4 b t h d)
    (ix2 (⟨b.val * 1024 + t.val, by omega⟩ : Fin 8192) (⟨h.val * 64 + d.val, by omega⟩ : Fin 1024)) ?_).trans ?_
  · rw [Shape.rowMajor_val_two, Shape.rowMajor_val_four]
    show (b.val * 1024 + t.val) * 1024 + (h.val * 64 + d.val) = ((b.val * 1024 + t.val) * 16 + h.val) * 64 + d.val
    omega
  unfold Attn.projArr Attn.proj
  refine Finset.sum_congr rfl fun c _ => ?_
  congr 1
  · refine shapeCast_apply _ _ _ (ix3 b t c) ?_
    rw [Shape.rowMajor_val_two, Shape.rowMajor_val_three]
    show (b.val * 1024 + t.val) * 1024 + c.val = (b.val * 1024 + t.val) * 1024 + c.val
    rfl
  · refine shapeCast_apply _ _ _ (ix3 h d c) ?_
    rw [Shape.rowMajor_val_two, Shape.rowMajor_val_three]
    show (h.val * 64 + d.val) * 1024 + c.val = (h.val * 64 + d.val) * 1024 + c.val
    rfl

/-- The projected operands are real when x and W are. -/
theorem qkvArr_real (x : Vec Ideal S8x1024x1024 .f32) (W : Vec Ideal S16x64x1024 .f32)
    (hx : ∀ i, ∃ r : ℝ, x i = r) (hW : ∀ i, ∃ r : ℝ, W i = r) (i : S8x16x1024x64.Idx) : ∃ r : ℝ, qkvArr x W i = r := by
  obtain ⟨r, hr⟩ := Attn.proj_real x W hx hW (i 0) (i 1) (i 2) (i 3)
  refine ⟨r, ?_⟩
  rw [← hr, ← qkvArr_apply x W (i 0) (i 1) (i 2) (i 3)]
  exact congrArg (qkvArr x W) (eq_ix4 (n0 := 8) (n1 := 16) (n2 := 1024) (n3 := 64) i)

/-- The attention launch's array read at explicit coordinates. -/
private theorem attnArr_ix4 (Q K V : Vec Ideal S8x16x1024x64 .bf16) (b : Fin 8) (h : Fin 16) (t : Fin 1024) (e : Fin 64) :
    Attn.attnArr Q K V (ix4 b h t e)
      = Attn.attn (fun t' e' => Q (ix4 b h t' e')) (fun s e' => K (ix4 b h s e')) (fun s e' => V (ix4 b h s e')) t e := rfl

/-- The composite is the specification. -/
theorem kernelOut_eq_G (x : Vec Ideal S8x1024x1024 .f32) (Wq Wk Wv : Vec Ideal S16x64x1024 .f32) :
    kernelOut x Wq Wk Wv = Attn.G x Wq Wk Wv := by
  funext i
  unfold kernelOut
  have h0 : (i 0).val < 8 := (i 0).isLt
  have h1 : (i 1).val < 1024 := (i 1).isLt
  have h2 : (i 2).val < 1024 := (i 2).isLt
  refine (shapeCast_apply _ _ i (ix4 (⟨(i 0).val, h0⟩ : Fin 8) (⟨(i 1).val, h1⟩ : Fin 1024) (⟨(i 2).val / 64, by omega⟩ : Fin 16)
    (⟨(i 2).val % 64, Nat.mod_lt _ (by decide)⟩ : Fin 64)) ?_).trans ?_
  · rw [Shape.rowMajor_val_four, Shape.rowMajor_val_three]
    show (((i 0).val * 1024 + (i 1).val) * 16 + (i 2).val / 64) * 64 + (i 2).val % 64 = ((i 0).val * 1024 + (i 1).val) * 1024 + (i 2).val
    omega
  refine (transpose_apply _ _ _ _ (ix4 (⟨(i 0).val, h0⟩ : Fin 8) (⟨(i 2).val / 64, by omega⟩ : Fin 16) (⟨(i 1).val, h1⟩ : Fin 1024)
    (⟨(i 2).val % 64, Nat.mod_lt _ (by decide)⟩ : Fin 64)) ?_).trans ?_
  · intro a
    match a with
    | ⟨0, _⟩ => rfl
    | ⟨1, _⟩ => rfl
    | ⟨2, _⟩ => rfl
    | ⟨3, _⟩ => rfl
  refine (attnArr_ix4 _ _ _ _ _ _ _).trans ?_
  simp only [qkvArr_apply]
  rfl

end Cert.KernelIdeal.Bridge

end
-- ==== Proof.ProjValue.lean ====
/-
  The three projection launches: each leaves, in its result array, out[i,j] = Σ_k X[i,k]·Wm[j,k] of the two arrays it reads
  (the row blocks of 1024 rows tile the 8192 rows; the weight block is the whole weight array at every grid point).
-/
import proofs.«406224_j55722905699212_3_alg».proof.Proof.Gen.KernelIdeal.Frame
import proofs.«406224_j55722905699212_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Facts₀ Cert.KernelIdeal.Facts

variable (V : (c : Dev nD) → (b : Ref sig .tc) → Buf (Elt Ideal) ((c : Thread nD τ).loc b))

/-! ## The contraction at an entry (shared by the three launches) -/

theorem lhs_DD_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_DD_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_DD_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_DD_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The contraction at an entry: entry (p, q) of the product is the sum over k of the left operand's (p, k) times the right operand's (q, k). -/
theorem matmul_at (a b : FVec Ideal S1024x1024 .bf16) (p q : Fin 1024) :
    (matmul (F := Ideal) dot_S1024x1024_S1024x1024_S1024x1024_1_1_0_0_n_n none a b (constant S1024x1024 .f32 0x00000000#32) : FVec Ideal S1024x1024 .f32) (ix2 p q)
      = ∑ k : Fin 1024, a (ix2 p k) * b (ix2 q k) := by
  refine (Ideal.matmul_constant_zero_apply dot_S1024x1024_S1024x1024_S1024x1024_1_1_0_0_n_n none a b (ix2 p q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_DD_0 _ _
    | ⟨1, _⟩ => exact (lhs_DD_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_DD_0 _ _
    | ⟨1, _⟩ => exact (rhs_DD_1 _ _).trans hk)
  rw [el, er]

theorem hz : (![0, 0] : Fin 2 → Nat) = fun _ => 0 := funext fun a => by fin_cases a <;> rfl

/-! ## Launch 0 -/

/-- Launch 0's stored value at an entry: the casts are identities on the extended reals, so it is the contraction itself. -/
theorem pay0_at (x0 x1 : Vec Ideal S1024x1024 .f32) (p q : Fin 1024) :
    k0_pay1 (F := Ideal) x0 x1 (ix2 p q) = ∑ k : Fin 1024, x0 (ix2 p k) * x1 (ix2 q k) := by
  unfold k0_pay1
  simp only [shapeCast_self]
  exact matmul_at _ _ p q

/-- One grid point of a projection launch, over a row block x0 and a weight block x1 given as restrictions of the arrays X and
    Wm: the stored entry (p, q) is entry (1024·t + p, q) of the projection of X by Wm. -/
theorem point0 (X : S8192x1024.Idx → EReal) (Wm : S1024x1024.Idx → EReal) (x0 x1 : Vec Ideal S1024x1024 .f32) (tv : ℕ) (ht : tv < 8)
    (h0 : ∀ (p k : Fin 1024), x0 (ix2 p k) = X (ix2 (⟨tv * 1024 + p.val, by have := p.isLt; omega⟩ : Fin 8192) k))
    (h1 : ∀ (q k : Fin 1024), x1 (ix2 q k) = Wm (ix2 q k))
    (j : S1024x1024.Idx) (i : S8192x1024.Idx) (hi0 : (i 0).val = tv * 1024 + (j 0).val) (hi1 : (i 1).val = (j 1).val) :
    k0_pay1 (F := Ideal) x0 x1 j = Attn.projArr X Wm i := by
  obtain ⟨p, q, rfl⟩ : ∃ (p : Fin 1024) (q : Fin 1024), j = ix2 p q := ⟨j 0, j 1, eq_ix2 j⟩
  rw [pay0_at]
  unfold Attn.projArr
  refine Finset.sum_congr rfl fun k _ => ?_
  rw [h0, h1]
  have e0 : (⟨tv * 1024 + p.val, by have := p.isLt; omega⟩ : Fin 8192) = ⟨(i 0).val, (i 0).isLt⟩ := Fin.ext hi0.symm
  have e1 : q = ⟨(i 1).val, (i 1).isLt⟩ := Fin.ext hi1.symm
  rw [e0, ← e1]

/-- The index maps of launch 0, decided over its 8 points: the row block and the result block are block row t, the weight block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point t is rows 1024·t … 1024·t + 1023 of the array of tokens. -/
theorem iblk0_0_apply (c : Dev nD) (t : Fin cfg0.N) (x : S1024x1024.Idx) (k : S8192x1024.Idx)
    (hk0 : (k 0).val = t.val * 1024 + (x 0).val) (hk1 : (k 1).val = (x 1).val) :
    (iblk0 V c 0 t : Vec Ideal S1024x1024 .f32) x = (V c main_v0 : S8192x1024.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The weight block at every point is the whole weight array. -/
theorem iblk0_1_apply (c : Dev nD) (t : Fin cfg0.N) (x : S1024x1024.Idx) :
    (iblk0 V c 1 t : Vec Ideal S1024x1024 .f32) x = (V c main_v1 : S1024x1024.Idx → EReal) x := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 1024 + 1 * (x 1).val = (x 1).val; rw [e1]; omega

/-- What point t of launch 0 writes back is block row t of the projection. -/
theorem flushed0_eq (c : Dev nD) (t : Fin cfg0.N) :
    (dat0 (F := Ideal) V c).flushed 2 t = ((cfg0.win 2).blk t).view.read (Elt Ideal) (Attn.projArr (V c main_v0) (V c main_v1)) := by
  show (cfg0.win 2).cut (grid0.coords t) ((dat0 V c).after 2 t) = _
  rw [after0_2]
  unfold out0_2
  rw [View.canon_unit_zero hz]
  simp only [View.ld_unit_zero (S := S1024x1024) hz]
  obtain ⟨-, -, -, -, e0, e1⟩ := idx_facts0 t
  have ht : t.val < 8 := lt_of_lt_of_eq t.isLt N_0
  funext j
  refine point0 (V c main_v0) (V c main_v1) (iblk0 V c 0 t) (iblk0 V c 1 t) t.val ht ?_ ?_ j (((cfg0.win 2).blk t).view.emb j) ?_ ?_
  · intro p k
    exact iblk0_0_apply V c t (ix2 p k) _ rfl rfl
  · intro q k
    exact iblk0_1_apply V c t (ix2 q k)
  · show win0_2.index t (0 : Fin 2) * 1024 + 1 * (j 0).val = t.val * 1024 + (j 0).val
    rw [e0]; omega
  · show win0_2.index t (1 : Fin 2) * 1024 + 1 * (j 1).val = (j 1).val
    rw [e1]; omega

/-- An index of the result array is in point t's block iff each coordinate is in the block's range on its axis. -/
theorem mem_blk0 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- Row r of the result is written back by point r / 1024. -/
theorem cover0 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  obtain ⟨-, -, -, -, e0, e1⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e0]; show (i 0).val / 1024 * 1024 ≤ (i 0).val ∧ (i 0).val < (i 0).val / 1024 * 1024 + 1024; omega
  | ⟨1, _⟩ => show win0_2.index t (1 : Fin 2) * 1024 ≤ (i 1).val ∧ (i 1).val < win0_2.index t (1 : Fin 2) * 1024 + 1024; rw [e1]; omega

/-- Launch 0's result array after its 8 grid points. -/
theorem arr0 (c : Dev nD) :
    (dat0 (F := Ideal) V c).arrAt 2 cfg0.N = Attn.projArr (V c main_v0) (V c main_v1) :=
  (dat0 (F := Ideal) V c).arrAt_eq_of_cover 2 (Attn.projArr (V c main_v0) (V c main_v1)) (fun t _ => flushed0_eq V c t) cover0

/-! ## Launch 1 -/

/-- Launch 1's stored value at an entry: the casts are identities on the extended reals, so it is the contraction itself. -/
theorem pay1_at (x0 x1 : Vec Ideal S1024x1024 .f32) (p q : Fin 1024) :
    k1_pay1 (F := Ideal) x0 x1 (ix2 p q) = ∑ k : Fin 1024, x0 (ix2 p k) * x1 (ix2 q k) := by
  unfold k1_pay1
  simp only [shapeCast_self]
  exact matmul_at _ _ p q

/-- One grid point of a projection launch, over a row block x0 and a weight block x1 given as restrictions of the arrays X and
    Wm: the stored entry (p, q) is entry (1024·t + p, q) of the projection of X by Wm. -/
theorem point1 (X : S8192x1024.Idx → EReal) (Wm : S1024x1024.Idx → EReal) (x0 x1 : Vec Ideal S1024x1024 .f32) (tv : ℕ) (ht : tv < 8)
    (h0 : ∀ (p k : Fin 1024), x0 (ix2 p k) = X (ix2 (⟨tv * 1024 + p.val, by have := p.isLt; omega⟩ : Fin 8192) k))
    (h1 : ∀ (q k : Fin 1024), x1 (ix2 q k) = Wm (ix2 q k))
    (j : S1024x1024.Idx) (i : S8192x1024.Idx) (hi0 : (i 0).val = tv * 1024 + (j 0).val) (hi1 : (i 1).val = (j 1).val) :
    k1_pay1 (F := Ideal) x0 x1 j = Attn.projArr X Wm i := by
  obtain ⟨p, q, rfl⟩ : ∃ (p : Fin 1024) (q : Fin 1024), j = ix2 p q := ⟨j 0, j 1, eq_ix2 j⟩
  rw [pay1_at]
  unfold Attn.projArr
  refine Finset.sum_congr rfl fun k _ => ?_
  rw [h0, h1]
  have e0 : (⟨tv * 1024 + p.val, by have := p.isLt; omega⟩ : Fin 8192) = ⟨(i 0).val, (i 0).isLt⟩ := Fin.ext hi0.symm
  have e1 : q = ⟨(i 1).val, (i 1).isLt⟩ := Fin.ext hi1.symm
  rw [e0, ← e1]

/-- The index maps of launch 1, decided over its 8 points: the row block and the result block are block row t, the weight block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point t is rows 1024·t … 1024·t + 1023 of the array of tokens. -/
theorem iblk1_0_apply (c : Dev nD) (t : Fin cfg1.N) (x : S1024x1024.Idx) (k : S8192x1024.Idx)
    (hk0 : (k 0).val = t.val * 1024 + (x 0).val) (hk1 : (k 1).val = (x 1).val) :
    (iblk1 V c 0 t : Vec Ideal S1024x1024 .f32) x = (V c main_v0 : S8192x1024.Idx → EReal) k := by
  obtain ⟨e0, e1, -⟩ := idx_facts1 t
  unfold iblk1
  rw [View.read_apply]
  show V c main_v0 _ = V c main_v0 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 1024 + 1 * (x 1).val = (k 1).val; rw [e1, hk1]; omega

/-- The weight block at every point is the whole weight array. -/
theorem iblk1_1_apply (c : Dev nD) (t : Fin cfg1.N) (x : S1024x1024.Idx) :
    (iblk1 V c 1 t : Vec Ideal S1024x1024 .f32) x = (V c main_v2 : S1024x1024.Idx → EReal) x := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t (0 : Fin 2) * 1024 + 1 * (x 0).val = (x 0).val; rw [e0]; omega
  | ⟨1, _⟩ => show win1_1.index t (1 : Fin 2) * 1024 + 1 * (x 1).val = (x 1).val; rw [e1]; omega

/-- What point t of launch 1 writes back is block row t of the projection. -/
theorem flushed1_eq (c : Dev nD) (t : Fin cfg1.N) :
    (dat1 (F := Ideal) V c).flushed 2 t = ((cfg1.win 2).blk t).view.read (Elt Ideal) (Attn.projArr (V c main_v0) (V c main_v2)) := by
  show (cfg1.win 2).cut (grid1.coords t) ((dat1 V c).after 2 t) = _
  rw [after1_2]
  unfold out1_2
  rw [View.canon_unit_zero hz]
  simp only [View.ld_unit_zero (S := S1024x1024) hz]
  obtain ⟨-, -, -, -, e0, e1⟩ := idx_facts1 t
  have ht : t.val < 8 := lt_of_lt_of_eq t.isLt N_1
  funext j
  refine point1 (V c main_v0) (V c main_v2) (iblk1 V c 0 t) (iblk1 V c 1 t) t.val ht ?_ ?_ j (((cfg1.win 2).blk t).view.emb j) ?_ ?_
  · intro p k
    exact iblk1_0_apply V c t (ix2 p k) _ rfl rfl
  · intro q k
    exact iblk1_1_apply V c t (ix2 q k)
  · show win1_2.index t (0 : Fin 2) * 1024 + 1 * (j 0).val = t.val * 1024 + (j 0).val
    rw [e0]; omega
  · show win1_2.index t (1 : Fin 2) * 1024 + 1 * (j 1).val = (j 1).val
    rw [e1]; omega

/-- An index of the result array is in point t's block iff each coordinate is in the block's range on its axis. -/
theorem mem_blk1 (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v5).slice (win1_2.rect t)).set ↔ _
  rw [View.set_slice_whole, Rect.mem_set_unit]
  exact Iff.rfl

/-- Row r of the result is written back by point r / 1024. -/
theorem cover1 (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  have hN : cfg1.N = 8 := N_1
  let t : Fin cfg1.N := ⟨(i 0).val / 1024, by rw [hN]; omega⟩
  obtain ⟨-, -, -, -, e0, e1⟩ := idx_facts1 t
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; rw [e0]; show (i 0).val / 1024 * 1024 ≤ (i 0).val ∧ (i 0).val < (i 0).val / 1024 * 1024 + 1024; omega
  | ⟨1, _⟩ => show win1_2.index t (1 : Fin 2) * 1024 ≤ (i 1).val ∧ (i 1).val < win1_2.index t (1 : Fin 2) * 1024 + 1024; rw [e1]; omega

/-- Launch 1's result array after its 8 grid points. -/
theorem arr1 (c : Dev nD) :
    (dat1 (F := Ideal) V c).arrAt 2 cfg1.N = Attn.projArr (V c main_v0) (V c main_v2) :=
  (dat1 (F := Ideal) V c).arrAt_eq_of_cover 2 (Attn.projArr (V c main_v0) (V c main_v2)) (fun t _ => flushed1_eq V c t) cover1

/-! ## Launch 2 -/

/-- Launch 2's stored value at an entry: the casts are identities on the extended reals, so it is the contraction itself. -/
theorem pay2_at (x0 x1 : Vec Ideal S1024x1024 .f32) (p q : Fin 1024) :
    k2_pay1 (F := Ideal) x0 x1 (ix2 p q) = ∑ k : Fin 1024, x0 (ix2 p k) * x1 (ix2 q k) := by
  unfold k2_pay1
  simp only [shapeCast_self]
  exact matmul_at _ _ p q

/-- One grid point of a projection launch, over a row block x0 and a weight block x1 given as restrictions of the arrays X and
    Wm: the stored entry (p, q) is entry (1024·t + p, q) of the projection of X by Wm. -/
theorem point2 (X : S8192x1024.Idx → EReal) (Wm : S1024x1024.Idx → EReal) (x0 x1 : Vec Ideal S1024x1024 .f32) (tv : ℕ) (ht : tv < 8)
    (h0 : ∀ (p k : Fin 1024), x0 (ix2 p k) = X (ix2 (⟨tv * 1024 + p.val, by have := p.isLt; omega⟩ : Fin 8192) k))
    (h1 : ∀ (q k : Fin 1024), x1 (ix2 q k) = Wm (ix2 q k))
    (j : S1024x1024.Idx) (i : S8192x1024.Idx) (hi0 : (i 0).val = tv * 1024 + (j 0).val) (hi1 : (i 1).val = (j 1).val) :
    k2_pay1 (F := Ideal) x0 x1 j = Attn.projArr X Wm i := by
  obtain ⟨p, q, rfl⟩ : ∃ (p : Fin 1024) (q : Fin 1024), j = ix2 p q := ⟨j 0, j 1, eq_ix2 j⟩
  rw [pay2_at]
  unfold Attn.projArr
  refine Finset.sum_congr rfl fun k _ => ?_
  rw [h0, h1]
  have e0 : (⟨tv * 1024 + p.val, by have := p.isLt; omega⟩ : Fin 8192) = ⟨(i 0).val, (i 0).isLt⟩ := Fin.ext hi0.symm
  have e1 : q = ⟨(i 1).val, (i 1).isLt⟩ := Fin.ext hi1.symm
  rw [e0, ← e1]

/-- The index maps of launch 2, decided over its 8 points: the row block and the result block are block row t, the weight block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point t is rows 1024·t … 1024·t + 1023 of the array of tokens. -/
theorem iblk2_0_apply (c : Dev nD) (t : Fin cfg2.N) (x : S1024x1024.Idx) (k : S8192x1024.Idx)
    (hk0 : (k 0).val = t.val * 1024 + (x 0).val) (hk1 : (k 1).val = (x 1).val) :
    (iblk2 V c 0 t : Vec Ideal S1024x1024 .f32) x = (V c main_v0 : S8192x1024.Idx → EReal) k := by
  obtain ⟨e0, e1, -⟩ := idx_facts2 t
  unfold iblk2
  rw [View.read_apply]
  show V c main_v0 _ = V c main_v0 _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 1024 + 1 * (x 1).val = (k 1).val; rw [e1, hk1]; omega

/-- The weight block at every point is the whole weight array. -/
theorem iblk2_1_apply (c : Dev nD) (t : Fin cfg2.N) (x : S1024x1024.Idx) :
    (iblk2 V c 1 t : Vec Ideal S1024x1024 .f32) x = (V c main_v3 : S1024x1024.Idx → EReal) x := by
  obtain ⟨-, -, e0, e1, -⟩ := idx_facts2 t
  unfold iblk2
  rw [View.read_apply]
  show V c main_v3 _ = V c main_v3 _
  congr 1
  funext a
  apply Fin.ext
  match a with
  | ⟨0, _⟩ => show win2_1.index t (0 : Fin 2) * 1024 + 1 * (x 0).val = (x 0).val; rw [e0]; omega
  | ⟨1, _⟩ => show win2_1.index t (1 : Fin 2) * 1024 + 1 * (x 1).val = (x 1).val; rw [e1]; omega

/-- What point t of launch 2 writes back is block row t of the projection. -/
theorem flushed2_eq (c : Dev nD) (t : Fin cfg2.N) :
    (dat2 (F := Ideal) V c).flushed 2 t = ((cfg2.win 2).blk t).view.read (Elt Ideal) (Attn.projArr (V c main_v0) (V c main_v3)) := by
  show (cfg2.win 2).cut (grid2.coords t) ((dat2 V c).after 2 t) = _
  rw [after2_2]
  unfold out2_2
  rw [View.canon_unit_zero hz]
  simp only [View.ld_unit_zero (S := S1024x1024) hz]
  obtain ⟨-, -, -, -, e0, e1⟩ := idx_facts2 t
  have ht : t.val < 8 := lt_of_lt_of_eq t.isLt N_2
  funext j
  refine point2 (V c main_v0) (V c main_v3) (iblk2 V c 0 t) (iblk2 V c 1 t) t.val ht ?_ ?_ j (((cfg2.win 2).blk t).view.emb j) ?_ ?_
  · intro p k
    exact iblk2_0_apply V c t (ix2 p k) _ rfl rfl
  · intro q k
    exact iblk2_1_apply V c t (ix2 q k)
  · show win2_2.index t (0 : Fin 2) * 1024 + 1 * (j 0).val = t.val * 1024 + (j 0).val
    rw [e0]; omega
  · show win2_2.index t (1 : Fin 2) * 1024 + 1 * (j 1).val = (j 1).val
    rw [e1]; omega

/-- An index of the result array is in point t's block iff each coordinate is in the block's range on its axis. -/
theorem mem_blk2 (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v6).slice (win2_2.rect t)).set ↔ _
  rw [View.set_slice_whole, Rect.mem_set_unit]
  exact Iff.rfl

/-- Row r of the result is written back by point r / 1024. -/
theorem cover2 (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  have hN : cfg2.N = 8 := N_2
  let t : Fin cfg2.N := ⟨(i 0).val / 1024, by rw [hN]; omega⟩
  obtain ⟨-, -, -, -, e0, e1⟩ := idx_facts2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e0]; show (i 0).val / 1024 * 1024 ≤ (i 0).val ∧ (i 0).val < (i 0).val / 1024 * 1024 + 1024; omega
  | ⟨1, _⟩ => show win2_2.index t (1 : Fin 2) * 1024 ≤ (i 1).val ∧ (i 1).val < win2_2.index t (1 : Fin 2) * 1024 + 1024; rw [e1]; omega

/-- Launch 2's result array after its 8 grid points. -/
theorem arr2 (c : Dev nD) :
    (dat2 (F := Ideal) V c).arrAt 2 cfg2.N = Attn.projArr (V c main_v0) (V c main_v3) :=
  (dat2 (F := Ideal) V c).arrAt_eq_of_cover 2 (Attn.projArr (V c main_v0) (V c main_v3)) (fun t _ => flushed2_eq V c t) cover2

end Cert.KernelIdeal.ProjValue

end
-- ==== Proof.TileGeneric.lean ====
/-
  One key/value tile of the attention body as six vector functions, generic in the float instance, and what each is
  at an index on the extended reals: the tile's masked scaled scores, the running maximum, the rescaling factor, the
  tile's exponentials, the running normaliser, the running weighted sum, and the final quotient.
-/
import proofs.«406224_j55722905699212_3_alg».proof.KernelIdeal
import proofs.«406224_j55722905699212_3_alg».proof.Proof.Gen.KernelIdeal.Skeleton
import proofs.«406224_j55722905699212_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.StableHlo.Predicate

set_option maxRecDepth 16384

noncomputable section

namespace Cert.KernelIdeal.Tile

open Idealize.ShloMosaic Idealize.ShloMosaic.TcCoe Idealize.ShloMosaic.ValueIdx Cert.KernelIdeal Cert.KernelIdeal.Facts₀ Cert.KernelIdeal.Facts

variable {F : FTy → Type} [FloatOps F] [Named F]

/-- The tile's scores q·kᵀ/32 with -∞ where the key column (colBase + c) lies beyond the query row (rowBase + p). -/
def gScore (qv : FVec F S256x64 .bf16) (kraw : Vec F S1x1x256x64 .bf16) (rowBase colBase : BitVec 32) : FVec F S256x256 .f32 :=
  have v89 : FVec F S256x64 .bf16 := shapeCast S256x64 kraw shapeCasts_S1x1x256x64_S256x64
  have v93 : FVec F S64x256 .bf16 := transpose S64x256 [1, 0] v89 transposes_S256x64_p1_0_S64x256
  have cst_69 : FVec F S256x256 .f32 := constant S256x256 .f32 0x00000000#32
  have v94 : FVec F S256x256 .f32 := matmul dot_S256x64_S64x256_S256x256_1_0_0_1_n_n none qv v93 cst_69
  have cst_70 : F .f32 := Scalar.ofBits .f32 0x3D000000#32
  have v95 : FVec F S256x256 .f32 := broadcast S256x256 cst_70
  have v96 : FVec F S256x256 .f32 := mulf v94 v95
  have v97 : IVec S256x256 32 := iota .tc S256x256 32 [0] iota_S256x256_d0_w32
  have v98 : IVec S256x256 32 := broadcast S256x256 rowBase
  have v99 : IVec S256x256 32 := addi v98 v97
  have v101 : IVec S256x256 32 := iota .tc S256x256 32 [1] iota_S256x256_d1_w32
  have v102 : IVec S256x256 32 := broadcast S256x256 colBase
  have v103 : IVec S256x256 32 := addi v102 v101
  have v104 : IVec S256x256 1 := cmpi .sge v99 v103
  have cst_72 : F .f32 := Named.named κ "neg_big" 0xF149F2CA#32
  have v105 : FVec F S256x256 .f32 := broadcast S256x256 cst_72
  have v106 : FVec F S256x256 .f32 := select v104 v96 v105
  v106

/-- The running maximum after the tile. -/
def gM (s : FVec F S256x256 .f32) (m : FVec F S256x1 .f32) : FVec F S256x1 .f32 :=
  have v107 : FVec F S256 .f32 := multiReduction .maximumf [1] S256 s 0xFF800000#32 reduces_S256x256_S256 (.inl rfl) rfl
  have v108 : FVec F S256x1 .f32 := shapeCast S256x1 v107 shapeCasts_S256_S256x1
  have v109 : FVec F S256x1 .f32 := maximumf m v108
  v109

/-- The factor exp(m - m') by which the old sums are rescaled. -/
def gAlpha (s : FVec F S256x256 .f32) (m : FVec F S256x1 .f32) : FVec F S256x1 .f32 :=
  have v110 : FVec F S256x1 .f32 := subf m (gM s m)
  have v111 : FVec F S256x1 .f32 := exp v110
  v111

/-- The tile's exponentials exp(s - m'). -/
def gP (s : FVec F S256x256 .f32) (m : FVec F S256x1 .f32) : FVec F S256x256 .f32 :=
  have v112 : FVec F S256x256 .f32 := broadcastTo S256x256 (gM s m) broadcasts_S256x1_S256x256
  have v113 : FVec F S256x256 .f32 := subf s v112
  have v114 : FVec F S256x256 .f32 := exp v113
  v114

/-- The running normaliser after the tile. -/
def gL (s : FVec F S256x256 .f32) (m l : FVec F S256x1 .f32) : FVec F S256x1 .f32 :=
  have v115 : FVec F S256x1 .f32 := mulf (gAlpha s m) l
  have v116 : FVec F S256 .f32 := multiReduction .add [1] S256 (gP s m) 0x00000000#32 reduces_S256x256_S256 (.inl rfl) rfl
  have v117 : FVec F S256x1 .f32 := shapeCast S256x1 v116 shapeCasts_S256_S256x1
  have v118 : FVec F S256x1 .f32 := addf v115 v117
  v118

/-- The running weighted sum after the tile. -/
def gA (s : FVec F S256x256 .f32) (m : FVec F S256x1 .f32) (a : FVec F S256x64 .f32) (vv : FVec F S256x64 .bf16) : FVec F S256x64 .f32 :=
  have v119 : FVec F S256x64 .f32 := broadcastTo S256x64 (gAlpha s m) broadcasts_S256x1_S256x64
  have v120 : FVec F S256x64 .f32 := mulf v119 a
  have v121 : FVec F S256x256 .bf16 := truncf .bf16 (gP s m) bitsLt_bf16_f32
  have cst_75 : FVec F S256x64 .f32 := constant S256x64 .f32 0x00000000#32
  have v122 : FVec F S256x64 .f32 := matmul dot_S256x256_S256x64_S256x64_1_0_0_1_n_n none v121 vv cst_75
  have v123 : FVec F S256x64 .f32 := addf v120 v122
  v123

/-- The stored block: the weighted sum over the normaliser. -/
def gOut (l : FVec F S256x1 .f32) (a : FVec F S256x64 .f32) : FVec F S1x1x256x64 .f32 :=
  have v68 : FVec F S256x64 .f32 := broadcastTo S256x64 l broadcasts_S256x1_S256x64
  have v69 : FVec F S256x64 .f32 := divf a v68
  have v72 : FVec F S1x1x256x64 .f32 := shapeCast S1x1x256x64 v69 shapeCasts_S256x64_S1x1x256x64
  v72

/-! ## The ingredients: layout operations, lane reductions, the two products and the mask, each at an index -/

section Layout
variable {α : Type}

/-- A [1, 1, a, b] array viewed [a, b] reads, at (i, j), the operand at (0, 0, i, j): the two row-major positions agree. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array stored as [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- An [a] array viewed as the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows of [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index over row p with coordinate c put back on the reduced axis is (p, c). -/
theorem lift_row (p c : Fin 256) : reduces_S256x256_S256.lift (ix1 p) c = ix2 p c :=
  funext fun a => Fin.ext (match a with | ⟨0, _⟩ => rfl | ⟨1, _⟩ => rfl)

/-- Row p of the lane maximum: the fold of max from -∞ (the accumulator's word denotes -∞) over the row. -/
theorem laneMax_apply (s : FVec Ideal S256x256 .f32) (p : Fin 256) :
    (multiReduction (F := Ideal) .maximumf [1] S256 s 0xFF800000#32 reduces_S256x256_S256 (.inl rfl) rfl) (ix1 p)
      = (Finset.univ : Finset (Fin 256)).fold max ⊥ (fun c => s (ix2 p c)) := by
  refine (Ideal.multiReduction_maximumf_single s 0xFF800000#32 reduces_S256x256_S256 (.inl rfl) rfl (ix1 p)).trans ?_
  have hb : Ideal.ofBits .f32 0xFF800000#32 = (⊥ : EReal) := by simp [Ideal.ofBits, Ideal.ieee]
  show (Finset.univ : Finset (Fin 256)).fold max (Ideal.ofBits .f32 0xFF800000#32)
      (fun c => s (reduces_S256x256_S256.lift (ix1 p) c)) = _
  rw [hb]
  exact congrArg (fun f => (Finset.univ : Finset (Fin 256)).fold max ⊥ f) (funext fun c => congrArg s (lift_row p c))

/-- Row p of the lane sum: the sum over the row. -/
theorem laneSum_apply (x : FVec Ideal S256x256 .f32) (p : Fin 256) :
    (multiReduction (F := Ideal) .add [1] S256 x 0x00000000#32 reduces_S256x256_S256 (.inl rfl) rfl) (ix1 p)
      = ∑ c : Fin 256, x (ix2 p c) := by
  refine (Ideal.multiReduction_add_single x 0x00000000#32 reduces_S256x256_S256 (.inl rfl) rfl (ix1 p)).trans ?_
  exact Finset.sum_congr rfl fun c _ => congrArg x (lift_row p c)

/-! ### The product q·kᵀ: the left operand's axis 1 against the right operand's axis 0 -/

theorem lhs_qk_0 (i : S256x256.Idx) (q : dot_S256x64_S64x256_S256x256_1_0_0_1_n_n.contr.Idx) :
    (dot_S256x64_S64x256_S256x256_1_0_0_1_n_n.lhsIdx i q 0).val = (i 0).val := by
  unfold DotDims.lhsIdx
  rw [dif_neg (show ¬(0 : Fin S256x64.rank) ∈ dot_S256x64_S64x256_S256x256_1_0_0_1_n_n.lhsBatch by decide), dif_pos (show (0 : Fin S256x64.rank) ∈ dot_S256x64_S64x256_S256x256_1_0_0_1_n_n.lhsNonContracting by decide)]
  rfl
theorem lhs_qk_1 (i : S256x256.Idx) (q : dot_S256x64_S64x256_S256x256_1_0_0_1_n_n.contr.Idx) :
    (dot_S256x64_S64x256_S256x256_1_0_0_1_n_n.lhsIdx i q 1).val = (q ⟨0, by decide⟩).val :=
  dot_S256x64_S64x256_S256x256_1_0_0_1_n_n.lhsIdx_val_of_single rfl i q
theorem rhs_qk_0 (i : S256x256.Idx) (q : dot_S256x64_S64x256_S256x256_1_0_0_1_n_n.contr.Idx) :
    (dot_S256x64_S64x256_S256x256_1_0_0_1_n_n.rhsIdx i q 0).val = (q ⟨0, by decide⟩).val :=
  dot_S256x64_S64x256_S256x256_1_0_0_1_n_n.rhsIdx_val_of_single rfl i q
theorem rhs_qk_1 (i : S256x256.Idx) (q : dot_S256x64_S64x256_S256x256_1_0_0_1_n_n.contr.Idx) :
    (dot_S256x64_S64x256_S256x256_1_0_0_1_n_n.rhsIdx i q 1).val = (i 1).val := by
  unfold DotDims.rhsIdx
  rw [dif_neg (show ¬(1 : Fin S64x256.rank) ∈ dot_S256x64_S64x256_S256x256_1_0_0_1_n_n.rhsBatch by decide), dif_pos (show (1 : Fin S64x256.rank) ∈ dot_S256x64_S64x256_S256x256_1_0_0_1_n_n.rhsNonContracting by decide)]
  rfl

/-- Entry (p, c) of the product into the zero accumulator: Σ_e Q[p,e]·KT[e,c]. -/
theorem qk_matmul_apply (Q : FVec Ideal S256x64 .bf16) (KT : FVec Ideal S64x256 .bf16) (p c : Fin 256) :
    matmul dot_S256x64_S64x256_S256x256_1_0_0_1_n_n none Q KT (constant (F := Ideal) S256x256 .f32 0x00000000#32) (ix2 p c)
      = ∑ e : Fin 64, Q (ix2 p e) * KT (ix2 e c) := by
  refine (Ideal.matmul_constant_zero_apply dot_S256x64_S64x256_S256x256_1_0_0_1_n_n none Q KT (ix2 p c)).trans ?_
  rw [← Equiv.sum_comp (ValueIdx.contrEquiv1 dot_S256x64_S64x256_S256x256_1_0_0_1_n_n 64 rfl rfl).symm]
  refine Finset.sum_congr rfl fun e _ => ?_
  have hk := ValueIdx.contrEquiv1_symm_val dot_S256x64_S64x256_S256x256_1_0_0_1_n_n 64 rfl rfl e
  have el : dot_S256x64_S64x256_S256x256_1_0_0_1_n_n.lhsIdx (ix2 p c) ((ValueIdx.contrEquiv1 dot_S256x64_S64x256_S256x256_1_0_0_1_n_n 64 rfl rfl).symm e) = ix2 p e := funext fun a => Fin.ext (by
    match a with
    | ⟨0, _⟩ => exact lhs_qk_0 _ _
    | ⟨1, _⟩ => exact (lhs_qk_1 _ _).trans hk)
  have er : dot_S256x64_S64x256_S256x256_1_0_0_1_n_n.rhsIdx (ix2 p c) ((ValueIdx.contrEquiv1 dot_S256x64_S64x256_S256x256_1_0_0_1_n_n 64 rfl rfl).symm e) = ix2 e c := funext fun a => Fin.ext (by
    match a with
    | ⟨0, _⟩ => exact (rhs_qk_0 _ _).trans hk
    | ⟨1, _⟩ => exact rhs_qk_1 _ _)
  rw [el, er]

/-! ### The product p·v: the left operand's axis 1 against the right operand's axis 0 -/

theorem lhs_pv_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs_pv_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhs_pv_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhs_pv_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- Entry (p, d) of the product into the zero accumulator: Σ_c P[p,c]·V[c,d]. -/
theorem pv_matmul_apply (P : FVec Ideal S256x256 .bf16) (V : FVec Ideal S256x64 .bf16) (p : Fin 256) (d : Fin 64) :
    matmul dot_S256x256_S256x64_S256x64_1_0_0_1_n_n none P V (constant (F := Ideal) S256x64 .f32 0x00000000#32) (ix2 p d)
      = ∑ c : Fin 256, P (ix2 p c) * V (ix2 c d) := by
  refine (Ideal.matmul_constant_zero_apply dot_S256x256_S256x64_S256x64_1_0_0_1_n_n none P V (ix2 p d)).trans ?_
  rw [← Equiv.sum_comp (ValueIdx.contrEquiv1 dot_S256x256_S256x64_S256x64_1_0_0_1_n_n 256 rfl rfl).symm]
  refine Finset.sum_congr rfl fun c _ => ?_
  have hk := ValueIdx.contrEquiv1_symm_val dot_S256x256_S256x64_S256x64_1_0_0_1_n_n 256 rfl rfl c
  have el : dot_S256x256_S256x64_S256x64_1_0_0_1_n_n.lhsIdx (ix2 p d) ((ValueIdx.contrEquiv1 dot_S256x256_S256x64_S256x64_1_0_0_1_n_n 256 rfl rfl).symm c) = ix2 p c := funext fun a => Fin.ext (by
    match a with
    | ⟨0, _⟩ => exact lhs_pv_0 _ _
    | ⟨1, _⟩ => exact (lhs_pv_1 _ _).trans hk)
  have er : dot_S256x256_S256x64_S256x64_1_0_0_1_n_n.rhsIdx (ix2 p d) ((ValueIdx.contrEquiv1 dot_S256x256_S256x64_S256x64_1_0_0_1_n_n 256 rfl rfl).symm c) = ix2 c d := funext fun a => Fin.ext (by
    match a with
    | ⟨0, _⟩ => exact (rhs_pv_0 _ _).trans hk
    | ⟨1, _⟩ => exact rhs_pv_1 _ _)
  rw [el, er]

/-! ### The causal mask, the sentinel and the selection -/

/-- The signed compare of the words R + p and C + c, both far below 2³¹, holds exactly when C + c ≤ R + p. -/
theorem mask_iff (R C : ℕ) (hR : R + 256 ≤ 1024) (hC : C + 256 ≤ 1024) (p c : Fin 256) :
    IntOp.cmpi .sge (IntOp.addi (BitVec.ofNat 32 R) (BitVec.ofNat 32 p.val))
        (IntOp.addi (BitVec.ofNat 32 C) (BitVec.ofNat 32 c.val)) = 1#1 ↔ C + c.val ≤ R + p.val := by
  have hp := p.isLt
  have hc := c.isLt
  have ha : (IntOp.addi (BitVec.ofNat 32 R) (BitVec.ofNat 32 p.val)).toNat = R + p.val := by
    unfold IntOp.addi
    rw [BitVec.toNat_add, BitVec.toNat_ofNat, BitVec.toNat_ofNat]
    omega
  have hb : (IntOp.addi (BitVec.ofNat 32 C) (BitVec.ofNat 32 c.val)).toNat = C + c.val := by
    unfold IntOp.addi
    rw [BitVec.toNat_add, BitVec.toNat_ofNat, BitVec.toNat_ofNat]
    omega
  rw [StableHlo.Predicate.sge_iff_toNat (by rw [ha]; omega) (by rw [hb]; omega), ha, hb]

/-- A selection on a bit that is set exactly when P holds is the conditional on P. -/
theorem select_iff {α : Type} (b : BitVec 1) (P : Prop) [Decidable P] (h : b = 1#1 ↔ P) (x y : α) :
    Scalar.select b x y = if P then x else y := by
  unfold Scalar.select
  exact if_congr h rfl rfl

/-- The named sentinel denotes -∞ on the extended reals, by the certificate's table. -/
theorem neg_big_eq : Named.named (F := Ideal) κ "neg_big" (φ := .f32) 0xF149F2CA#32 = (⊥ : EReal) :=
  IdealRules.named_const.ideal_named_scalar _ _ _ _ rfl

/-! ## At an index, on the extended reals -/

/-- Entry (p, c) of the tile's scores: the scaled dot product of query row p with key row c where the key's global
    column C + c does not exceed the query's global row R + p, and -∞ elsewhere (the named sentinel is -∞). -/
theorem gScore_apply (qv : FVec Ideal S256x64 .bf16) (kraw : Vec Ideal S1x1x256x64 .bf16) (R C : ℕ)
    (hR : R + 256 ≤ 1024) (hC : C + 256 ≤ 1024) (p c : Fin 256) :
    gScore (F := Ideal) qv kraw (BitVec.ofNat 32 R) (BitVec.ofNat 32 C) (ix2 p c)
      = Attn.tileScore (fun e => qv (ix2 p e)) (fun c' e => kraw (ix4 0 0 c' e)) C (R + p.val) c := by
  refine (select_iff _ (C + c.val ≤ R + p.val) ?_ _ _).trans ?_
  · show IntOp.cmpi .sge (IntOp.addi (BitVec.ofNat 32 R) (iota .tc S256x256 32 [0] iota_S256x256_d0_w32 (ix2 p c)))
        (IntOp.addi (BitVec.ofNat 32 C) (iota .tc S256x256 32 [1] iota_S256x256_d1_w32 (ix2 p c))) = 1#1 ↔ _
    rw [iota_single_apply, iota_single_apply]
    exact mask_iff R C hR hC p c
  · show _ = if C + c.val ≤ R + p.val then (∑ e : Fin 64, qv (ix2 p e) * kraw (ix4 0 0 c e)) * Attn.scale else ⊥
    refine if_congr Iff.rfl ?_ neg_big_eq
    show matmul dot_S256x64_S64x256_S256x256_1_0_0_1_n_n none qv
        (transpose S64x256 [1, 0] (shapeCast S256x64 kraw shapeCasts_S1x1x256x64_S256x64) transposes_S256x64_p1_0_S64x256)
        (constant (F := Ideal) S256x256 .f32 0x00000000#32) (ix2 p c) * Attn.scale = _
    rw [qk_matmul_apply]
    refine congrArg (· * Attn.scale) (Finset.sum_congr rfl fun e _ => ?_)
    rw [transpose_ix2_apply, shapeCast_11ab_ab_apply]

/-- Row p of the running maximum after the tile. -/
theorem gM_apply (s : FVec Ideal S256x256 .f32) (m : FVec Ideal S256x1 .f32) (p : Fin 256) :
    gM (F := Ideal) s m (ix2 p 0) = Attn.tileM (m (ix2 p 0)) (fun c => s (ix2 p c)) := by
  show max (m (ix2 p 0)) (shapeCast S256x1
      (multiReduction (F := Ideal) .maximumf [1] S256 s 0xFF800000#32 reduces_S256x256_S256 (.inl rfl) rfl)
      shapeCasts_S256_S256x1 (ix2 p 0))
    = max (m (ix2 p 0)) ((Finset.univ : Finset (Fin 256)).fold max ⊥ (fun c => s (ix2 p c)))
  rw [shapeCast_a_a1_apply, laneMax_apply]

/-- Row p of the rescaling factor exp(m - m'). -/
theorem gAlpha_apply (s : FVec Ideal S256x256 .f32) (m : FVec Ideal S256x1 .f32) (p : Fin 256) :
    gAlpha (F := Ideal) s m (ix2 p 0)
      = Ideal.exp (m (ix2 p 0) - Attn.tileM (m (ix2 p 0)) (fun c => s (ix2 p c))) := by
  show Ideal.exp (m (ix2 p 0) - gM (F := Ideal) s m (ix2 p 0)) = _
  rw [gM_apply]

/-- Entry (p, c) of the tile's exponentials exp(s - m'). -/
theorem gP_apply (s : FVec Ideal S256x256 .f32) (m : FVec Ideal S256x1 .f32) (p c : Fin 256) :
    gP (F := Ideal) s m (ix2 p c)
      = Ideal.exp (s (ix2 p c) - Attn.tileM (m (ix2 p 0)) (fun c' => s (ix2 p c'))) := by
  show Ideal.exp (s (ix2 p c) - broadcastTo S256x256 (gM (F := Ideal) s m) broadcasts_S256x1_S256x256 (ix2 p c)) = _
  rw [broadcastTo_a1_ab_apply, gM_apply]

/-- Row p of the running normaliser after the tile. -/
theorem gL_apply (s : FVec Ideal S256x256 .f32) (m l : FVec Ideal S256x1 .f32) (p : Fin 256) :
    gL (F := Ideal) s m l (ix2 p 0) = Attn.tileL (m (ix2 p 0)) (l (ix2 p 0)) (fun c => s (ix2 p c)) := by
  show gAlpha (F := Ideal) s m (ix2 p 0) * l (ix2 p 0)
      + shapeCast S256x1
          (multiReduction (F := Ideal) .add [1] S256 (gP (F := Ideal) s m) 0x00000000#32 reduces_S256x256_S256 (.inl rfl) rfl)
          shapeCasts_S256_S256x1 (ix2 p 0)
    = Ideal.exp (m (ix2 p 0) - Attn.tileM (m (ix2 p 0)) (fun c => s (ix2 p c))) * l (ix2 p 0)
      + ∑ c : Fin 256, Ideal.exp (s (ix2 p c) - Attn.tileM (m (ix2 p 0)) (fun c' => s (ix2 p c')))
  rw [gAlpha_apply, shapeCast_a_a1_apply, laneSum_apply]
  refine congrArg (_ + ·) (Finset.sum_congr rfl fun c _ => ?_)
  rw [gP_apply]

/-- Entry (p, d) of the running weighted sum after the tile. -/
theorem gA_apply (s : FVec Ideal S256x256 .f32) (m : FVec Ideal S256x1 .f32) (a : FVec Ideal S256x64 .f32)
    (vv : FVec Ideal S256x64 .bf16) (p : Fin 256) (d : Fin 64) :
    gA (F := Ideal) s m a vv (ix2 p d)
      = Attn.tileA (m (ix2 p 0)) (a (ix2 p d)) (fun c => s (ix2 p c)) (fun c => vv (ix2 c d)) := by
  show broadcastTo S256x64 (gAlpha (F := Ideal) s m) broadcasts_S256x1_S256x64 (ix2 p d) * a (ix2 p d)
      + matmul dot_S256x256_S256x64_S256x64_1_0_0_1_n_n none (truncf .bf16 (gP (F := Ideal) s m) bitsLt_bf16_f32) vv
          (constant (F := Ideal) S256x64 .f32 0x00000000#32) (ix2 p d)
    = Ideal.exp (m (ix2 p 0) - Attn.tileM (m (ix2 p 0)) (fun c => s (ix2 p c))) * a (ix2 p d)
      + ∑ c : Fin 256, Ideal.exp (s (ix2 p c) - Attn.tileM (m (ix2 p 0)) (fun c' => s (ix2 p c'))) * vv (ix2 c d)
  rw [broadcastTo_a1_ab_apply, gAlpha_apply, pv_matmul_apply]
  refine congrArg (_ + ·) (Finset.sum_congr rfl fun c _ => ?_)
  show gP (F := Ideal) s m (ix2 p c) * vv (ix2 c d) = _
  rw [gP_apply]

/-- Entry (0, 0, p, d) of the stored block: the weighted sum over the normaliser. -/
theorem gOut_apply (l : FVec Ideal S256x1 .f32) (a : FVec Ideal S256x64 .f32) (p : Fin 256) (d : Fin 64) :
    gOut (F := Ideal) l a (ix4 0 0 p d) = Ideal.div (a (ix2 p d)) (l (ix2 p 0)) := by
  show shapeCast S1x1x256x64 (divf a (broadcastTo S256x64 l broadcasts_S256x1_S256x64)) shapeCasts_S256x64_S1x1x256x64
      (ix4 0 0 p d) = _
  rw [shapeCast_ab_11ab_apply]
  show Ideal.div (a (ix2 p d)) (broadcastTo S256x64 l broadcasts_S256x1_S256x64 (ix2 p d)) = _
  rw [broadcastTo_a1_ab_apply]

/-- A raw 1×1×256×64 load viewed as 256×64. -/
theorem cast_apply (x : Vec Ideal S1x1x256x64 .bf16) (p : Fin 256) (e : Fin 64) :
    (shapeCast S256x64 x shapeCasts_S1x1x256x64_S256x64 : FVec Ideal S256x64 .bf16) (ix2 p e) = x (ix4 0 0 p e) :=
  shapeCast_11ab_ab_apply x shapeCasts_S1x1x256x64_S256x64 p e

end Cert.KernelIdeal.Tile

end
-- ==== Proof.TileInst.lean ====
/-
  The attention body's payloads are the generic tile functions at each query tile's row offset (0, 256, 512, 768) and
  each trip's column offset 256·k; hence what every payload is at an index: one step of the running
  (maximum, normaliser, weighted sum) on a query row, over the tile's masked scaled scores.
-/
import proofs.«406224_j55722905699212_3_alg».proof.KernelIdeal
import proofs.«406224_j55722905699212_3_alg».proof.Proof.Gen.KernelIdeal.Skeleton
import proofs.«406224_j55722905699212_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import proofs.«406224_j55722905699212_3_alg».proof.Proof.TileGeneric
import Mathlib.Tactic.IntervalCases
set_option maxRecDepth 16384

noncomputable section

namespace Cert.KernelIdeal.Tile

open Idealize.ShloMosaic Idealize.ShloMosaic.TcCoe Idealize.ShloMosaic.ValueIdx Cert.KernelIdeal Cert.KernelIdeal.Gen

variable {F : FTy → Type} [FloatOps F] [Named F]

/-! ## The payloads as the generic functions (definitional) -/

theorem pay1_eq (v62 : FVec F S256x64 .bf16) (k : Fin k3_t2_loop.trips) (v88 : Vec F S1x1x256x64 .bf16) :
    k3_pay1 v62 k v88 = gScore v62 v88 512#32 (Scalar.muli (Scf.iv 0#32 1#32 k) 256#32) := rfl
theorem pay2_eq (v62 : FVec F S256x64 .bf16) (k : Fin k3_t2_loop.trips) (m : FVec F S256x1 .f32) (v88 : Vec F S1x1x256x64 .bf16) :
    k3_pay2 v62 k m v88 = gM (k3_pay1 v62 k v88) m := rfl
theorem pay5_eq (v62 : FVec F S256x64 .bf16) (k : Fin k3_t2_loop.trips) (m l : FVec F S256x1 .f32) (v88 : Vec F S1x1x256x64 .bf16) :
    k3_pay5 v62 k m l v88 = gL (k3_pay1 v62 k v88) m l := rfl
theorem pay6_eq (v62 : FVec F S256x64 .bf16) (k : Fin k3_t2_loop.trips) (m : FVec F S256x1 .f32) (a : FVec F S256x64 .f32) (v88 v91 : Vec F S1x1x256x64 .bf16) :
    k3_pay6 v62 k m a v88 v91 = gA (k3_pay1 v62 k v88) m a (shapeCast S256x64 v91 Facts₀.shapeCasts_S1x1x256x64_S256x64) := rfl
theorem pay7_eq (l : FVec F S256x1 .f32) (a : FVec F S256x64 .f32) : k3_pay7 l a = gOut l a := rfl

/-! ## The other payloads as the generic functions (definitional) -/

theorem pay11_eq (v73 : Vec F S1x1x256x64 .bf16) (k : Fin k3_t3_loop.trips) (v88 : Vec F S1x1x256x64 .bf16) :
    k3_pay11 v73 k v88 = gScore (shapeCast S256x64 v73 Facts₀.shapeCasts_S1x1x256x64_S256x64) v88 768#32 (Scalar.muli (Scf.iv 0#32 1#32 k) 256#32) := rfl
theorem pay12_eq (v73 : Vec F S1x1x256x64 .bf16) (k : Fin k3_t3_loop.trips) (m : FVec F S256x1 .f32) (v88 : Vec F S1x1x256x64 .bf16) :
    k3_pay12 v73 k m v88 = gM (k3_pay11 v73 k v88) m := rfl
theorem pay15_eq (v73 : Vec F S1x1x256x64 .bf16) (k : Fin k3_t3_loop.trips) (m l : FVec F S256x1 .f32) (v88 : Vec F S1x1x256x64 .bf16) :
    k3_pay15 v73 k m l v88 = gL (k3_pay11 v73 k v88) m l := rfl
theorem pay16_eq (v73 : Vec F S1x1x256x64 .bf16) (k : Fin k3_t3_loop.trips) (m : FVec F S256x1 .f32) (a : FVec F S256x64 .f32) (v88 v91 : Vec F S1x1x256x64 .bf16) :
    k3_pay16 v73 k m a v88 v91 = gA (k3_pay11 v73 k v88) m a (shapeCast S256x64 v91 Facts₀.shapeCasts_S1x1x256x64_S256x64) := rfl
theorem pay17_eq (l : FVec F S256x1 .f32) (a : FVec F S256x64 .f32) : k3_pay17 l a = gOut l a := rfl

theorem pay30_eq (v49 : Vec F S1x1x256x64 .bf16) (k : Fin k3_t1_loop.trips) (v88 : Vec F S1x1x256x64 .bf16) :
    k3_pay30 v49 k v88 = gScore (shapeCast S256x64 v49 Facts₀.shapeCasts_S1x1x256x64_S256x64) v88 256#32 (Scalar.muli (Scf.iv 0#32 1#32 k) 256#32) := rfl
theorem pay31_eq (v49 : Vec F S1x1x256x64 .bf16) (k : Fin k3_t1_loop.trips) (m : FVec F S256x1 .f32) (v88 : Vec F S1x1x256x64 .bf16) :
    k3_pay31 v49 k m v88 = gM (k3_pay30 v49 k v88) m := rfl
theorem pay34_eq (v49 : Vec F S1x1x256x64 .bf16) (k : Fin k3_t1_loop.trips) (m l : FVec F S256x1 .f32) (v88 : Vec F S1x1x256x64 .bf16) :
    k3_pay34 v49 k m l v88 = gL (k3_pay30 v49 k v88) m l := rfl
theorem pay35_eq (v49 : Vec F S1x1x256x64 .bf16) (k : Fin k3_t1_loop.trips) (m : FVec F S256x1 .f32) (a : FVec F S256x64 .f32) (v88 v91 : Vec F S1x1x256x64 .bf16) :
    k3_pay35 v49 k m a v88 v91 = gA (k3_pay30 v49 k v88) m a (shapeCast S256x64 v91 Facts₀.shapeCasts_S1x1x256x64_S256x64) := rfl
theorem pay36_eq (l : FVec F S256x1 .f32) (a : FVec F S256x64 .f32) : k3_pay36 l a = gOut l a := rfl

theorem pay21_eq (v0 v8 : Vec F S1x1x256x64 .bf16) :
    k3_pay21 v0 v8 = gScore (shapeCast S256x64 v0 Facts₀.shapeCasts_S1x1x256x64_S256x64) v8 0#32 (Scalar.muli 0#32 256#32) := rfl
theorem pay26_eq (v0 v8 v11 : Vec F S1x1x256x64 .bf16) :
    k3_pay26 (k3_pay19 (F := F)) (k3_pay20 v11) (k3_pay23 v0 v8) (k3_pay24 v0 v8) (k3_pay25 v0 v8)
      = gOut (gL (k3_pay21 v0 v8) (k3_pay18 (F := F)) (broadcast S256x1 (Scalar.ofBits .f32 0x00000000#32)))
             (gA (k3_pay21 v0 v8) (k3_pay18 (F := F)) (k3_pay19 (F := F)) (k3_pay20 v11)) := rfl

/-! ## The words the payloads carry -/

/-- The column offset of trip n: the word 256·n, for the at most four trips. -/
private theorem colBase (n : ℕ) (h : n < 4) : Scalar.muli (Scf.iv 0#32 1#32 n) 256#32 = BitVec.ofNat 32 (n * 256) := by
  interval_cases n <;> rfl

/-- The pattern 0xFF800000 is -∞. -/
private theorem word_negInf : Ideal.ofBits .f32 0xFF800000#32 = ⊥ := by simp [Ideal.ofBits, Ideal.ieee]

/-- A splat of the -∞ pattern is -∞ at every index. -/
private theorem splat_negInf {s : Shape} (i : s.Idx) :
    (broadcast s (Scalar.ofBits (F := Ideal) .f32 0xFF800000#32) : FVec Ideal s .f32) i = ⊥ := word_negInf

/-- A splat of the zero pattern is 0 at every index. -/
private theorem splat_zero {s : Shape} (i : s.Idx) :
    (broadcast s (Scalar.ofBits (F := Ideal) .f32 0x00000000#32) : FVec Ideal s .f32) i = 0 := Ideal.ofBits_zero_f32

/-! ## At an index -/

/-! ### The loop of the query tile at rows 512 … 767 -/

/-- Row p of the tile's scores, as the masked scaled scores of the query row 512 + p against the trip's 256 keys. -/
private theorem t2_scoreRow (qv : FVec Ideal S256x64 .bf16) (k : Fin k3_t2_loop.trips) (kraw : Vec Ideal S1x1x256x64 .bf16) (p : Fin 256) :
    (fun c : Fin 256 => k3_pay1 (F := Ideal) qv k kraw (ix2 p c))
      = Attn.tileScore (fun e => qv (ix2 p e)) (fun c e => kraw (ix4 0 0 c e)) (k.val * 256) (512 + p.val) := by
  have hk : k.val < 3 := Nat.lt_of_lt_of_le k.isLt Cert.KernelIdeal.Gen.k3_t2_abs.2.1
  funext c
  rw [pay1_eq, colBase k.val (by omega),
    gScore_apply qv kraw 512 (k.val * 256) (by omega) (by omega) p c]

theorem t2_M (qv : FVec Ideal S256x64 .bf16) (k : Fin k3_t2_loop.trips) (m : FVec Ideal S256x1 .f32) (kraw : Vec Ideal S1x1x256x64 .bf16) (p : Fin 256) :
    k3_pay2 (F := Ideal) qv k m kraw (ix2 p 0)
      = Attn.tileM (m (ix2 p 0)) (Attn.tileScore (fun e => qv (ix2 p e)) (fun c e => kraw (ix4 0 0 c e)) (k.val * 256) (512 + p.val)) := by
  rw [pay2_eq, gM_apply, t2_scoreRow]

theorem t2_L (qv : FVec Ideal S256x64 .bf16) (k : Fin k3_t2_loop.trips) (m l : FVec Ideal S256x1 .f32) (kraw : Vec Ideal S1x1x256x64 .bf16) (p : Fin 256) :
    k3_pay5 (F := Ideal) qv k m l kraw (ix2 p 0)
      = Attn.tileL (m (ix2 p 0)) (l (ix2 p 0)) (Attn.tileScore (fun e => qv (ix2 p e)) (fun c e => kraw (ix4 0 0 c e)) (k.val * 256) (512 + p.val)) := by
  rw [pay5_eq, gL_apply, t2_scoreRow]

theorem t2_A (qv : FVec Ideal S256x64 .bf16) (k : Fin k3_t2_loop.trips) (m : FVec Ideal S256x1 .f32) (a : FVec Ideal S256x64 .f32)
    (kraw vraw : Vec Ideal S1x1x256x64 .bf16) (p : Fin 256) (d : Fin 64) :
    k3_pay6 (F := Ideal) qv k m a kraw vraw (ix2 p d)
      = Attn.tileA (m (ix2 p 0)) (a (ix2 p d)) (Attn.tileScore (fun e => qv (ix2 p e)) (fun c e => kraw (ix4 0 0 c e)) (k.val * 256) (512 + p.val))
          (fun c => vraw (ix4 0 0 c d)) := by
  rw [pay6_eq, gA_apply, t2_scoreRow]
  simp only [cast_apply]

theorem t2_out (l : FVec Ideal S256x1 .f32) (a : FVec Ideal S256x64 .f32) (p : Fin 256) (d : Fin 64) :
    k3_pay7 (F := Ideal) l a (ix4 0 0 p d) = Ideal.div (a (ix2 p d)) (l (ix2 p 0)) := by
  rw [pay7_eq]
  exact gOut_apply l a p d

theorem t2_initM (p : Fin 256) : k3_pay38 (F := Ideal) (ix2 p 0) = ⊥ := by
  exact splat_negInf (s := S256x1) (ix2 p 0)
theorem t2_initL (p : Fin 256) : k3_pay39 (F := Ideal) (ix2 p 0) = 0 := by
  exact splat_zero (s := S256x1) (ix2 p 0)
theorem t2_initA (p : Fin 256) (d : Fin 64) : k3_pay40 (F := Ideal) (ix2 p d) = 0 := by
  exact splat_zero (s := S256x64) (ix2 p d)

/-! ### The loop of the query tile at rows 768 … 1023 -/

/-- Row p of the tile's scores, as the masked scaled scores of the query row 768 + p against the trip's 256 keys. -/
private theorem t3_scoreRow (qv : Vec Ideal S1x1x256x64 .bf16) (k : Fin k3_t3_loop.trips) (kraw : Vec Ideal S1x1x256x64 .bf16) (p : Fin 256) :
    (fun c : Fin 256 => k3_pay11 (F := Ideal) qv k kraw (ix2 p c))
      = Attn.tileScore (fun e => qv (ix4 0 0 p e)) (fun c e => kraw (ix4 0 0 c e)) (k.val * 256) (768 + p.val) := by
  have hk : k.val < 4 := Nat.lt_of_lt_of_le k.isLt Cert.KernelIdeal.Gen.k3_t3_abs.2.1
  funext c
  rw [pay11_eq, colBase k.val (by omega),
    gScore_apply (shapeCast S256x64 qv Facts₀.shapeCasts_S1x1x256x64_S256x64) kraw 768 (k.val * 256) (by omega) (by omega) p c]
  simp only [cast_apply]

theorem t3_M (qv : Vec Ideal S1x1x256x64 .bf16) (k : Fin k3_t3_loop.trips) (m : FVec Ideal S256x1 .f32) (kraw : Vec Ideal S1x1x256x64 .bf16) (p : Fin 256) :
    k3_pay12 (F := Ideal) qv k m kraw (ix2 p 0)
      = Attn.tileM (m (ix2 p 0)) (Attn.tileScore (fun e => qv (ix4 0 0 p e)) (fun c e => kraw (ix4 0 0 c e)) (k.val * 256) (768 + p.val)) := by
  rw [pay12_eq, gM_apply, t3_scoreRow]

theorem t3_L (qv : Vec Ideal S1x1x256x64 .bf16) (k : Fin k3_t3_loop.trips) (m l : FVec Ideal S256x1 .f32) (kraw : Vec Ideal S1x1x256x64 .bf16) (p : Fin 256) :
    k3_pay15 (F := Ideal) qv k m l kraw (ix2 p 0)
      = Attn.tileL (m (ix2 p 0)) (l (ix2 p 0)) (Attn.tileScore (fun e => qv (ix4 0 0 p e)) (fun c e => kraw (ix4 0 0 c e)) (k.val * 256) (768 + p.val)) := by
  rw [pay15_eq, gL_apply, t3_scoreRow]

theorem t3_A (qv : Vec Ideal S1x1x256x64 .bf16) (k : Fin k3_t3_loop.trips) (m : FVec Ideal S256x1 .f32) (a : FVec Ideal S256x64 .f32)
    (kraw vraw : Vec Ideal S1x1x256x64 .bf16) (p : Fin 256) (d : Fin 64) :
    k3_pay16 (F := Ideal) qv k m a kraw vraw (ix2 p d)
      = Attn.tileA (m (ix2 p 0)) (a (ix2 p d)) (Attn.tileScore (fun e => qv (ix4 0 0 p e)) (fun c e => kraw (ix4 0 0 c e)) (k.val * 256) (768 + p.val))
          (fun c => vraw (ix4 0 0 c d)) := by
  rw [pay16_eq, gA_apply, t3_scoreRow]
  simp only [cast_apply]

theorem t3_out (l : FVec Ideal S256x1 .f32) (a : FVec Ideal S256x64 .f32) (p : Fin 256) (d : Fin 64) :
    k3_pay17 (F := Ideal) l a (ix4 0 0 p d) = Ideal.div (a (ix2 p d)) (l (ix2 p 0)) := by
  rw [pay17_eq]
  exact gOut_apply l a p d

theorem t3_initM (p : Fin 256) : k3_pay8 (F := Ideal) (ix2 p 0) = ⊥ := by
  exact splat_negInf (s := S256x1) (ix2 p 0)
theorem t3_initL (p : Fin 256) : k3_pay9 (F := Ideal) (ix2 p 0) = 0 := by
  exact splat_zero (s := S256x1) (ix2 p 0)
theorem t3_initA (p : Fin 256) (d : Fin 64) : k3_pay10 (F := Ideal) (ix2 p d) = 0 := by
  exact splat_zero (s := S256x64) (ix2 p d)

/-! ### The loop of the query tile at rows 256 … 511 -/

/-- Row p of the tile's scores, as the masked scaled scores of the query row 256 + p against the trip's 256 keys. -/
private theorem t1_scoreRow (qv : Vec Ideal S1x1x256x64 .bf16) (k : Fin k3_t1_loop.trips) (kraw : Vec Ideal S1x1x256x64 .bf16) (p : Fin 256) :
    (fun c : Fin 256 => k3_pay30 (F := Ideal) qv k kraw (ix2 p c))
      = Attn.tileScore (fun e => qv (ix4 0 0 p e)) (fun c e => kraw (ix4 0 0 c e)) (k.val * 256) (256 + p.val) := by
  have hk : k.val < 2 := Nat.lt_of_lt_of_le k.isLt Cert.KernelIdeal.Gen.k3_t1_abs.2.1
  funext c
  rw [pay30_eq, colBase k.val (by omega),
    gScore_apply (shapeCast S256x64 qv Facts₀.shapeCasts_S1x1x256x64_S256x64) kraw 256 (k.val * 256) (by omega) (by omega) p c]
  simp only [cast_apply]

theorem t1_M (qv : Vec Ideal S1x1x256x64 .bf16) (k : Fin k3_t1_loop.trips) (m : FVec Ideal S256x1 .f32) (kraw : Vec Ideal S1x1x256x64 .bf16) (p : Fin 256) :
    k3_pay31 (F := Ideal) qv k m kraw (ix2 p 0)
      = Attn.tileM (m (ix2 p 0)) (Attn.tileScore (fun e => qv (ix4 0 0 p e)) (fun c e => kraw (ix4 0 0 c e)) (k.val * 256) (256 + p.val)) := by
  rw [pay31_eq, gM_apply, t1_scoreRow]

theorem t1_L (qv : Vec Ideal S1x1x256x64 .bf16) (k : Fin k3_t1_loop.trips) (m l : FVec Ideal S256x1 .f32) (kraw : Vec Ideal S1x1x256x64 .bf16) (p : Fin 256) :
    k3_pay34 (F := Ideal) qv k m l kraw (ix2 p 0)
      = Attn.tileL (m (ix2 p 0)) (l (ix2 p 0)) (Attn.tileScore (fun e => qv (ix4 0 0 p e)) (fun c e => kraw (ix4 0 0 c e)) (k.val * 256) (256 + p.val)) := by
  rw [pay34_eq, gL_apply, t1_scoreRow]

theorem t1_A (qv : Vec Ideal S1x1x256x64 .bf16) (k : Fin k3_t1_loop.trips) (m : FVec Ideal S256x1 .f32) (a : FVec Ideal S256x64 .f32)
    (kraw vraw : Vec Ideal S1x1x256x64 .bf16) (p : Fin 256) (d : Fin 64) :
    k3_pay35 (F := Ideal) qv k m a kraw vraw (ix2 p d)
      = Attn.tileA (m (ix2 p 0)) (a (ix2 p d)) (Attn.tileScore (fun e => qv (ix4 0 0 p e)) (fun c e => kraw (ix4 0 0 c e)) (k.val * 256) (256 + p.val))
          (fun c => vraw (ix4 0 0 c d)) := by
  rw [pay35_eq, gA_apply, t1_scoreRow]
  simp only [cast_apply]

theorem t1_out (l : FVec Ideal S256x1 .f32) (a : FVec Ideal S256x64 .f32) (p : Fin 256) (d : Fin 64) :
    k3_pay36 (F := Ideal) l a (ix4 0 0 p d) = Ideal.div (a (ix2 p d)) (l (ix2 p 0)) := by
  rw [pay36_eq]
  exact gOut_apply l a p d

theorem t1_initM (p : Fin 256) : k3_pay27 (F := Ideal) (ix2 p 0) = ⊥ := by
  exact splat_negInf (s := S256x1) (ix2 p 0)
theorem t1_initL (p : Fin 256) : k3_pay28 (F := Ideal) (ix2 p 0) = 0 := by
  exact splat_zero (s := S256x1) (ix2 p 0)
theorem t1_initA (p : Fin 256) (d : Fin 64) : k3_pay29 (F := Ideal) (ix2 p d) = 0 := by
  exact splat_zero (s := S256x64) (ix2 p d)

/-! ### The query operand of the third query tile, and the first query tile (one key tile, no loop) -/

theorem t2_q (v61 : Vec Ideal S1x1x256x64 .bf16) (p : Fin 256) (e : Fin 64) :
    k3_pay37 (F := Ideal) v61 (ix2 p e) = v61 (ix4 0 0 p e) := by
  exact cast_apply v61 p e

/-- Row p of the diagonal tile's scores of the first query tile. -/
private theorem t0_scoreRow (v0 v8 : Vec Ideal S1x1x256x64 .bf16) (p : Fin 256) :
    (fun c : Fin 256 => k3_pay21 (F := Ideal) v0 v8 (ix2 p c))
      = Attn.tileScore (fun e => v0 (ix4 0 0 p e)) (fun c e => v8 (ix4 0 0 c e)) 0 p.val := by
  funext c
  rw [pay21_eq, show Scalar.muli 0#32 256#32 = BitVec.ofNat 32 0 from rfl,
    gScore_apply (shapeCast S256x64 v0 Facts₀.shapeCasts_S1x1x256x64_S256x64) v8 0 0 (by omega) (by omega) p c]
  simp only [cast_apply, Nat.zero_add]

/-- The value operand of the first query tile, at an index. -/
private theorem pay20_apply (v11 : Vec Ideal S1x1x256x64 .bf16) (c : Fin 256) (d : Fin 64) :
    k3_pay20 (F := Ideal) v11 (ix2 c d) = v11 (ix4 0 0 c d) := cast_apply v11 c d

/-- The first query tile's stored block: one step from (-∞, 0, 0) over the diagonal tile, then the quotient. -/
theorem t0_out (v0 v8 v11 : Vec Ideal S1x1x256x64 .bf16) (p : Fin 256) (d : Fin 64) :
    k3_pay26 (F := Ideal) (k3_pay19 (F := Ideal)) (k3_pay20 v11) (k3_pay23 v0 v8) (k3_pay24 v0 v8) (k3_pay25 v0 v8) (ix4 0 0 p d)
      = Ideal.div
          (Attn.tileA ⊥ 0 (Attn.tileScore (fun e => v0 (ix4 0 0 p e)) (fun c e => v8 (ix4 0 0 c e)) 0 p.val) (fun c => v11 (ix4 0 0 c d)))
          (Attn.tileL ⊥ 0 (Attn.tileScore (fun e => v0 (ix4 0 0 p e)) (fun c e => v8 (ix4 0 0 c e)) 0 p.val)) := by
  have hM : k3_pay18 (F := Ideal) (ix2 p 0) = ⊥ := splat_negInf (s := S256x1) (ix2 p 0)
  have hA : k3_pay19 (F := Ideal) (ix2 p d) = 0 := splat_zero (s := S256x64) (ix2 p d)
  rw [pay26_eq, gOut_apply, gA_apply, gL_apply, t0_scoreRow, hM, hA, splat_zero]
  simp only [pay20_apply]

end Cert.KernelIdeal.Tile

end
-- ==== Proof.OnlineSoftmax.lean ====
/-
  The tile-by-tile recurrence computes the softmax-weighted sum.

  For a row of masked scores S (each entry a real or -∞, entry 0 a real, everything from column 256·n on masked) and
  real values v, the running triple (m, l, a) after n tiles of 256 columns satisfies
  m = max of the columns seen, l = Σ exp(S - m), a = Σ exp(S - m)·v over the columns seen, so that a / l is
  Σ_s (exp(S[s] - M)/L)·v[s] over the whole row: the masked columns contribute exp(-∞) = 0 on both sides.
-/
import proofs.«406224_j55722905699212_3_alg».proof.Proof.Spec

noncomputable section

namespace Cert.Attn

open Idealize.ShloMosaic

/-- The scale 1/32 is a real number. -/
theorem scale_real : ∃ r : ℝ, scale = r := by
  refine ⟨1/32, ?_⟩
  simp [scale, Ideal.ofBits, Ideal.ieee, -EReal.coe_mul]; norm_num

/-- The real value of exp(x - M). -/
private def ex (M : ℝ) (x : EReal) : ℝ := (Ideal.exp (x - (M : EReal))).toReal

private theorem ex_bot (M : ℝ) : ex M ⊥ = 0 := by
  simp [ex]

private theorem ex_coe (M r : ℝ) : ex M (r : EReal) = Real.exp (r - M) := by
  simp only [ex, ← EReal.coe_sub, Ideal.exp_coe, EReal.toReal_coe]

/-- exp(x - M) is the real number ex M x when x is -∞ or real. -/
private theorem exp_sub_coe {x : EReal} (hx : x = ⊥ ∨ ∃ r : ℝ, x = r) (M : ℝ) :
    Ideal.exp (x - (M : EReal)) = ((ex M x : ℝ) : EReal) := by
  rcases hx with rfl | ⟨r, rfl⟩
  · rw [ex_bot, EReal.bot_sub, Ideal.exp_bot, EReal.coe_zero]
  · rw [ex_coe, ← EReal.coe_sub, Ideal.exp_coe]

/-- Moving the reference point: exp(M - M')·exp(x - M) = exp(x - M'). -/
private theorem ex_rescale {x : EReal} (hx : x = ⊥ ∨ ∃ r : ℝ, x = r) (M M' : ℝ) :
    ex M' (M : EReal) * ex M x = ex M' x := by
  rcases hx with rfl | ⟨r, rfl⟩
  · simp [ex_bot]
  · rw [ex_coe, ex_coe, ex_coe, ← Real.exp_add]; congr 1; ring

private theorem ex_nonneg (M : ℝ) {x : EReal} (hx : x = ⊥ ∨ ∃ r : ℝ, x = r) : 0 ≤ ex M x := by
  rcases hx with rfl | ⟨r, rfl⟩
  · rw [ex_bot]
  · rw [ex_coe]; exact (Real.exp_pos _).le

private theorem ex_self (M : ℝ) : ex M (M : EReal) = 1 := by
  rw [ex_coe, sub_self, Real.exp_zero]

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 1024 columns is the sum over the four tiles of the sums over each tile's 256 columns. -/
private theorem sum_tiles (g : Fin 1024 → ℝ) :
    ∑ s : Fin 1024, g s
      = ∑ i : Fin 4, ∑ c : Fin 256, g ⟨i.val * 256 + c.val, by have := i.isLt; have := c.isLt; omega⟩ := by
  rw [← Fintype.sum_prod_type']
  symm
  refine Fintype.sum_equiv (finProdFinEquiv : Fin 4 × Fin 256 ≃ Fin 1024) _ _ (fun p => ?_)
  congr 1
  apply Fin.ext
  simp only [finProdFinEquiv_apply_val]
  omega

/-- The normaliser of the first j tiles relative to the reference point M. -/
private def Lsum (S : Fin 1024 → EReal) (j : ℕ) (M : ℝ) : ℝ :=
  ∑ i ∈ Finset.range j, ∑ c : Fin 256, ex M (tileOf S i c)

/-- The weighted sum of the first j tiles relative to the reference point M. -/
private def Asum (S v : Fin 1024 → EReal) (j : ℕ) (M : ℝ) : ℝ :=
  ∑ i ∈ Finset.range j, ∑ c : Fin 256, ex M (tileOf S i c) * (tileOf v i c).toReal

private theorem tileOf_cases {S : Fin 1024 → EReal} (hS : ∀ j, S j = ⊥ ∨ ∃ r : ℝ, S j = r) (i : ℕ) (c : Fin 256) :
    tileOf S i c = ⊥ ∨ ∃ r : ℝ, tileOf S i c = r := by
  unfold tileOf
  split
  · exact hS _
  · exact Or.inl rfl

/-- One tile in real terms: with the new maximum a real M₁, the new normaliser and weighted sum are the old ones
    rescaled plus the tile's terms. -/
private theorem tile_step (m : EReal) (hm : m = ⊥ ∨ ∃ r : ℝ, m = r) (L A : ℝ) (s u : Fin 256 → EReal)
    (hs : ∀ c, s c = ⊥ ∨ ∃ r : ℝ, s c = r) (hu : ∀ c, ∃ r : ℝ, u c = r) (M₁ : ℝ) (hM₁ : tileM m s = M₁) :
    tileL m L s = ((ex M₁ m * L + ∑ c : Fin 256, ex M₁ (s c) : ℝ) : EReal) ∧
    tileA m A s u = ((ex M₁ m * A + ∑ c : Fin 256, ex M₁ (s c) * (u c).toReal : ℝ) : EReal) := by
  have hu' : ∀ c, u c = (((u c).toReal : ℝ) : EReal) := fun c => by
    obtain ⟨r, hr⟩ := hu c; rw [hr, EReal.toReal_coe]
  constructor
  · unfold tileL
    rw [hM₁, exp_sub_coe hm, EReal.coe_add, EReal.coe_mul, coe_sum]
    congr 1
    exact Finset.sum_congr rfl (fun c _ => exp_sub_coe (hs c) M₁)
  · unfold tileA
    rw [hM₁, exp_sub_coe hm, EReal.coe_add, EReal.coe_mul, coe_sum]
    congr 1
    refine Finset.sum_congr rfl (fun c _ => ?_)
    rw [exp_sub_coe (hs c), EReal.coe_mul, ← hu' c]

/-- The state after j ≤ 4 tiles: the running maximum is -∞ or one of the row's entries and bounds the columns seen;
    the running normaliser and weighted sum are real, and rescaled to any reference point M' they are the sums over
    the columns seen. -/
private theorem online_inv (S v : Fin 1024 → EReal)
    (hS : ∀ j, S j = ⊥ ∨ ∃ r : ℝ, S j = r) (h0 : ∃ r : ℝ, S ⟨0, by decide⟩ = r) (hv : ∀ j, ∃ r : ℝ, v j = r) :
    ∀ j : ℕ, j ≤ 4 →
      ((onlineState S v j).1 = ⊥ ∨ ∃ c, S c = (onlineState S v j).1) ∧
      (∀ c : Fin 1024, c.val < j * 256 → S c ≤ (onlineState S v j).1) ∧
      ∃ L A : ℝ, (onlineState S v j).2.1 = L ∧ (onlineState S v j).2.2 = A ∧
        ∀ M' : ℝ, ex M' (onlineState S v j).1 * L = Lsum S j M' ∧
          ex M' (onlineState S v j).1 * A = Asum S v j M' := by
  intro j
  induction j with
  | zero =>
    intro _
    rw [onlineState_zero]
    refine ⟨Or.inl rfl, fun c hc => absurd hc (by omega), 0, 0, EReal.coe_zero.symm, EReal.coe_zero.symm, fun M' => ?_⟩
    simp [Lsum, Asum]
  | succ j ih =>
    intro hj
    obtain ⟨hmem, hle, L, A, hL, hA, hresc⟩ := ih (by omega)
    rw [onlineState_succ]
    simp only []
    rw [hL, hA]
    generalize (onlineState S v j).1 = m at hmem hle hresc ⊢
    have hm : m = ⊥ ∨ ∃ r : ℝ, m = r := by
      rcases hmem with h | ⟨c, hc⟩
      · exact Or.inl h
      · rw [← hc]; exact hS c
    have hle' : ∀ c : Fin 1024, c.val < (j + 1) * 256 → S c ≤ tileM m (tileOf S j) := by
      intro c hc
      by_cases h : c.val < j * 256
      · exact (hle c h).trans (le_max_left _ _)
      · have hlt : c.val - j * 256 < 256 := by omega
        have hc' : S c = tileOf S j ⟨c.val - j * 256, hlt⟩ := by
          have h1 : j * 256 + (c.val - j * 256) < 1024 := by have := c.isLt; omega
          simp only [tileOf, dif_pos h1]
          congr 1
          apply Fin.ext
          simp only []
          omega
        rw [hc']
        exact le_trans (Finset.le_sup (f := tileOf S j) (Finset.mem_univ _)) (le_max_right _ _)
    have hmem' : tileM m (tileOf S j) = ⊥ ∨ ∃ c, S c = tileM m (tileOf S j) := by
      unfold tileM
      rcases max_choice m ((Finset.univ : Finset (Fin 256)).fold max ⊥ (tileOf S j)) with h | h
      · rw [h]; exact hmem
      · rw [h]
        obtain ⟨c', _, hc'⟩ := Finset.exists_mem_eq_sup (Finset.univ : Finset (Fin 256)) Finset.univ_nonempty (tileOf S j)
        change (Finset.univ : Finset (Fin 256)).sup (tileOf S j) = ⊥ ∨ ∃ c, S c = (Finset.univ : Finset (Fin 256)).sup (tileOf S j)
        rw [hc']
        unfold tileOf
        split
        · exact Or.inr ⟨_, rfl⟩
        · exact Or.inl rfl
    have hne : tileM m (tileOf S j) ≠ ⊥ := by
      obtain ⟨r, hr⟩ := h0
      have h1 := hle' ⟨0, by decide⟩ (by simp only []; omega)
      intro hbot
      rw [hbot, hr] at h1
      exact absurd (le_bot_iff.mp h1) (EReal.coe_ne_bot r)
    obtain ⟨M₁, hM₁⟩ : ∃ r : ℝ, tileM m (tileOf S j) = r := by
      rcases hmem' with h | ⟨c, hc⟩
      · exact absurd h hne
      · rcases hS c with h | h
        · exact absurd (hc ▸ h) hne
        · rw [← hc]; exact h
    have hu : ∀ c : Fin 256, ∃ r : ℝ, tileOf v j c = r := by
      intro c
      have h1 : j * 256 + c.val < 1024 := by have := c.isLt; omega
      simp only [tileOf, dif_pos h1]
      exact hv _
    obtain ⟨hl', ha'⟩ := tile_step m hm L A (tileOf S j) (tileOf v j) (tileOf_cases hS j) hu M₁ hM₁
    refine ⟨hmem', hle', _, _, hl', ha', fun M' => ?_⟩
    rw [hM₁]
    constructor
    · rw [Lsum, Finset.sum_range_succ, ← Lsum, ← (hresc M').1, mul_add, Finset.mul_sum, ← mul_assoc, ex_rescale hm]
      congr 1
      exact Finset.sum_congr rfl (fun c _ => ex_rescale (tileOf_cases hS j c) _ _)
    · rw [Asum, Finset.sum_range_succ, ← Asum, ← (hresc M').2, mul_add, Finset.mul_sum, ← mul_assoc, ex_rescale hm]
      congr 1
      refine Finset.sum_congr rfl (fun c _ => ?_)
      rw [← mul_assoc, ex_rescale (tileOf_cases hS j c)]

/-- Tiles from n on are wholly masked, so the first n tiles already carry the whole normaliser … -/
private theorem Lsum_tail (S : Fin 1024 → EReal) (n : ℕ) (hn4 : n ≤ 4)
    (htail : ∀ j : Fin 1024, n * 256 ≤ j.val → S j = ⊥) (M : ℝ) : Lsum S n M = Lsum S 4 M := by
  unfold Lsum
  refine Finset.sum_subset (Finset.range_mono hn4) (fun i _ hi => ?_)
  have hi' : n ≤ i := by simpa using hi
  refine Finset.sum_eq_zero (fun c _ => ?_)
  have hb : tileOf S i c = ⊥ := by
    unfold tileOf
    split
    · exact htail _ (by simp only []; omega)
    · rfl
  rw [hb, ex_bot]

/-- … and the whole weighted sum. -/
private theorem Asum_tail (S v : Fin 1024 → EReal) (n : ℕ) (hn4 : n ≤ 4)
    (htail : ∀ j : Fin 1024, n * 256 ≤ j.val → S j = ⊥) (M : ℝ) : Asum S v n M = Asum S v 4 M := by
  unfold Asum
  refine Finset.sum_subset (Finset.range_mono hn4) (fun i _ hi => ?_)
  have hi' : n ≤ i := by simpa using hi
  refine Finset.sum_eq_zero (fun c _ => ?_)
  have hb : tileOf S i c = ⊥ := by
    unfold tileOf
    split
    · exact htail _ (by simp only []; omega)
    · rfl
  rw [hb, ex_bot, zero_mul]

/-- The four tiles together are the row. -/
private theorem Lsum_four (S : Fin 1024 → EReal) (M : ℝ) : Lsum S 4 M = ∑ s : Fin 1024, ex M (S s) := by
  rw [sum_tiles, Lsum, Finset.sum_range]
  refine Finset.sum_congr rfl (fun i _ => Finset.sum_congr rfl (fun c _ => ?_))
  have h1 : i.val * 256 + c.val < 1024 := by have := i.isLt; have := c.isLt; omega
  simp only [tileOf, dif_pos h1]

private theorem Asum_four (S v : Fin 1024 → EReal) (M : ℝ) :
    Asum S v 4 M = ∑ s : Fin 1024, ex M (S s) * (v s).toReal := by
  rw [sum_tiles, Asum, Finset.sum_range]
  refine Finset.sum_congr rfl (fun i _ => Finset.sum_congr rfl (fun c _ => ?_))
  have h1 : i.val * 256 + c.val < 1024 := by have := i.isLt; have := c.isLt; omega
  simp only [tileOf, dif_pos h1]

/-- The recurrence's quotient after n ≥ 1 tiles is the softmax-weighted sum of the row. -/
theorem online_eq_softmax (S v : Fin 1024 → EReal) (n : ℕ) (hn : 1 ≤ n) (hn4 : n ≤ 4)
    (hS : ∀ j, S j = ⊥ ∨ ∃ r : ℝ, S j = r) (h0 : ∃ r : ℝ, S ⟨0, by decide⟩ = r)
    (htail : ∀ j : Fin 1024, n * 256 ≤ j.val → S j = ⊥) (hv : ∀ j, ∃ r : ℝ, v j = r) :
    Ideal.div (onlineState S v n).2.2 (onlineState S v n).2.1 = softmaxRow S v := by
  obtain ⟨hmem, hle, L, A, hL, hA, hresc⟩ := online_inv S v hS h0 hv n hn4
  -- the running maximum is a real number M, attained at some column
  obtain ⟨r0, hr0⟩ := h0
  have hge := hle ⟨0, by decide⟩ (by simp only []; omega)
  have hne : (onlineState S v n).1 ≠ ⊥ := by
    intro hb
    rw [hb, hr0] at hge
    exact absurd (le_bot_iff.mp hge) (EReal.coe_ne_bot _)
  obtain ⟨c0, hc0⟩ : ∃ c, S c = (onlineState S v n).1 := hmem.resolve_left hne
  obtain ⟨M, hM⟩ : ∃ r : ℝ, (onlineState S v n).1 = r := by
    rcases hS c0 with h | h
    · exact absurd (hc0.symm.trans h) hne
    · rw [← hc0]; exact h
  -- it is the row's maximum: the columns not seen are masked
  have hmax : rowMax S = M := by
    rw [← hM]
    apply le_antisymm
    · show (Finset.univ : Finset (Fin 1024)).sup S ≤ _
      apply Finset.sup_le
      intro c _
      by_cases h : c.val < n * 256
      · exact hle c h
      · rw [htail c (by omega)]; exact bot_le
    · rw [← hc0]; exact Finset.le_sup (f := S) (Finset.mem_univ c0)
  -- the running sums are the sums over the whole row at the reference point M
  have hL' : L = ∑ s : Fin 1024, ex M (S s) := by
    have h1 := (hresc M).1
    rw [hM, ex_self, one_mul, Lsum_tail S n hn4 htail, Lsum_four] at h1
    exact h1
  have hA' : A = ∑ s : Fin 1024, ex M (S s) * (v s).toReal := by
    have h1 := (hresc M).2
    rw [hM, ex_self, one_mul, Asum_tail S v n hn4 htail, Asum_four] at h1
    exact h1
  -- the normaliser is positive: the column attaining the maximum contributes 1
  have hLpos : 0 < L := by
    rw [hL']
    have h1 : ex M (S c0) ≤ ∑ s : Fin 1024, ex M (S s) :=
      Finset.single_le_sum (f := fun s => ex M (S s)) (fun s _ => ex_nonneg M (hS s)) (Finset.mem_univ c0)
    rw [hc0, hM, ex_self] at h1
    linarith
  have hrow : ∑ s : Fin 1024, Ideal.exp (S s - (M : EReal)) = (L : EReal) := by
    rw [hL', coe_sum]
    exact Finset.sum_congr rfl (fun s _ => exp_sub_coe (hS s) M)
  have hterm : ∀ s, Ideal.div (Ideal.exp (S s - (M : EReal))) (L : EReal) * v s
      = ((ex M (S s) * (v s).toReal / L : ℝ) : EReal) := by
    intro s
    obtain ⟨w, hw⟩ := hv s
    rw [Ideal.div_coe hLpos.ne', exp_sub_coe (hS s), hw, EReal.toReal_coe, ← EReal.coe_mul, ← EReal.coe_mul]
    congr 1
    ring
  rw [hA, hL, Ideal.div_coe hLpos.ne', softmaxRow, rowSum, hmax, hrow,
    Finset.sum_congr rfl (fun s _ => hterm s), ← coe_sum, ← EReal.coe_mul, hA', ← Finset.sum_div]
  congr 1
  ring

/-- A masked score on or before the diagonal is real. -/
private theorem scoreRow_real (q k : Fin 1024 → Fin 64 → EReal)
    (hq : ∀ t e, ∃ r : ℝ, q t e = r) (hk : ∀ s e, ∃ r : ℝ, k s e = r) (t s : Fin 1024) (h : s.val ≤ t.val) :
    ∃ r : ℝ, scoreRow q k t s = r := by
  obtain ⟨sc, hsc⟩ := scale_real
  choose fq hfq using hq
  choose fk hfk using hk
  refine ⟨(∑ e : Fin 64, fq t e * fk s e) * sc, ?_⟩
  rw [scoreRow, if_pos h, EReal.coe_mul, coe_sum, hsc]
  congr 1
  exact Finset.sum_congr rfl (fun e _ => by rw [hfq, hfk, EReal.coe_mul])

/-- For real q, k, v the kernel's n = ⌈(t+1)/256⌉-tile recurrence on row t gives one head's attention. -/
theorem online_attn (q k v : Fin 1024 → Fin 64 → EReal)
    (hq : ∀ t e, ∃ r : ℝ, q t e = r) (hk : ∀ s e, ∃ r : ℝ, k s e = r) (hv : ∀ s e, ∃ r : ℝ, v s e = r)
    (t : Fin 1024) (d : Fin 64) (n : ℕ) (hn : 1 ≤ n) (hn4 : n ≤ 4) (ht : t.val < n * 256) :
    Ideal.div (onlineState (scoreRow q k t) (fun s => v s d) n).2.2 (onlineState (scoreRow q k t) (fun s => v s d) n).2.1
      = attn q k v t d := by
  unfold attn
  refine online_eq_softmax _ _ n hn hn4 (fun j => ?_) ?_ (fun j hj => ?_) (fun j => hv j d)
  · by_cases h : j.val ≤ t.val
    · exact Or.inr (scoreRow_real q k hq hk t j h)
    · exact Or.inl (by rw [scoreRow, if_neg h])
  · exact scoreRow_real q k hq hk t _ (Nat.zero_le _)
  · rw [scoreRow, if_neg (by omega)]

end Cert.Attn

end
-- ==== Proof.AttnBody.lean ====
/-
  One (batch, head) block of the attention launch: what the body's four stores leave in the output block, as a
  function of the three input blocks q, k, v (each [1, 1, 1024, 64]).  Query tile n (rows 256·n … 256·n+255) is the
  tile-by-tile recurrence over key tiles 0 … n, whose final quotient is the head's attention row.
-/
import proofs.«406224_j55722905699212_3_alg».proof.Proof.Gen.KernelIdeal.Frame
import proofs.«406224_j55722905699212_3_alg».proof.Proof.Spec
import proofs.«406224_j55722905699212_3_alg».proof.Proof.TileInst
import proofs.«406224_j55722905699212_3_alg».proof.Proof.OnlineSoftmax
import Idealize.ShloMosaic.Lib.Pipeline.Value
import Idealize.ShloMosaic.Lib.ValueIdx
import Idealize.ShloMosaic.PureOps.Ideal.Laws

set_option maxRecDepth 16384

noncomputable section

namespace Cert.KernelIdeal.AttnBody

open Idealize.ShloMosaic Idealize.ShloMosaic.TcCoe Idealize.ShloMosaic.Tactic Idealize.ShloMosaic.ValueIdx Idealize.SL.Sem
open Cert.KernelIdeal Cert.KernelIdeal.Gen Cert.Attn

/-! ## Loads -/

/-- A 256-row load of a whole staging buffer at row offset r reads rows r … r+255 of its contents. -/
theorem load_apply (arg : Memref sig .tc .vmem S1x1x1024x64 .bf16) (harg : arg.IsWhole) (x : Vec Ideal S1x1x1024x64 .bf16)
    (off : Fin 4 → ℕ) (inb : ∀ a, off a + S1x1x256x64.size a ≤ S1x1x1024x64.size a) (r : ℕ) (hoff : off = ![0, 0, r, 0])
    (c : Fin 256) (e : Fin 64) (h : r + c.val < 1024) :
    View.readAt (Elt Ideal) arg.view (Rect.unit (s := S1x1x1024x64) off S1x1x256x64.size inb).toLoadRect (harg.unread x) (ix4 0 0 c e)
      = x (ix4 0 0 ⟨r + c.val, h⟩ e) := by
  subst hoff
  rw [View.readAt_eq_ld, harg.read_unread]
  refine congrArg x (funext fun a => Fin.ext ?_)
  match a with
  | ⟨0, _⟩ => rfl
  | ⟨1, _⟩ => rfl
  | ⟨2, _⟩ => show r + 1 * c.val = r + c.val; omega
  | ⟨3, _⟩ => show 0 + 1 * e.val = e.val; omega

/-- The block's rows as a function of (row, column). -/
def rows (x : Vec Ideal S1x1x1024x64 .bf16) : Fin 1024 → Fin 64 → EReal := fun t e => x (ix4 0 0 t e)

/-- The load of key or value tile n (row offset 256·n) reads rows 256·n … 256·n+255. -/
theorem load_tile (arg : Memref sig .tc .vmem S1x1x1024x64 .bf16) (harg : arg.IsWhole) (x : Vec Ideal S1x1x1024x64 .bf16)
    (off : Fin 4 → ℕ) (inb : ∀ a, off a + S1x1x256x64.size a ≤ S1x1x1024x64.size a) (n : ℕ) (hn : n < 4)
    (hoff : off = ![0, 0, 256 * n, 0]) (c : Fin 256) (e : Fin 64) :
    View.readAt (Elt Ideal) arg.view (Rect.unit (s := S1x1x1024x64) off S1x1x256x64.size inb).toLoadRect (harg.unread x) (ix4 0 0 c e)
      = rows x ⟨n * 256 + c.val, by have := c.isLt; omega⟩ e := by
  rw [load_apply arg harg x off inb (256 * n) hoff c e (by have := c.isLt; omega)]
  exact congrArg (fun j => x (ix4 0 0 j e)) (Fin.ext (by show 256 * n + c.val = n * 256 + c.val; omega))

/-- The load of query tile at row offset R reads rows R … R+255. -/
theorem load_q (arg : Memref sig .tc .vmem S1x1x1024x64 .bf16) (harg : arg.IsWhole) (x : Vec Ideal S1x1x1024x64 .bf16)
    (R : ℕ) (inb : ∀ a, (![0, 0, R, 0] : Fin 4 → ℕ) a + S1x1x256x64.size a ≤ S1x1x1024x64.size a) (hR : R + 256 ≤ 1024)
    (p : Fin 256) (e : Fin 64) :
    View.readAt (Elt Ideal) arg.view (Rect.unit (s := S1x1x1024x64) ![0, 0, R, 0] S1x1x256x64.size inb).toLoadRect (harg.unread x) (ix4 0 0 p e)
      = rows x ⟨R + p.val, by have := p.isLt; omega⟩ e :=
  load_apply arg harg x _ inb R rfl p e (by have := p.isLt; omega)

/-! ## One trip of each loop: the three payloads of the trip's two loads -/

theorem tripR_t1_eq (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
    (v4 : FVec Ideal S256x64 .f32) (v12 : FVec Ideal S256x64 .bf16) (v31 : FVec Ideal S256x1 .f32) (v34 : FVec Ideal S256x256 .f32) (v35 : FVec Ideal S256x1 .f32) (v49 : Vec Ideal S1x1x256x64 .bf16)
    (X3 : BufTy.Contents (Elt Ideal) arg3.view.ty) (X4 : BufTy.Contents (Elt Ideal) arg4.view.ty) (k : Fin k3_t1_loop.trips)
    (acc : FVec Ideal S256x1 .f32 × FVec Ideal S256x1 .f32 × FVec Ideal S256x64 .f32) :
    tripR_k3_t1 (F := Ideal) Variants.none c none i arg2 harg2 arg3 harg3 arg4 harg4 arg5 harg5 v4 v12 v31 v34 v35 v49 X3 X4 k acc
      = (k3_pay31 v49 k acc.1 (View.readAt (Elt Ideal) arg3.view (Rect.unit (s := S1x1x1024x64) (k3_off2 k) S1x1x256x64.size (Gen.k3_off2_inb k)).toLoadRect X3),
         k3_pay34 v49 k acc.1 acc.2.1 (View.readAt (Elt Ideal) arg3.view (Rect.unit (s := S1x1x1024x64) (k3_off2 k) S1x1x256x64.size (Gen.k3_off2_inb k)).toLoadRect X3),
         k3_pay35 v49 k acc.1 acc.2.2 (View.readAt (Elt Ideal) arg3.view (Rect.unit (s := S1x1x1024x64) (k3_off2 k) S1x1x256x64.size (Gen.k3_off2_inb k)).toLoadRect X3)
           (View.readAt (Elt Ideal) arg4.view (Rect.unit (s := S1x1x1024x64) (k3_off2 k) S1x1x256x64.size (Gen.k3_off2_inb k)).toLoadRect X4)) := by
  unfold tripR_k3_t1
  unfold trip_k3_t1
  rfl

theorem tripR_t2_eq (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
    (v62 : FVec Ideal S256x64 .bf16)
    (X3 : BufTy.Contents (Elt Ideal) arg3.view.ty) (X4 : BufTy.Contents (Elt Ideal) arg4.view.ty) (k : Fin k3_t2_loop.trips)
    (acc : FVec Ideal S256x1 .f32 × FVec Ideal S256x1 .f32 × FVec Ideal S256x64 .f32) :
    tripR_k3_t2 (F := Ideal) Variants.none c none i arg2 harg2 arg3 harg3 arg4 harg4 arg5 harg5 v62 X3 X4 k acc
      = (k3_pay2 v62 k acc.1 (View.readAt (Elt Ideal) arg3.view (Rect.unit (s := S1x1x1024x64) (k3_off3 k) S1x1x256x64.size (Gen.k3_off3_inb k)).toLoadRect X3),
         k3_pay5 v62 k acc.1 acc.2.1 (View.readAt (Elt Ideal) arg3.view (Rect.unit (s := S1x1x1024x64) (k3_off3 k) S1x1x256x64.size (Gen.k3_off3_inb k)).toLoadRect X3),
         k3_pay6 v62 k acc.1 acc.2.2 (View.readAt (Elt Ideal) arg3.view (Rect.unit (s := S1x1x1024x64) (k3_off3 k) S1x1x256x64.size (Gen.k3_off3_inb k)).toLoadRect X3)
           (View.readAt (Elt Ideal) arg4.view (Rect.unit (s := S1x1x1024x64) (k3_off3 k) S1x1x256x64.size (Gen.k3_off3_inb k)).toLoadRect X4)) := by
  unfold tripR_k3_t2
  unfold trip_k3_t2
  rfl

theorem tripR_t3_eq (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
    (v73 : Vec Ideal S1x1x256x64 .bf16)
    (X3 : BufTy.Contents (Elt Ideal) arg3.view.ty) (X4 : BufTy.Contents (Elt Ideal) arg4.view.ty) (k : Fin k3_t3_loop.trips)
    (acc : FVec Ideal S256x1 .f32 × FVec Ideal S256x1 .f32 × FVec Ideal S256x64 .f32) :
    tripR_k3_t3 (F := Ideal) Variants.none c none i arg2 harg2 arg3 harg3 arg4 harg4 arg5 harg5 v73 X3 X4 k acc
      = (k3_pay12 v73 k acc.1 (View.readAt (Elt Ideal) arg3.view (Rect.unit (s := S1x1x1024x64) (k3_off4 k) S1x1x256x64.size (Gen.k3_off4_inb k)).toLoadRect X3),
         k3_pay15 v73 k acc.1 acc.2.1 (View.readAt (Elt Ideal) arg3.view (Rect.unit (s := S1x1x1024x64) (k3_off4 k) S1x1x256x64.size (Gen.k3_off4_inb k)).toLoadRect X3),
         k3_pay16 v73 k acc.1 acc.2.2 (View.readAt (Elt Ideal) arg3.view (Rect.unit (s := S1x1x1024x64) (k3_off4 k) S1x1x256x64.size (Gen.k3_off4_inb k)).toLoadRect X3)
           (View.readAt (Elt Ideal) arg4.view (Rect.unit (s := S1x1x1024x64) (k3_off4 k) S1x1x256x64.size (Gen.k3_off4_inb k)).toLoadRect X4)) := by
  unfold tripR_k3_t3
  unfold trip_k3_t3
  rfl

/-! ## The recurrence on one query row -/

/-- A sequence of carried triples that starts at (-∞, 0, 0) on row p and advances by the tile step over the row's
    successive 256-column stretches is the running state of that row. -/
theorem online_of_steps (S vcol : Fin 1024 → EReal) (p : Fin 256) (d : Fin 64)
    (st : ℕ → FVec Ideal S256x1 .f32 × FVec Ideal S256x1 .f32 × FVec Ideal S256x64 .f32) (N : ℕ)
    (h0 : (st 0).1 (ix2 p 0) = ⊥ ∧ (st 0).2.1 (ix2 p 0) = 0 ∧ (st 0).2.2 (ix2 p d) = 0)
    (hs : ∀ n, n < N → (st (n + 1)).1 (ix2 p 0) = tileM ((st n).1 (ix2 p 0)) (tileOf S n)
      ∧ (st (n + 1)).2.1 (ix2 p 0) = tileL ((st n).1 (ix2 p 0)) ((st n).2.1 (ix2 p 0)) (tileOf S n)
      ∧ (st (n + 1)).2.2 (ix2 p d) = tileA ((st n).1 (ix2 p 0)) ((st n).2.2 (ix2 p d)) (tileOf S n) (tileOf vcol n)) :
    ∀ n, n ≤ N → ((st n).1 (ix2 p 0), (st n).2.1 (ix2 p 0), (st n).2.2 (ix2 p d)) = onlineState S vcol n := by
  intro n
  induction n with
  | zero => intro _; rw [onlineState_zero, h0.1, h0.2.1, h0.2.2]
  | succ n ih =>
    intro hn
    have ih' := ih (Nat.le_of_succ_le hn)
    obtain ⟨e1, e2, e3⟩ := hs n (Nat.lt_of_succ_le hn)
    rw [onlineState_succ, ← ih', e1, e2, e3]

/-- The kernel's tile operands on query row R + p against key tile n are the row's n-th stretch. -/
theorem tile_of_row (q k v : Fin 1024 → Fin 64 → EReal) (R : ℕ) (p : Fin 256) (d : Fin 64) (hR : R + 256 ≤ 1024) (n : ℕ) (hn : n < 4)
    (qrow : Fin 64 → EReal) (hq : ∀ e, qrow e = q ⟨R + p.val, by have := p.isLt; omega⟩ e)
    (kraw vraw : Vec Ideal S1x1x256x64 .bf16)
    (hk : ∀ (c : Fin 256) (e : Fin 64), kraw (ix4 0 0 c e) = k ⟨n * 256 + c.val, by have := c.isLt; omega⟩ e)
    (hv : ∀ c : Fin 256, vraw (ix4 0 0 c d) = v ⟨n * 256 + c.val, by have := c.isLt; omega⟩ d) :
    tileScore qrow (fun c e => kraw (ix4 0 0 c e)) (n * 256) (R + p.val)
        = tileOf (scoreRow q k ⟨R + p.val, by have := p.isLt; omega⟩) n
      ∧ (fun c => vraw (ix4 0 0 c d)) = tileOf (fun s => v s d) n := by
  constructor
  · have hq' : qrow = q ⟨R + p.val, by have := p.isLt; omega⟩ := funext hq
    rw [hq']
    exact tileScore_eq_tileOf q k ⟨R + p.val, by have := p.isLt; omega⟩ n hn _ hk
  · funext c
    have hc : n * 256 + c.val < 1024 := by have := c.isLt; omega
    simp only [tileOf, dif_pos hc, hv]

/-- From the running state after N tiles on a row below 256·N to the head's attention at that row. -/
theorem finish_row (q k v : Fin 1024 → Fin 64 → EReal)
    (hq : ∀ t e, ∃ r : ℝ, q t e = r) (hk : ∀ s e, ∃ r : ℝ, k s e = r) (hv : ∀ s e, ∃ r : ℝ, v s e = r)
    (t : Fin 1024) (d : Fin 64) (N : ℕ) (hN : 1 ≤ N) (hN4 : N ≤ 4) (ht : t.val < N * 256)
    (l a : EReal) (m : EReal)
    (h : (m, l, a) = onlineState (scoreRow q k t) (fun s => v s d) N) :
    Ideal.div a l = attn q k v t d := by
  have e1 : l = (onlineState (scoreRow q k t) (fun s => v s d) N).2.1 := congrArg (fun z => z.2.1) h
  have e2 : a = (onlineState (scoreRow q k t) (fun s => v s d) N).2.2 := congrArg (fun z => z.2.2) h
  rw [e1, e2]
  exact online_attn q k v hq hk hv t d N hN hN4 ht

/-! ## The four query tiles -/

section Block

variable (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
variable (x0 x1 x2 : Vec Ideal S1x1x1024x64 .bf16)

/-- Query tile 2 (rows 512 … 767): three trips over key tiles 0, 1, 2. -/
theorem row_t2 (h0 : ∀ t e, ∃ r : ℝ, rows x0 t e = r) (h1 : ∀ s e, ∃ r : ℝ, rows x1 s e = r) (h2 : ∀ s e, ∃ r : ℝ, rows x2 s e = r)
    (v62 : FVec Ideal S256x64 .bf16)
    (hv62 : ∀ (p : Fin 256) (e : Fin 64), v62 (ix2 p e) = rows x0 ⟨512 + p.val, by have := p.isLt; omega⟩ e)
    (N : ℕ) (hN : N = 3) (p : Fin 256) (d : Fin 64) :
    k3_pay7 (F := Ideal)
      (st_k3_t2 (F := Ideal) Variants.none c none i arg2 harg2 arg3 harg3 arg4 harg4 arg5 harg5 v62 (harg3.unread x1) (harg4.unread x2) (k3_pay38, k3_pay39, k3_pay40) N).2.1
      (st_k3_t2 (F := Ideal) Variants.none c none i arg2 harg2 arg3 harg3 arg4 harg4 arg5 harg5 v62 (harg3.unread x1) (harg4.unread x2) (k3_pay38, k3_pay39, k3_pay40) N).2.2
      (ix4 0 0 p d)
      = attn (rows x0) (rows x1) (rows x2) ⟨512 + p.val, by have := p.isLt; omega⟩ d := by
  subst hN
  have htr : k3_t2_loop.trips = 3 := by decide
  rw [Tile.t2_out]
  refine finish_row (rows x0) (rows x1) (rows x2) h0 h1 h2 ⟨512 + p.val, by have := p.isLt; omega⟩ d 3 (by omega) (by omega)
    (by show 512 + p.val < 3 * 256; have := p.isLt; omega) _ _ _
    (online_of_steps _ _ p d
      (st_k3_t2 (F := Ideal) Variants.none c none i arg2 harg2 arg3 harg3 arg4 harg4 arg5 harg5 v62 (harg3.unread x1) (harg4.unread x2) (k3_pay38, k3_pay39, k3_pay40))
      3 ⟨Tile.t2_initM p, Tile.t2_initL p, Tile.t2_initA p d⟩ ?_ 3 le_rfl)
  intro n hn
  have hk : n < k3_t2_loop.trips := htr ▸ hn
  have hsucc := st_k3_t2_succ (F := Ideal) Variants.none c none i arg2 harg2 arg3 harg3 arg4 harg4 arg5 harg5 v62 (harg3.unread x1) (harg4.unread x2) (k3_pay38, k3_pay39, k3_pay40) ⟨n, hk⟩
  obtain ⟨es, ev⟩ := tile_of_row (rows x0) (rows x1) (rows x2) 512 p d (by omega) n (by omega) (fun e => v62 (ix2 p e)) (fun e => hv62 p e)
    (View.readAt (Elt Ideal) arg3.view (Rect.unit (s := S1x1x1024x64) (k3_off3 ⟨n, hk⟩) S1x1x256x64.size (Gen.k3_off3_inb ⟨n, hk⟩)).toLoadRect (harg3.unread x1))
    (View.readAt (Elt Ideal) arg4.view (Rect.unit (s := S1x1x1024x64) (k3_off3 ⟨n, hk⟩) S1x1x256x64.size (Gen.k3_off3_inb ⟨n, hk⟩)).toLoadRect (harg4.unread x2))
    (fun c' e => load_tile arg3 harg3 x1 _ _ n (by omega) (Gen.k3_off3_eq ⟨n, hk⟩) c' e)
    (fun c' => load_tile arg4 harg4 x2 _ _ n (by omega) (Gen.k3_off3_eq ⟨n, hk⟩) c' d)
  rw [show st_k3_t2 (F := Ideal) Variants.none c none i arg2 harg2 arg3 harg3 arg4 harg4 arg5 harg5 v62 (harg3.unread x1) (harg4.unread x2) (k3_pay38, k3_pay39, k3_pay40) (n + 1) = _ from hsucc, tripR_t2_eq]
  dsimp only
  refine ⟨?_, ?_, ?_⟩
  · rw [Tile.t2_M]; exact congrArg _ es
  · rw [Tile.t2_L]; exact congrArg _ es
  · rw [Tile.t2_A, es, ev]

/-- Query tile 3 (rows 768 … 1023): four trips over key tiles 0 … 3. -/
theorem row_t3 (h0 : ∀ t e, ∃ r : ℝ, rows x0 t e = r) (h1 : ∀ s e, ∃ r : ℝ, rows x1 s e = r) (h2 : ∀ s e, ∃ r : ℝ, rows x2 s e = r)
    (v73 : Vec Ideal S1x1x256x64 .bf16)
    (hv73 : ∀ (p : Fin 256) (e : Fin 64), v73 (ix4 0 0 p e) = rows x0 ⟨768 + p.val, by have := p.isLt; omega⟩ e)
    (N : ℕ) (hN : N = 4) (p : Fin 256) (d : Fin 64) :
    k3_pay17 (F := Ideal)
      (st_k3_t3 (F := Ideal) Variants.none c none i arg2 harg2 arg3 harg3 arg4 harg4 arg5 harg5 v73 (harg3.unread x1) (harg4.unread x2) (k3_pay8, k3_pay9, k3_pay10) N).2.1
      (st_k3_t3 (F := Ideal) Variants.none c none i arg2 harg2 arg3 harg3 arg4 harg4 arg5 harg5 v73 (harg3.unread x1) (harg4.unread x2) (k3_pay8, k3_pay9, k3_pay10) N).2.2
      (ix4 0 0 p d)
      = attn (rows x0) (rows x1) (rows x2) ⟨768 + p.val, by have := p.isLt; omega⟩ d := by
  subst hN
  have htr : k3_t3_loop.trips = 4 := by decide
  rw [Tile.t3_out]
  refine finish_row (rows x0) (rows x1) (rows x2) h0 h1 h2 ⟨768 + p.val, by have := p.isLt; omega⟩ d 4 (by omega) (by omega)
    (by show 768 + p.val < 4 * 256; have := p.isLt; omega) _ _ _
    (online_of_steps _ _ p d
      (st_k3_t3 (F := Ideal) Variants.none c none i arg2 harg2 arg3 harg3 arg4 harg4 arg5 harg5 v73 (harg3.unread x1) (harg4.unread x2) (k3_pay8, k3_pay9, k3_pay10))
      4 ⟨Tile.t3_initM p, Tile.t3_initL p, Tile.t3_initA p d⟩ ?_ 4 le_rfl)
  intro n hn
  have hk : n < k3_t3_loop.trips := htr ▸ hn
  have hsucc := st_k3_t3_succ (F := Ideal) Variants.none c none i arg2 harg2 arg3 harg3 arg4 harg4 arg5 harg5 v73 (harg3.unread x1) (harg4.unread x2) (k3_pay8, k3_pay9, k3_pay10) ⟨n, hk⟩
  obtain ⟨es, ev⟩ := tile_of_row (rows x0) (rows x1) (rows x2) 768 p d (by omega) n (by omega) (fun e => v73 (ix4 0 0 p e)) (fun e => hv73 p e)
    (View.readAt (Elt Ideal) arg3.view (Rect.unit (s := S1x1x1024x64) (k3_off4 ⟨n, hk⟩) S1x1x256x64.size (Gen.k3_off4_inb ⟨n, hk⟩)).toLoadRect (harg3.unread x1))
    (View.readAt (Elt Ideal) arg4.view (Rect.unit (s := S1x1x1024x64) (k3_off4 ⟨n, hk⟩) S1x1x256x64.size (Gen.k3_off4_inb ⟨n, hk⟩)).toLoadRect (harg4.unread x2))
    (fun c' e => load_tile arg3 harg3 x1 _ _ n (by omega) (Gen.k3_off4_eq ⟨n, hk⟩) c' e)
    (fun c' => load_tile arg4 harg4 x2 _ _ n (by omega) (Gen.k3_off4_eq ⟨n, hk⟩) c' d)
  rw [show st_k3_t3 (F := Ideal) Variants.none c none i arg2 harg2 arg3 harg3 arg4 harg4 arg5 harg5 v73 (harg3.unread x1) (harg4.unread x2) (k3_pay8, k3_pay9, k3_pay10) (n + 1) = _ from hsucc, tripR_t3_eq]
  dsimp only
  refine ⟨?_, ?_, ?_⟩
  · rw [Tile.t3_M]; exact congrArg _ es
  · rw [Tile.t3_L]; exact congrArg _ es
  · rw [Tile.t3_A, es, ev]

/-- Query tile 1 (rows 256 … 511): two trips over key tiles 0, 1. -/
theorem row_t1 (h0 : ∀ t e, ∃ r : ℝ, rows x0 t e = r) (h1 : ∀ s e, ∃ r : ℝ, rows x1 s e = r) (h2 : ∀ s e, ∃ r : ℝ, rows x2 s e = r)
    (v4 : FVec Ideal S256x64 .f32) (v12 : FVec Ideal S256x64 .bf16) (v31 : FVec Ideal S256x1 .f32) (v34 : FVec Ideal S256x256 .f32) (v35 : FVec Ideal S256x1 .f32)
    (v49 : Vec Ideal S1x1x256x64 .bf16)
    (hv49 : ∀ (p : Fin 256) (e : Fin 64), v49 (ix4 0 0 p e) = rows x0 ⟨256 + p.val, by have := p.isLt; omega⟩ e)
    (N : ℕ) (hN : N = 2) (p : Fin 256) (d : Fin 64) :
    k3_pay36 (F := Ideal)
      (st_k3_t1 (F := Ideal) Variants.none c none i arg2 harg2 arg3 harg3 arg4 harg4 arg5 harg5 v4 v12 v31 v34 v35 v49 (harg3.unread x1) (harg4.unread x2) (k3_pay27, k3_pay28, k3_pay29) N).2.1
      (st_k3_t1 (F := Ideal) Variants.none c none i arg2 harg2 arg3 harg3 arg4 harg4 arg5 harg5 v4 v12 v31 v34 v35 v49 (harg3.unread x1) (harg4.unread x2) (k3_pay27, k3_pay28, k3_pay29) N).2.2
      (ix4 0 0 p d)
      = attn (rows x0) (rows x1) (rows x2) ⟨256 + p.val, by have := p.isLt; omega⟩ d := by
  subst hN
  have htr : k3_t1_loop.trips = 2 := by decide
  rw [Tile.t1_out]
  refine finish_row (rows x0) (rows x1) (rows x2) h0 h1 h2 ⟨256 + p.val, by have := p.isLt; omega⟩ d 2 (by omega) (by omega)
    (by show 256 + p.val < 2 * 256; have := p.isLt; omega) _ _ _
    (online_of_steps _ _ p d
      (st_k3_t1 (F := Ideal) Variants.none c none i arg2 harg2 arg3 harg3 arg4 harg4 arg5 harg5 v4 v12 v31 v34 v35 v49 (harg3.unread x1) (harg4.unread x2) (k3_pay27, k3_pay28, k3_pay29))
      2 ⟨Tile.t1_initM p, Tile.t1_initL p, Tile.t1_initA p d⟩ ?_ 2 le_rfl)
  intro n hn
  have hk : n < k3_t1_loop.trips := htr ▸ hn
  have hsucc := st_k3_t1_succ (F := Ideal) Variants.none c none i arg2 harg2 arg3 harg3 arg4 harg4 arg5 harg5 v4 v12 v31 v34 v35 v49 (harg3.unread x1) (harg4.unread x2) (k3_pay27, k3_pay28, k3_pay29) ⟨n, hk⟩
  obtain ⟨es, ev⟩ := tile_of_row (rows x0) (rows x1) (rows x2) 256 p d (by omega) n (by omega) (fun e => v49 (ix4 0 0 p e)) (fun e => hv49 p e)
    (View.readAt (Elt Ideal) arg3.view (Rect.unit (s := S1x1x1024x64) (k3_off2 ⟨n, hk⟩) S1x1x256x64.size (Gen.k3_off2_inb ⟨n, hk⟩)).toLoadRect (harg3.unread x1))
    (View.readAt (Elt Ideal) arg4.view (Rect.unit (s := S1x1x1024x64) (k3_off2 ⟨n, hk⟩) S1x1x256x64.size (Gen.k3_off2_inb ⟨n, hk⟩)).toLoadRect (harg4.unread x2))
    (fun c' e => load_tile arg3 harg3 x1 _ _ n (by omega) (Gen.k3_off2_eq ⟨n, hk⟩) c' e)
    (fun c' => load_tile arg4 harg4 x2 _ _ n (by omega) (Gen.k3_off2_eq ⟨n, hk⟩) c' d)
  rw [show st_k3_t1 (F := Ideal) Variants.none c none i arg2 harg2 arg3 harg3 arg4 harg4 arg5 harg5 v4 v12 v31 v34 v35 v49 (harg3.unread x1) (harg4.unread x2) (k3_pay27, k3_pay28, k3_pay29) (n + 1) = _ from hsucc, tripR_t1_eq]
  dsimp only
  refine ⟨?_, ?_, ?_⟩
  · rw [Tile.t1_M]; exact congrArg _ es
  · rw [Tile.t1_L]; exact congrArg _ es
  · rw [Tile.t1_A, es, ev]

/-- Query tile 0 (rows 0 … 255): the single diagonal key tile. -/
theorem row_t0 (h0 : ∀ t e, ∃ r : ℝ, rows x0 t e = r) (h1 : ∀ s e, ∃ r : ℝ, rows x1 s e = r) (h2 : ∀ s e, ∃ r : ℝ, rows x2 s e = r)
    (v0 v8 v11 : Vec Ideal S1x1x256x64 .bf16)
    (hv0 : ∀ (p : Fin 256) (e : Fin 64), v0 (ix4 0 0 p e) = rows x0 ⟨0 + p.val, by have := p.isLt; omega⟩ e)
    (hv8 : ∀ (c' : Fin 256) (e : Fin 64), v8 (ix4 0 0 c' e) = rows x1 ⟨0 * 256 + c'.val, by have := c'.isLt; omega⟩ e)
    (hv11 : ∀ (c' : Fin 256) (e : Fin 64), v11 (ix4 0 0 c' e) = rows x2 ⟨0 * 256 + c'.val, by have := c'.isLt; omega⟩ e)
    (p : Fin 256) (d : Fin 64) :
    k3_pay26 (F := Ideal) (k3_pay19 (F := Ideal)) (k3_pay20 v11) (k3_pay23 v0 v8) (k3_pay24 v0 v8) (k3_pay25 v0 v8) (ix4 0 0 p d)
      = attn (rows x0) (rows x1) (rows x2) ⟨0 + p.val, by have := p.isLt; omega⟩ d := by
  rw [Tile.t0_out]
  obtain ⟨es, ev⟩ := tile_of_row (rows x0) (rows x1) (rows x2) 0 p d (by omega) 0 (by omega) (fun e => v0 (ix4 0 0 p e)) (fun e => hv0 p e)
    v8 v11 hv8 (fun c' => hv11 c' d)
  have es' : tileScore (fun e => v0 (ix4 0 0 p e)) (fun c' e => v8 (ix4 0 0 c' e)) 0 p.val
      = tileOf (scoreRow (rows x0) (rows x1) ⟨0 + p.val, by have := p.isLt; omega⟩) 0 := by
    have := es; simp only [Nat.zero_mul, Nat.zero_add] at this ⊢; exact this
  rw [es', ev]
  exact finish_row (rows x0) (rows x1) (rows x2) h0 h1 h2 ⟨0 + p.val, by have := p.isLt; omega⟩ d 1 (by omega) (by omega)
    (by show 0 + p.val < 1 * 256; have := p.isLt; omega) _ _ (tileM ⊥ (tileOf (scoreRow (rows x0) (rows x1) ⟨0 + p.val, by have := p.isLt; omega⟩) 0)) rfl

end Block

/-! ## The four stores, as one function of the block index -/

/-- A 256-row store at row offset R whose payload, row by row, is G at the shifted row agrees with G on its rectangle. -/
theorem piece_ok (R : ℕ) (inb : ∀ a, (![0, 0, R, 0] : Fin 4 → ℕ) a + S1x1x256x64.size a ≤ S1x1x1024x64.size a)
    (w : FVec Ideal S1x1x256x64 .f32) (G : S1x1x1024x64.Idx → EReal) (hR : R + 256 ≤ 1024)
    (hw : ∀ (p : Fin 256) (d : Fin 64), w (ix4 0 0 p d) = G (ix4 0 0 ⟨R + p.val, by have := p.isLt; omega⟩ d))
    (x : S1x1x256x64.Idx) :
    w x = G ((Rect.unit (s := S1x1x1024x64) ![0, 0, R, 0] S1x1x256x64.size inb).emb x) := by
  obtain ⟨a, b, p, d, rfl⟩ : ∃ (a : Fin 1) (b : Fin 1) (p : Fin 256) (d : Fin 64), x = ix4 a b p d := ⟨x 0, x 1, x 2, x 3, eq_ix4 x⟩
  obtain rfl : a = 0 := Subsingleton.elim _ _
  obtain rfl : b = 0 := Subsingleton.elim _ _
  rw [hw]
  refine congrArg G (funext fun ax => Fin.ext ?_)
  match ax with
  | ⟨0, _⟩ => rfl
  | ⟨1, _⟩ => rfl
  | ⟨2, _⟩ => show R + p.val = R + 1 * p.val; omega
  | ⟨3, _⟩ => show d.val = 0 + 1 * d.val; omega

/-! ## The output block -/

/-- The output block as a function of its index: entry (·, ·, t, d) is the head's attention at (t, d). -/
def blockFn (x0 x1 x2 : Vec Ideal S1x1x1024x64 .bf16) : S1x1x1024x64.Idx → EReal :=
  fun y => attn (rows x0) (rows x1) (rows x2) ⟨(y 2).val, (y 2).isLt⟩ ⟨(y 3).val, (y 3).isLt⟩

/-- The body's output block, entry (t, d): one head's attention of the block's q, k, v, provided these are real. -/
theorem out3_apply (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
    (x0 x1 x2 : Vec Ideal S1x1x1024x64 .bf16)
    (h0 : ∀ j, ∃ r : ℝ, x0 j = r) (h1 : ∀ j, ∃ r : ℝ, x1 j = r) (h2 : ∀ j, ∃ r : ℝ, x2 j = r)
    (t : Fin 1024) (d : Fin 64) :
    out3_A_3 (F := Ideal) c i arg2 harg2 arg3 harg3 arg4 harg4 arg5 harg5 x0 x1 x2 (ix4 0 0 t d)
      = Attn.attn (fun t' e => x0 (ix4 0 0 t' e)) (fun s e => x1 (ix4 0 0 s e)) (fun s e => x2 (ix4 0 0 s e)) t d := by
  have hr0 : ∀ t e, ∃ r : ℝ, rows x0 t e = r := fun t e => h0 _
  have hr1 : ∀ s e, ∃ r : ℝ, rows x1 s e = r := fun s e => h1 _
  have hr2 : ∀ s e, ∃ r : ℝ, rows x2 s e = r := fun s e => h2 _
  unfold out3_A_3
  rw [View.read_writes_eq_canon _ _ _ (cover3_A_3 c i arg2 harg2 arg3 harg3 arg4 harg4 arg5 harg5 x0 x1 x2)]
  refine (View.canon_apply_of_pieces (blockFn x0 x1 x2) _ ?_ (ix4 0 0 t d) (cover3_A_3 c i arg2 harg2 arg3 harg3 arg4 harg4 arg5 harg5 x0 x1 x2 (ix4 0 0 t d))).trans rfl
  unfold kernelRun3_A
  dsimp only
  intro pc hpc
  simp only [List.mem_cons, List.not_mem_nil, or_false] at hpc
  rcases hpc with rfl | rfl | rfl | rfl
  · intro x
    refine piece_ok 768 (by decide) _ (blockFn x0 x1 x2) (by omega) ?_ x
    intro p d'
    exact row_t3 c i arg2 harg2 arg3 harg3 arg4 harg4 arg5 harg5 x0 x1 x2 hr0 hr1 hr2 _
      (fun p' e => load_q arg2 harg2 x0 768 _ (by omega) p' e) _ (by decide) p d'
  · intro x
    refine piece_ok 512 (by decide) _ (blockFn x0 x1 x2) (by omega) ?_ x
    intro p d'
    exact row_t2 c i arg2 harg2 arg3 harg3 arg4 harg4 arg5 harg5 x0 x1 x2 hr0 hr1 hr2 _
      (fun p' e => (Tile.t2_q _ p' e).trans (load_q arg2 harg2 x0 512 _ (by omega) p' e)) _ (by decide) p d'
  · intro x
    refine piece_ok 256 (by decide) _ (blockFn x0 x1 x2) (by omega) ?_ x
    intro p d'
    exact row_t1 c i arg2 harg2 arg3 harg3 arg4 harg4 arg5 harg5 x0 x1 x2 hr0 hr1 hr2 _ _ _ _ _ _
      (fun p' e => load_q arg2 harg2 x0 256 _ (by omega) p' e) _ (by decide) p d'
  · intro x
    refine piece_ok 0 (by decide) _ (blockFn x0 x1 x2) (by omega) ?_ x
    intro p d'
    exact row_t0 x0 x1 x2 hr0 hr1 hr2 _ _ _
      (fun p' e => load_q arg2 harg2 x0 0 _ (by omega) p' e)
      (fun c' e => load_tile arg3 harg3 x1 _ _ 0 (by omega) Gen.k3_off1_eq c' e)
      (fun c' e => load_tile arg4 harg4 x2 _ _ 0 (by omega) Gen.k3_off1_eq c' e) p d'

end Cert.KernelIdeal.AttnBody

end
-- ==== Proof.AttnValue.lean ====
/-
  The attention launch's result array after its 8 × 16 grid points: block (b, h) of the array is the body's output
  block of blocks (b, h) of q, k, v, the blocks tile the array, so every entry (b, h, t, d) is head h's attention of
  batch b at (t, d).
-/
import proofs.«406224_j55722905699212_3_alg».proof.Proof.Gen.KernelIdeal.Frame
import proofs.«406224_j55722905699212_3_alg».proof.Proof.Spec
import proofs.«406224_j55722905699212_3_alg».proof.Proof.AttnBody
import Idealize.ShloMosaic.Lib.Pipeline.Value
import Idealize.ShloMosaic.Lib.ValueIdx

set_option maxRecDepth 16384

noncomputable section

namespace Cert.KernelIdeal.AttnValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem idx_lt (t : Fin cfg3.N) : t.val / 16 < 8 ∧ t.val % 16 < 16 := by
  have ht : t.val < 128 := lt_of_lt_of_eq t.isLt N_3
  omega

/-! ## The index maps, over the 8 × 16 points: every window's block at point t is block (t / 16, t % 16) -/

theorem idx_facts3_0 : ∀ t : Fin cfg3.N, win3_0.index t (0 : Fin 4) = t.val / 16 ∧ win3_0.index t (1 : Fin 4) = t.val % 16
    ∧ win3_0.index t (2 : Fin 4) = 0 ∧ win3_0.index t (3 : Fin 4) = 0 :=
  (by decide +kernel : ∀ t : Fin grid3.N, _)
theorem idx_facts3_1 : ∀ t : Fin cfg3.N, win3_1.index t (0 : Fin 4) = t.val / 16 ∧ win3_1.index t (1 : Fin 4) = t.val % 16
    ∧ win3_1.index t (2 : Fin 4) = 0 ∧ win3_1.index t (3 : Fin 4) = 0 :=
  (by decide +kernel : ∀ t : Fin grid3.N, _)
theorem idx_facts3_2 : ∀ t : Fin cfg3.N, win3_2.index t (0 : Fin 4) = t.val / 16 ∧ win3_2.index t (1 : Fin 4) = t.val % 16
    ∧ win3_2.index t (2 : Fin 4) = 0 ∧ win3_2.index t (3 : Fin 4) = 0 :=
  (by decide +kernel : ∀ t : Fin grid3.N, _)
theorem idx_facts3_3 : ∀ t : Fin cfg3.N, win3_3.index t (0 : Fin 4) = t.val / 16 ∧ win3_3.index t (1 : Fin 4) = t.val % 16
    ∧ win3_3.index t (2 : Fin 4) = 0 ∧ win3_3.index t (3 : Fin 4) = 0 :=
  (by decide +kernel : ∀ t : Fin grid3.N, _)

/-! ## The input blocks as blocks of their arrays -/

/-- The query block at the point of coordinates (b, h) is block (b, h) of its array. -/
theorem iblk3_0_apply (c : Dev nD) (t : Fin cfg3.N) (hb : t.val / 16 < 8) (hh : t.val % 16 < 16) (t' : Fin 1024) (e : Fin 64) :
    (iblk3 V c 0 t : Vec Ideal S1x1x1024x64 .bf16) (ix4 0 0 t' e)
      = (V c main_v8 : S8x16x1024x64.Idx → EReal) (ix4 (⟨t.val / 16, hb⟩ : Fin 8) (⟨t.val % 16, hh⟩ : Fin 16) t' e) := by
  obtain ⟨e0, e1, e2, e3⟩ := idx_facts3_0 t
  unfold iblk3
  rw [View.read_apply]
  show V c main_v8 _ = V c main_v8 _
  congr 1
  funext a
  apply Fin.ext
  match a with
  | ⟨0, _⟩ => show win3_0.index t (0 : Fin 4) * 1 + 1 * 0 = t.val / 16; rw [e0]; omega
  | ⟨1, _⟩ => show win3_0.index t (1 : Fin 4) * 1 + 1 * 0 = t.val % 16; rw [e1]; omega
  | ⟨2, _⟩ => show win3_0.index t (2 : Fin 4) * 1024 + 1 * t'.val = t'.val; rw [e2]; omega
  | ⟨3, _⟩ => show win3_0.index t (3 : Fin 4) * 64 + 1 * e.val = e.val; rw [e3]; omega

/-- The key block at the point of coordinates (b, h) is block (b, h) of its array. -/
theorem iblk3_1_apply (c : Dev nD) (t : Fin cfg3.N) (hb : t.val / 16 < 8) (hh : t.val % 16 < 16) (t' : Fin 1024) (e : Fin 64) :
    (iblk3 V c 1 t : Vec Ideal S1x1x1024x64 .bf16) (ix4 0 0 t' e)
      = (V c main_v10 : S8x16x1024x64.Idx → EReal) (ix4 (⟨t.val / 16, hb⟩ : Fin 8) (⟨t.val % 16, hh⟩ : Fin 16) t' e) := by
  obtain ⟨e0, e1, e2, e3⟩ := idx_facts3_1 t
  unfold iblk3
  rw [View.read_apply]
  show V c main_v10 _ = V c main_v10 _
  congr 1
  funext a
  apply Fin.ext
  match a with
  | ⟨0, _⟩ => show win3_1.index t (0 : Fin 4) * 1 + 1 * 0 = t.val / 16; rw [e0]; omega
  | ⟨1, _⟩ => show win3_1.index t (1 : Fin 4) * 1 + 1 * 0 = t.val % 16; rw [e1]; omega
  | ⟨2, _⟩ => show win3_1.index t (2 : Fin 4) * 1024 + 1 * t'.val = t'.val; rw [e2]; omega
  | ⟨3, _⟩ => show win3_1.index t (3 : Fin 4) * 64 + 1 * e.val = e.val; rw [e3]; omega

/-- The value block at the point of coordinates (b, h) is block (b, h) of its array. -/
theorem iblk3_2_apply (c : Dev nD) (t : Fin cfg3.N) (hb : t.val / 16 < 8) (hh : t.val % 16 < 16) (t' : Fin 1024) (e : Fin 64) :
    (iblk3 V c 2 t : Vec Ideal S1x1x1024x64 .bf16) (ix4 0 0 t' e)
      = (V c main_v12 : S8x16x1024x64.Idx → EReal) (ix4 (⟨t.val / 16, hb⟩ : Fin 8) (⟨t.val % 16, hh⟩ : Fin 16) t' e) := by
  obtain ⟨e0, e1, e2, e3⟩ := idx_facts3_2 t
  unfold iblk3
  rw [View.read_apply]
  show V c main_v12 _ = V c main_v12 _
  congr 1
  funext a
  apply Fin.ext
  match a with
  | ⟨0, _⟩ => show win3_2.index t (0 : Fin 4) * 1 + 1 * 0 = t.val / 16; rw [e0]; omega
  | ⟨1, _⟩ => show win3_2.index t (1 : Fin 4) * 1 + 1 * 0 = t.val % 16; rw [e1]; omega
  | ⟨2, _⟩ => show win3_2.index t (2 : Fin 4) * 1024 + 1 * t'.val = t'.val; rw [e2]; omega
  | ⟨3, _⟩ => show win3_2.index t (3 : Fin 4) * 64 + 1 * e.val = e.val; rw [e3]; omega

/-! ## One grid point -/

/-- One grid point of the attention launch, over blocks x0, x1, x2 given as blocks (b, h) of real arrays Q, K, W: the
    entry (t, d) the body leaves is entry (b, h, t, d) of the attention of Q, K, W. -/
theorem point3 (Q K W : S8x16x1024x64.Idx → EReal)
    (hQ : ∀ j, ∃ r : ℝ, Q j = r) (hK : ∀ j, ∃ r : ℝ, K j = r) (hW : ∀ j, ∃ r : ℝ, W j = r)
    (c : Dev nD) (i : grid3.Coords) (arg2 : Memref sig .tc .vmem S1x1x1024x64 .bf16) (harg2 : arg2.IsWhole) (arg3 : Memref sig .tc .vmem S1x1x1024x64 .bf16) (harg3 : arg3.IsWhole) (arg4 : Memref sig .tc .vmem S1x1x1024x64 .bf16) (harg4 : arg4.IsWhole) (arg5 : Memref sig .tc .vmem S1x1x1024x64 .f32) (harg5 : arg5.IsWhole)
    (x0 x1 x2 : Vec Ideal S1x1x1024x64 .bf16) (b : Fin 8) (h : Fin 16)
    (e0 : ∀ (t' : Fin 1024) (e : Fin 64), x0 (ix4 0 0 t' e) = Q (ix4 b h t' e))
    (e1 : ∀ (t' : Fin 1024) (e : Fin 64), x1 (ix4 0 0 t' e) = K (ix4 b h t' e))
    (e2 : ∀ (t' : Fin 1024) (e : Fin 64), x2 (ix4 0 0 t' e) = W (ix4 b h t' e))
    (j : S1x1x1024x64.Idx) (ii : S8x16x1024x64.Idx)
    (hi0 : (ii 0).val = b.val) (hi1 : (ii 1).val = h.val) (hi2 : (ii 2).val = (j 2).val) (hi3 : (ii 3).val = (j 3).val) :
    out3_A_3 (F := Ideal) c i arg2 harg2 arg3 harg3 arg4 harg4 arg5 harg5 x0 x1 x2 j = Attn.attnArr Q K W ii := by
  have real_of : ∀ (x : Vec Ideal S1x1x1024x64 .bf16) (A : S8x16x1024x64.Idx → EReal), (∀ j, ∃ r : ℝ, A j = r) →
      (∀ (t' : Fin 1024) (e : Fin 64), x (ix4 0 0 t' e) = A (ix4 b h t' e)) → ∀ y, ∃ r : ℝ, x y = r := by
    intro x A hA hx y
    obtain ⟨a, b', t', e, rfl⟩ : ∃ (a : Fin 1) (b' : Fin 1) (t' : Fin 1024) (e : Fin 64), y = ix4 a b' t' e := ⟨y 0, y 1, y 2, y 3, eq_ix4 y⟩
    obtain rfl : a = 0 := Subsingleton.elim _ _
    obtain rfl : b' = 0 := Subsingleton.elim _ _
    rw [hx]
    exact hA _
  obtain ⟨a, b', t, d, rfl⟩ : ∃ (a : Fin 1) (b' : Fin 1) (t : Fin 1024) (d : Fin 64), j = ix4 a b' t d := ⟨j 0, j 1, j 2, j 3, eq_ix4 j⟩
  obtain rfl : a = 0 := Subsingleton.elim _ _
  obtain rfl : b' = 0 := Subsingleton.elim _ _
  rw [AttnBody.out3_apply c i arg2 harg2 arg3 harg3 arg4 harg4 arg5 harg5 x0 x1 x2 (real_of x0 Q hQ e0) (real_of x1 K hK e1) (real_of x2 W hW e2) t d]
  obtain rfl : b = ⟨(ii 0).val, (ii 0).isLt⟩ := Fin.ext hi0.symm
  obtain rfl : h = ⟨(ii 1).val, (ii 1).isLt⟩ := Fin.ext hi1.symm
  obtain rfl : t = ⟨(ii 2).val, (ii 2).isLt⟩ := Fin.ext hi2.symm
  obtain rfl : d = ⟨(ii 3).val, (ii 3).isLt⟩ := Fin.ext hi3.symm
  unfold Attn.attnArr
  simp only [e0, e1, e2]

/-! ## What a point writes back, the cover, the array -/

/-- What point t of the attention launch writes back is block (t / 16, t % 16) of the attention of q, k, v. -/
theorem flushed3_eq (c : Dev nD)
    (hq : ∀ j : S8x16x1024x64.Idx, ∃ r : ℝ, V c main_v8 j = ((r : ℝ) : EReal))
    (hk : ∀ j : S8x16x1024x64.Idx, ∃ r : ℝ, V c main_v10 j = ((r : ℝ) : EReal))
    (hv : ∀ j : S8x16x1024x64.Idx, ∃ r : ℝ, V c main_v12 j = ((r : ℝ) : EReal)) (t : Fin cfg3.N) :
    (dat3 (F := Ideal) V c).flushed 3 t = ((cfg3.win 3).blk t).view.read (Elt Ideal) (Attn.attnArr (V c main_v8) (V c main_v10) (V c main_v12)) := by
  show (cfg3.win 3).cut (grid3.coords t) ((dat3 V c).after 3 t) = _
  rw [after3_3]
  unfold outsAt3
  obtain ⟨f0, f1, f2, f3⟩ := idx_facts3_3 t
  obtain ⟨hb, hh⟩ := idx_lt t
  funext j
  have hj0 : (j 0).val < 1 := (j 0).isLt
  have hj1 : (j 1).val < 1 := (j 1).isLt
  refine point3 (V c main_v8) (V c main_v10) (V c main_v12) hq hk hv c (grid3.coords t) (ms3_0 t) (hs3_0 t) (ms3_1 t) (hs3_1 t) (ms3_2 t) (hs3_2 t) (ms3_3 t) (hs3_3 t)
    (iblk3 V c 0 t) (iblk3 V c 1 t) (iblk3 V c 2 t) ⟨t.val / 16, hb⟩ ⟨t.val % 16, hh⟩
    (fun t' e => iblk3_0_apply V c t hb hh t' e) (fun t' e => iblk3_1_apply V c t hb hh t' e) (fun t' e => iblk3_2_apply V c t hb hh t' e)
    j (((cfg3.win 3).blk t).view.emb j) ?_ ?_ ?_ ?_
  · show win3_3.index t (0 : Fin 4) * 1 + 1 * (j 0).val = t.val / 16
    rw [f0]; omega
  · show win3_3.index t (1 : Fin 4) * 1 + 1 * (j 1).val = t.val % 16
    rw [f1]; omega
  · show win3_3.index t (2 : Fin 4) * 1024 + 1 * (j 2).val = (j 2).val
    rw [f2]; omega
  · show win3_3.index t (3 : Fin 4) * 64 + 1 * (j 3).val = (j 3).val
    rw [f3]; omega

/-- An index of the result array is in point t's block iff each coordinate is in the block's range on its axis. -/
theorem mem_blk3 (t : Fin cfg3.N) (i : S8x16x1024x64.Idx) :
    i ∈ ((cfg3.win 3).blk t).view.set ↔ ∀ a : Fin 4, win3_3.index t a * S1x1x1024x64.size a ≤ (i a).val ∧ (i a).val < win3_3.index t a * S1x1x1024x64.size a + S1x1x1024x64.size a := by
  show i ∈ ((View.whole main_v13).slice (win3_3.rect t)).set ↔ _
  rw [View.set_slice_whole, Rect.mem_set_unit]
  exact Iff.rfl

/-- Entry (b, h, ·, ·) of the result is written back by the point of coordinates (b, h), the 16·b + h-th. -/
theorem cover3 (i : S8x16x1024x64.Idx) : ∃ t : Fin cfg3.N, (cfg3.win 3).flush t = true ∧ i ∈ ((cfg3.win 3).blk t).view.set := by
  have hi0 : (i 0).val < 8 := (i 0).isLt
  have hi1 : (i 1).val < 16 := (i 1).isLt
  have hi2 : (i 2).val < 1024 := (i 2).isLt
  have hi3 : (i 3).val < 64 := (i 3).isLt
  have hN : cfg3.N = 128 := N_3
  let t : Fin cfg3.N := ⟨16 * (i 0).val + (i 1).val, by rw [hN]; omega⟩
  obtain ⟨f0, f1, f2, f3⟩ := idx_facts3_3 t
  have ht : t.val = 16 * (i 0).val + (i 1).val := rfl
  refine ⟨t, flush3_3 t, ?_⟩
  rw [mem_blk3]
  intro a
  match a with
  | ⟨0, _⟩ => show win3_3.index t (0 : Fin 4) * 1 ≤ (i 0).val ∧ (i 0).val < win3_3.index t (0 : Fin 4) * 1 + 1; rw [f0, ht]; omega
  | ⟨1, _⟩ => show win3_3.index t (1 : Fin 4) * 1 ≤ (i 1).val ∧ (i 1).val < win3_3.index t (1 : Fin 4) * 1 + 1; rw [f1, ht]; omega
  | ⟨2, _⟩ => show win3_3.index t (2 : Fin 4) * 1024 ≤ (i 2).val ∧ (i 2).val < win3_3.index t (2 : Fin 4) * 1024 + 1024; rw [f2]; omega
  | ⟨3, _⟩ => show win3_3.index t (3 : Fin 4) * 64 ≤ (i 3).val ∧ (i 3).val < win3_3.index t (3 : Fin 4) * 64 + 64; rw [f3]; omega

/-- The attention launch's result array, given real q, k, v arrays. -/
theorem arr3 (c : Dev nD)
    (hq : ∀ j : S8x16x1024x64.Idx, ∃ r : ℝ, V c main_v8 j = ((r : ℝ) : EReal))
    (hk : ∀ j : S8x16x1024x64.Idx, ∃ r : ℝ, V c main_v10 j = ((r : ℝ) : EReal))
    (hv : ∀ j : S8x16x1024x64.Idx, ∃ r : ℝ, V c main_v12 j = ((r : ℝ) : EReal)) :
    (dat3 (F := Ideal) V c).arrAt 3 cfg3.N = Attn.attnArr (V c main_v8) (V c main_v10) (V c main_v12) :=
  (dat3 (F := Ideal) V c).arrAt_eq_of_cover 3 (Attn.attnArr (V c main_v8) (V c main_v10) (V c main_v12)) (fun t _ => flushed3_eq V c hq hk hv t) cover3

end Cert.KernelIdeal.AttnValue

end
-- ==== Proof.KernelFold.lean ====
/-
  The kernel program's result buffer, read back through @main's segments: the last host stretch transposes and reshapes
  the attention launch's array; that launch reads the three projections, transposed and reshaped by the stretch before
  it; each projection launch reads the flattened x (which no launch writes) and its own flattened weight. Composed, the
  result buffer holds kernelOut of the four argument arrays.
-/
import proofs.«406224_j55722905699212_3_alg».proof.Proof.Gen.KernelIdeal.Frame
import proofs.«406224_j55722905699212_3_alg».proof.Proof.Spec
import proofs.«406224_j55722905699212_3_alg».proof.Proof.Bridge
import proofs.«406224_j55722905699212_3_alg».proof.Proof.ProjValue
import proofs.«406224_j55722905699212_3_alg».proof.Proof.AttnValue
import Idealize.ShloMosaic.Lib.Pipeline.Value
import Idealize.ShloMosaic.Lib.ValueIdx
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The first host stretch: the four arguments flattened -/

theorem V1_v0 (c : Dev nD) :
    (V1 (F := Ideal) m ρ c main_v0 : S8192x1024.Idx → EReal)
      = shapeCast S8192x1024 (m ((c.tc : Thread nD τ).loc main_arg0)) Facts₀.shapeCasts_S8x1024x1024_S8192x1024 := by
  show StableHlo.after hostOps0 (W0 m ρ c) (Proc.devRef .tc main_v0) = _
  after_results
  rfl

theorem V1_v1 (c : Dev nD) :
    (V1 (F := Ideal) m ρ c main_v1 : S1024x1024.Idx → EReal)
      = shapeCast S1024x1024 (m ((c.tc : Thread nD τ).loc main_arg1)) Facts₀.shapeCasts_S16x64x1024_S1024x1024 := by
  show StableHlo.after hostOps0 (W0 m ρ c) (Proc.devRef .tc main_v1) = _
  after_results
  rfl

theorem V1_v2 (c : Dev nD) :
    (V1 (F := Ideal) m ρ c main_v2 : S1024x1024.Idx → EReal)
      = shapeCast S1024x1024 (m ((c.tc : Thread nD τ).loc main_arg2)) Facts₀.shapeCasts_S16x64x1024_S1024x1024 := by
  show StableHlo.after hostOps0 (W0 m ρ c) (Proc.devRef .tc main_v2) = _
  after_results
  rfl

theorem V1_v3 (c : Dev nD) :
    (V1 (F := Ideal) m ρ c main_v3 : S1024x1024.Idx → EReal)
      = shapeCast S1024x1024 (m ((c.tc : Thread nD τ).loc main_arg3)) Facts₀.shapeCasts_S16x64x1024_S1024x1024 := by
  show StableHlo.after hostOps0 (W0 m ρ c) (Proc.devRef .tc main_v3) = _
  after_results
  rfl

/-! ## The three projection launches -/

theorem V2_v0 (c : Dev nD) : V2 (F := Ideal) m ρ c main_v0 = V1 (F := Ideal) m ρ c main_v0 :=
  (W2_arr m ρ c 0).trans (((dat0 (V1 m ρ) c).arrAt_in 0 rfl cfg0.N).trans (A_eq0 (V1 m ρ) c 0))

theorem V2_v2 (c : Dev nD) : V2 (F := Ideal) m ρ c main_v2 = V1 (F := Ideal) m ρ c main_v2 :=
  W2_of_ne m ρ c main_v2 (by decide)

theorem V2_v3 (c : Dev nD) : V2 (F := Ideal) m ρ c main_v3 = V1 (F := Ideal) m ρ c main_v3 :=
  W2_of_ne m ρ c main_v3 (by decide)

theorem V2_v4 (c : Dev nD) :
    V2 (F := Ideal) m ρ c main_v4 = Attn.projArr (V1 (F := Ideal) m ρ c main_v0) (V1 (F := Ideal) m ρ c main_v1) :=
  (W2_arr m ρ c 2).trans (ProjValue.arr0 (V1 m ρ) c)

theorem V3_v0 (c : Dev nD) : V3 (F := Ideal) m ρ c main_v0 = V2 (F := Ideal) m ρ c main_v0 :=
  (W3_arr m ρ c 0).trans (((dat1 (V2 m ρ) c).arrAt_in 0 rfl cfg1.N).trans (A_eq1 (V2 m ρ) c 0))

theorem V3_v3 (c : Dev nD) : V3 (F := Ideal) m ρ c main_v3 = V2 (F := Ideal) m ρ c main_v3 :=
  W3_of_ne m ρ c main_v3 (by decide)

theorem V3_v4 (c : Dev nD) : V3 (F := Ideal) m ρ c main_v4 = V2 (F := Ideal) m ρ c main_v4 :=
  W3_of_ne m ρ c main_v4 (by decide)

theorem V3_v5 (c : Dev nD) :
    V3 (F := Ideal) m ρ c main_v5 = Attn.projArr (V2 (F := Ideal) m ρ c main_v0) (V2 (F := Ideal) m ρ c main_v2) :=
  (W3_arr m ρ c 2).trans (ProjValue.arr1 (V2 m ρ) c)

theorem V4_v4 (c : Dev nD) : V4 (F := Ideal) m ρ c main_v4 = V3 (F := Ideal) m ρ c main_v4 :=
  W4_of_ne m ρ c main_v4 (by decide)

theorem V4_v5 (c : Dev nD) : V4 (F := Ideal) m ρ c main_v5 = V3 (F := Ideal) m ρ c main_v5 :=
  W4_of_ne m ρ c main_v5 (by decide)

theorem V4_v6 (c : Dev nD) :
    V4 (F := Ideal) m ρ c main_v6 = Attn.projArr (V3 (F := Ideal) m ρ c main_v0) (V3 (F := Ideal) m ρ c main_v3) :=
  (W4_arr m ρ c 2).trans (ProjValue.arr2 (V3 m ρ) c)

/-! ## The second host stretch: each projection viewed by head and the head axis moved forward -/

theorem V5_v8 (c : Dev nD) :
    (V5 (F := Ideal) m ρ c main_v8 : S8x16x1024x64.Idx → EReal)
      = transpose S8x16x1024x64 [0, 2, 1, 3]
          (shapeCast S8x1024x16x64 (V4 (F := Ideal) m ρ c main_v4 : S8192x1024.Idx → EReal) Facts₀.shapeCasts_S8192x1024_S8x1024x16x64)
          Facts₀.transposes_S8x1024x16x64_S8x16x1024x64_0_2_1_3 := by
  show StableHlo.after hostOps3 (W4 m ρ c) (Proc.devRef .tc main_v8) = _
  after_results
  rfl

theorem V5_v10 (c : Dev nD) :
    (V5 (F := Ideal) m ρ c main_v10 : S8x16x1024x64.Idx → EReal)
      = transpose S8x16x1024x64 [0, 2, 1, 3]
          (shapeCast S8x1024x16x64 (V4 (F := Ideal) m ρ c main_v5 : S8192x1024.Idx → EReal) Facts₀.shapeCasts_S8192x1024_S8x1024x16x64)
          Facts₀.transposes_S8x1024x16x64_S8x16x1024x64_0_2_1_3 := by
  show StableHlo.after hostOps3 (W4 m ρ c) (Proc.devRef .tc main_v10) = _
  after_results
  rfl

theorem V5_v12 (c : Dev nD) :
    (V5 (F := Ideal) m ρ c main_v12 : S8x16x1024x64.Idx → EReal)
      = transpose S8x16x1024x64 [0, 2, 1, 3]
          (shapeCast S8x1024x16x64 (V4 (F := Ideal) m ρ c main_v6 : S8192x1024.Idx → EReal) Facts₀.shapeCasts_S8192x1024_S8x1024x16x64)
          Facts₀.transposes_S8x1024x16x64_S8x16x1024x64_0_2_1_3 := by
  show StableHlo.after hostOps3 (W4 m ρ c) (Proc.devRef .tc main_v12) = _
  after_results
  rfl

/-! ## The projections are the specification's q, k, v -/

theorem proj_q (c : Dev nD) :
    (V4 (F := Ideal) m ρ c main_v4 : S8192x1024.Idx → EReal)
      = Attn.projArr (shapeCast S8192x1024 (m ((c.tc : Thread nD τ).loc main_arg0)) Facts₀.shapeCasts_S8x1024x1024_S8192x1024)
          (shapeCast S1024x1024 (m ((c.tc : Thread nD τ).loc main_arg1)) Facts₀.shapeCasts_S16x64x1024_S1024x1024) := by
  rw [V4_v4, V3_v4, V2_v4, V1_v0, V1_v1]

theorem proj_k (c : Dev nD) :
    (V4 (F := Ideal) m ρ c main_v5 : S8192x1024.Idx → EReal)
      = Attn.projArr (shapeCast S8192x1024 (m ((c.tc : Thread nD τ).loc main_arg0)) Facts₀.shapeCasts_S8x1024x1024_S8192x1024)
          (shapeCast S1024x1024 (m ((c.tc : Thread nD τ).loc main_arg2)) Facts₀.shapeCasts_S16x64x1024_S1024x1024) := by
  rw [V4_v5, V3_v5, V2_v0, V2_v2, V1_v0, V1_v2]

theorem proj_v (c : Dev nD) :
    (V4 (F := Ideal) m ρ c main_v6 : S8192x1024.Idx → EReal)
      = Attn.projArr (shapeCast S8192x1024 (m ((c.tc : Thread nD τ).loc main_arg0)) Facts₀.shapeCasts_S8x1024x1024_S8192x1024)
          (shapeCast S1024x1024 (m ((c.tc : Thread nD τ).loc main_arg3)) Facts₀.shapeCasts_S16x64x1024_S1024x1024) := by
  rw [V4_v6, V3_v0, V3_v3, V2_v0, V2_v3, V1_v0, V1_v3]

theorem q_eq (c : Dev nD) :
    (V5 (F := Ideal) m ρ c main_v8 : S8x16x1024x64.Idx → EReal)
      = Bridge.qkvArr (m ((c.tc : Thread nD τ).loc main_arg0)) (m ((c.tc : Thread nD τ).loc main_arg1)) := by
  rw [V5_v8, proj_q]
  rfl

theorem k_eq (c : Dev nD) :
    (V5 (F := Ideal) m ρ c main_v10 : S8x16x1024x64.Idx → EReal)
      = Bridge.qkvArr (m ((c.tc : Thread nD τ).loc main_arg0)) (m ((c.tc : Thread nD τ).loc main_arg2)) := by
  rw [V5_v10, proj_k]
  rfl

theorem v_eq (c : Dev nD) :
    (V5 (F := Ideal) m ρ c main_v12 : S8x16x1024x64.Idx → EReal)
      = Bridge.qkvArr (m ((c.tc : Thread nD τ).loc main_arg0)) (m ((c.tc : Thread nD τ).loc main_arg3)) := by
  rw [V5_v12, proj_v]
  rfl

/-! ## The attention launch and the last host stretch -/

theorem V6_v13 (c : Dev nD)
    (hq : ∀ j : S8x16x1024x64.Idx, ∃ r : ℝ, V5 (F := Ideal) m ρ c main_v8 j = ((r : ℝ) : EReal))
    (hk : ∀ j : S8x16x1024x64.Idx, ∃ r : ℝ, V5 (F := Ideal) m ρ c main_v10 j = ((r : ℝ) : EReal))
    (hv : ∀ j : S8x16x1024x64.Idx, ∃ r : ℝ, V5 (F := Ideal) m ρ c main_v12 j = ((r : ℝ) : EReal)) :
    V6 (F := Ideal) m ρ c main_v13
      = Attn.attnArr (V5 (F := Ideal) m ρ c main_v8) (V5 (F := Ideal) m ρ c main_v10) (V5 (F := Ideal) m ρ c main_v12) :=
  (W6_arr m ρ c 3).trans (AttnValue.arr3 (V5 m ρ) c hq hk hv)

theorem W7_v15 (c : Dev nD) :
    (W7 (F := Ideal) m ρ c (Proc.devRef .tc main_v15) : S8x1024x1024.Idx → EReal)
      = shapeCast S8x1024x1024
          (transpose S8x1024x16x64 [0, 2, 1, 3] (V6 (F := Ideal) m ρ c main_v13 : S8x16x1024x64.Idx → EReal)
            Facts₀.transposes_S8x16x1024x64_S8x1024x16x64_0_2_1_3)
          Facts₀.shapeCasts_S8x1024x16x64_S8x1024x1024 := by
  show StableHlo.after hostOps4 (W6 m ρ c) (Proc.devRef .tc main_v15) = _
  after_results
  rfl

/-- What @main's last boundary holds in the result buffer, for real arguments. -/
theorem result_eq (c : Dev nD)
    (h0 : ∀ i : S8x1024x1024.Idx, ∃ r : ℝ, m ((c.tc : Thread nD τ).loc main_arg0) i = ((r : ℝ) : EReal))
    (h1 : ∀ i : S16x64x1024.Idx, ∃ r : ℝ, m ((c.tc : Thread nD τ).loc main_arg1) i = ((r : ℝ) : EReal))
    (h2 : ∀ i : S16x64x1024.Idx, ∃ r : ℝ, m ((c.tc : Thread nD τ).loc main_arg2) i = ((r : ℝ) : EReal))
    (h3 : ∀ i : S16x64x1024.Idx, ∃ r : ℝ, m ((c.tc : Thread nD τ).loc main_arg3) i = ((r : ℝ) : EReal)) :
    W7 (F := Ideal) m ρ c (Proc.devRef .tc main_v15)
      = Bridge.kernelOut (m ((c.tc : Thread nD τ).loc main_arg0)) (m ((c.tc : Thread nD τ).loc main_arg1))
          (m ((c.tc : Thread nD τ).loc main_arg2)) (m ((c.tc : Thread nD τ).loc main_arg3)) := by
  have hq : ∀ j : S8x16x1024x64.Idx, ∃ r : ℝ, V5 (F := Ideal) m ρ c main_v8 j = ((r : ℝ) : EReal) := fun j => by
    rw [q_eq]; exact Bridge.qkvArr_real _ _ h0 h1 j
  have hk : ∀ j : S8x16x1024x64.Idx, ∃ r : ℝ, V5 (F := Ideal) m ρ c main_v10 j = ((r : ℝ) : EReal) := fun j => by
    rw [k_eq]; exact Bridge.qkvArr_real _ _ h0 h2 j
  have hv : ∀ j : S8x16x1024x64.Idx, ∃ r : ℝ, V5 (F := Ideal) m ρ c main_v12 j = ((r : ℝ) : EReal) := fun j => by
    rw [v_eq]; exact Bridge.qkvArr_real _ _ h0 h3 j
  refine (W7_v15 m ρ c).trans ?_
  rw [V6_v13 m ρ c hq hk hv, q_eq, k_eq, v_eq]
  rfl

end Cert.KernelIdeal.Fold

end
-- ==== Proof.Finite.lean ====
/-
  Every entry of the four argument arrays is a real number: the precondition says that |x| < +∞ at every entry of
  each array, and an extended real whose absolute value max x (-x) lies below +∞ is neither +∞ nor -∞.
-/
import proofs.«406224_j55722905699212_3_alg».proof.Defs
import proofs.«406224_j55722905699212_3_alg».proof.Proof.Gen.Pre_finite_inputs
import proofs.«406224_j55722905699212_3_alg».proof.Proof.Gen.KernelIdeal
import Idealize.ShloMosaic.Lib.ReduceAll
import Idealize.ShloMosaic.Lib.ValueIdx

set_option maxRecDepth 16384

noncomputable section

namespace Cert.KernelIdeal.Finite

open Idealize.ShloMosaic Idealize.SL.Sem

/-- A rank-0 array has one index. -/
instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- From the precondition: every entry of x and of the three weight arrays is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal Cert.KernelIdeal.S8x1024x1024 .f32) i = (r : EReal))
    ∧ (∀ i, ∃ r : ℝ, (m ((c.tc : Thread Cert.KernelIdeal.nD Cert.KernelIdeal.τ).loc Cert.KernelIdeal.main_arg1) : FVec Ideal Cert.KernelIdeal.S16x64x1024 .f32) i = (r : EReal))
    ∧ (∀ i, ∃ r : ℝ, (m ((c.tc : Thread Cert.KernelIdeal.nD Cert.KernelIdeal.τ).loc Cert.KernelIdeal.main_arg2) : FVec Ideal Cert.KernelIdeal.S16x64x1024 .f32) i = (r : EReal))
    ∧ (∀ i, ∃ r : ℝ, (m ((c.tc : Thread Cert.KernelIdeal.nD Cert.KernelIdeal.τ).loc Cert.KernelIdeal.main_arg3) : FVec Ideal Cert.KernelIdeal.S16x64x1024 .f32) i = (r : EReal)) := by
  have e := congrFun (h c) ValueIdx.ix0
  dsimp only [Cert.Pre_finite_inputs.fn, Cert.Pre_finite_inputs.fn_part1] at e
  simp only [andi, IntOp.andi_eq_one] at e
  obtain ⟨⟨⟨e0, e1⟩, e2⟩, e3⟩ := e
  refine ⟨fun i => ?_, fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)

end Cert.KernelIdeal.Finite

end
-- ==== Proof.RefValue.lean ====
/-
  The reference's result, read one operation at a time, is the specification G: per (batch, head) the projections are
  Σ_c W[h,d,c]·x[b,t,c] (the factors in the other order), the scores q·kᵀ scaled by 1/32 and masked by the lower triangle,
  the softmax is exp(S - max)/Σ exp(S - max), and the heads are concatenated along the last axis.
-/
import proofs.«406224_j55722905699212_3_alg».proof.Proof.Gen.ReferenceIdeal.Run
import proofs.«406224_j55722905699212_3_alg».proof.Proof.Gen.ReferenceIdeal.Read
import proofs.«406224_j55722905699212_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

/-- The word 0xFF800000 is -∞. -/
private theorem negInf_eq : Ideal.ofBits .f32 0xFF800000#32 = (⊥ : EReal) := by simp [Ideal.ofBits, Ideal.ieee]

/-- The projected queries at (b, h, t, d): the reference's sum has the factors in the other order. -/
private theorem v1_at (x0 : (⟨S8x1024x1024, .f32⟩ : BufTy).Contents (Elt Ideal)) (x1 : (⟨S16x64x1024, .f32⟩ : BufTy).Contents (Elt Ideal))
    (b : Fin 8) (h : Fin 16) (t : Fin 1024) (d : Fin 64) :
    val_main_v1 (F := Ideal) x0 x1 (ix4 b h t d) = Attn.proj x0 x1 b h t d := by
  rw [val_main_v1_apply, val_main_v0_apply]
  unfold Attn.proj
  refine Finset.sum_congr rfl fun c _ => ?_
  rw [mul_comm]
  have e1 : ridx_main_v0 (idx_main_v1 (ix4 b h t d)) c = ix3 b t c := funext fun a => by
    match a with
    | ⟨0, _⟩ => rfl
    | ⟨1, _⟩ => rfl
    | ⟨2, _⟩ => rfl
  have e2 : lidx_main_v0 (idx_main_v1 (ix4 b h t d)) c = ix3 h d c := funext fun a => by
    match a with
    | ⟨0, _⟩ => rfl
    | ⟨1, _⟩ => rfl
    | ⟨2, _⟩ => rfl
  rw [e1, e2]

/-- The projected keys at (b, h, s, d). -/
private theorem v3_at (x0 : (⟨S8x1024x1024, .f32⟩ : BufTy).Contents (Elt Ideal)) (x2 : (⟨S16x64x1024, .f32⟩ : BufTy).Contents (Elt Ideal))
    (b : Fin 8) (h : Fin 16) (t : Fin 1024) (d : Fin 64) :
    val_main_v3 (F := Ideal) x0 x2 (ix4 b h t d) = Attn.proj x0 x2 b h t d := by
  rw [val_main_v3_apply, val_main_v2_apply]
  unfold Attn.proj
  refine Finset.sum_congr rfl fun c _ => ?_
  rw [mul_comm]
  have e1 : ridx_main_v2 (idx_main_v3 (ix4 b h t d)) c = ix3 b t c := funext fun a => by
    match a with
    | ⟨0, _⟩ => rfl
    | ⟨1, _⟩ => rfl
    | ⟨2, _⟩ => rfl
  have e2 : lidx_main_v2 (idx_main_v3 (ix4 b h t d)) c = ix3 h d c := funext fun a => by
    match a with
    | ⟨0, _⟩ => rfl
    | ⟨1, _⟩ => rfl
    | ⟨2, _⟩ => rfl
  rw [e1, e2]

/-- The projected values at (b, h, s, d). -/
private theorem v5_at (x0 : (⟨S8x1024x1024, .f32⟩ : BufTy).Contents (Elt Ideal)) (x3 : (⟨S16x64x1024, .f32⟩ : BufTy).Contents (Elt Ideal))
    (b : Fin 8) (h : Fin 16) (t : Fin 1024) (d : Fin 64) :
    val_main_v5 (F := Ideal) x0 x3 (ix4 b h t d) = Attn.proj x0 x3 b h t d := by
  rw [val_main_v5_apply, val_main_v4_apply]
  unfold Attn.proj
  refine Finset.sum_congr rfl fun c _ => ?_
  rw [mul_comm]
  have e1 : ridx_main_v4 (idx_main_v5 (ix4 b h t d)) c = ix3 b t c := funext fun a => by
    match a with
    | ⟨0, _⟩ => rfl
    | ⟨1, _⟩ => rfl
    | ⟨2, _⟩ => rfl
  have e2 : lidx_main_v4 (idx_main_v5 (ix4 b h t d)) c = ix3 h d c := funext fun a => by
    match a with
    | ⟨0, _⟩ => rfl
    | ⟨1, _⟩ => rfl
    | ⟨2, _⟩ => rfl
  rw [e1, e2]

/-- The lower-triangular mask at (b, h, t, s): set exactly when s ≤ t. -/
private theorem mask_at (b : Fin 8) (h : Fin 16) (t s : Fin 1024) :
    val_main_call1_v1 (F := Ideal) (ix4 b h t s) = if s.val ≤ t.val then 1#1 else 0#1 := by
  rw [val_main_call1_v1_apply, val_main_v10_apply, val_main_call0_v4_apply, val_main_call0_v2_apply, val_main_call0_v0_apply,
    val_main_call0_v1_apply, val_main_call0_c_apply, val_main_call0_v3_apply, val_main_v9_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  have ht : t.val < 1024 := t.isLt
  have hs : s.val < 1024 := s.isLt
  have e0 : IntOp.addi (BitVec.ofNat 32 t.val) 0#32 = BitVec.ofNat 32 t.val := by
    show BitVec.ofNat 32 t.val + 0#32 = _
    rw [BitVec.add_zero]
  rw [e0]
  have hta : (BitVec.ofNat 32 t.val).toNat = t.val := by rw [BitVec.toNat_ofNat]; omega
  have hsa : (BitVec.ofNat 32 s.val).toNat = s.val := by rw [BitVec.toNat_ofNat]; omega
  have key := StableHlo.Predicate.sge_iff_toNat (a := BitVec.ofNat 32 t.val) (b := BitVec.ofNat 32 s.val) (by omega) (by omega)
  rw [hta, hsa] at key
  by_cases hle : s.val ≤ t.val
  · rw [if_pos hle, key.mpr hle, select_one]
  · rw [if_neg hle, eq_zero_of_ne_one (fun hc => hle (key.mp hc)), select_zero]

/-- Row t of head (b, h)'s masked, scaled scores, as the specification writes it. -/
private abbrev rowS (x0 : (⟨S8x1024x1024, .f32⟩ : BufTy).Contents (Elt Ideal)) (x1 x2 : (⟨S16x64x1024, .f32⟩ : BufTy).Contents (Elt Ideal)) (b : Fin 8) (h : Fin 16) (t : Fin 1024) : Fin 1024 → EReal :=
  Attn.scoreRow (fun t e => Attn.proj x0 x1 b h t e) (fun s e => Attn.proj x0 x2 b h s e) t

/-- The scaled, masked scores at (b, h, t, s). -/
private theorem v11_at (x0 : (⟨S8x1024x1024, .f32⟩ : BufTy).Contents (Elt Ideal)) (x1 x2 : (⟨S16x64x1024, .f32⟩ : BufTy).Contents (Elt Ideal)) (b : Fin 8) (h : Fin 16) (t s : Fin 1024) :
    val_main_v11 (F := Ideal) x0 x1 x2 (ix4 b h t s) = rowS x0 x1 x2 b h t s := by
  rw [val_main_v11_apply, mask_at, val_main_v8_apply, val_main_v6_apply, val_main_v7_apply, val_main_cst_apply,
    val_main_call1_v2_apply, val_main_call1_v0_apply, val_main_cst_0_apply]
  have esum : (∑ k : Fin 64, val_main_v1 (F := Ideal) x0 x1 (lidx_main_v6 (ix4 b h t s) k) * val_main_v3 (F := Ideal) x0 x2 (ridx_main_v6 (ix4 b h t s) k))
      = ∑ e : Fin 64, Attn.proj x0 x1 b h t e * Attn.proj x0 x2 b h s e := by
    refine Finset.sum_congr rfl fun e _ => ?_
    have e1 : lidx_main_v6 (ix4 b h t s) e = ix4 b h t e := funext fun a => by
      match a with
      | ⟨0, _⟩ => rfl
      | ⟨1, _⟩ => rfl
      | ⟨2, _⟩ => rfl
      | ⟨3, _⟩ => rfl
    have e2 : ridx_main_v6 (ix4 b h t s) e = ix4 b h s e := funext fun a => by
      match a with
      | ⟨0, _⟩ => rfl
      | ⟨1, _⟩ => rfl
      | ⟨2, _⟩ => rfl
      | ⟨3, _⟩ => rfl
    rw [e1, e2, v1_at, v3_at]
  rw [esum]
  unfold rowS Attn.scoreRow Attn.scale
  by_cases hle : s.val ≤ t.val
  · rw [if_pos hle, if_pos hle, select_one]; rfl
  · rw [if_neg hle, if_neg hle, select_zero]; exact negInf_eq

/-- The reduction's shape fact in the form that names the inserted index. -/
private theorem hred : S8x16x1024x1024.Reduces [3] S8x16x1024 := by decide

/-- The row's maximum at (b, h, t): the fold of max from -∞ over the row. -/
private theorem v12_at (x0 : (⟨S8x1024x1024, .f32⟩ : BufTy).Contents (Elt Ideal)) (x1 x2 : (⟨S16x64x1024, .f32⟩ : BufTy).Contents (Elt Ideal)) (b : Fin 8) (h : Fin 16) (t : Fin 1024) :
    val_main_v12 (F := Ideal) x0 x1 x2 (ix3 b h t) = Attn.rowMax (rowS x0 x1 x2 b h t) := by
  have hfun : ∀ s : Fin 1024, val_main_v11 (F := Ideal) x0 x1 x2 (ix4 b h t s) = rowS x0 x1 x2 b h t s :=
    fun s => v11_at x0 x1 x2 b h t s
  unfold val_main_v12
  generalize val_main_v11 (F := Ideal) x0 x1 x2 = y at hfun ⊢
  generalize rowS x0 x1 x2 b h t = S at hfun ⊢
  rw [Host.reduce_eq_fold_single (FloatOps.maximumf (F := Ideal) (φ := .f32)) y _ reducesTo_S8x16x1024x1024_S8x16x1024_d3 hred h_S_ (ix3 b h t)]
  have e : (y ∘ hred.lift (ix3 b h t)) = S := funext fun s => by
    show y (hred.lift (ix3 b h t) s) = S s
    rw [← hfun s]
    refine congrArg y (funext fun a => Fin.ext ?_)
    match a with
    | ⟨0, _⟩ => rfl
    | ⟨1, _⟩ => rfl
    | ⟨2, _⟩ => rfl
    | ⟨3, _⟩ => rfl
  rw [e, val_main_cst_1_apply]
  unfold Attn.rowMax
  show (Finset.univ : Finset (Fin 1024)).fold max (Ideal.ofBits .f32 0xFF800000#32) S = _
  rw [negInf_eq]

/-- The same maximum after the reference's maximum with the -∞ splat. -/
private theorem v14_at (x0 : (⟨S8x1024x1024, .f32⟩ : BufTy).Contents (Elt Ideal)) (x1 x2 : (⟨S16x64x1024, .f32⟩ : BufTy).Contents (Elt Ideal)) (b : Fin 8) (h : Fin 16) (t : Fin 1024) :
    val_main_v14 (F := Ideal) x0 x1 x2 (ix3 b h t) = Attn.rowMax (rowS x0 x1 x2 b h t) := by
  rw [val_main_v14_apply, val_main_v13_apply, val_main_cst_2_apply, v12_at]
  show max (Ideal.ofBits .f32 0xFF800000#32) _ = _
  rw [negInf_eq, max_bot_left]

/-- exp(S[s] - M) at (b, h, t, s). -/
private theorem v18_at (x0 : (⟨S8x1024x1024, .f32⟩ : BufTy).Contents (Elt Ideal)) (x1 x2 : (⟨S16x64x1024, .f32⟩ : BufTy).Contents (Elt Ideal)) (b : Fin 8) (h : Fin 16) (t s : Fin 1024) :
    val_main_v18 (F := Ideal) x0 x1 x2 (ix4 b h t s)
      = Ideal.exp (rowS x0 x1 x2 b h t s - Attn.rowMax (rowS x0 x1 x2 b h t)) := by
  rw [val_main_v18_apply, val_main_v17_apply, v11_at, val_main_v16_apply, val_main_v15_apply]
  have e : idx_main_v15 (idx_main_v16 (ix4 b h t s)) = ix3 b h t := funext fun a => by
      match a with
      | ⟨0, _⟩ => rfl
      | ⟨1, _⟩ => rfl
      | ⟨2, _⟩ => rfl
  rw [e, v14_at]
  rfl

/-- The row's normaliser at (b, h, t): the float sum starts from the zero word. -/
private theorem v19_at (x0 : (⟨S8x1024x1024, .f32⟩ : BufTy).Contents (Elt Ideal)) (x1 x2 : (⟨S16x64x1024, .f32⟩ : BufTy).Contents (Elt Ideal)) (b : Fin 8) (h : Fin 16) (t : Fin 1024) :
    val_main_v19 (F := Ideal) x0 x1 x2 (ix3 b h t) = Attn.rowSum (rowS x0 x1 x2 b h t) := by
  rw [val_main_v19_apply, val_main_cst_3_apply]
  unfold Attn.rowSum
  show Ideal.ofBits .f32 0x00000000#32 + _ = _
  rw [Ideal.ofBits_zero_f32, zero_add]
  refine Finset.sum_congr rfl fun s _ => ?_
  have e : idx_main_v19 (ix3 b h t) s = ix4 b h t s := funext fun a => by
      match a with
      | ⟨0, _⟩ => rfl
      | ⟨1, _⟩ => rfl
      | ⟨2, _⟩ => rfl
      | ⟨3, _⟩ => rfl
  rw [e, v18_at]

/-- The softmax weight at (b, h, t, s). -/
private theorem v22_at (x0 : (⟨S8x1024x1024, .f32⟩ : BufTy).Contents (Elt Ideal)) (x1 x2 : (⟨S16x64x1024, .f32⟩ : BufTy).Contents (Elt Ideal)) (b : Fin 8) (h : Fin 16) (t s : Fin 1024) :
    val_main_v22 (F := Ideal) x0 x1 x2 (ix4 b h t s)
      = Ideal.div (Ideal.exp (rowS x0 x1 x2 b h t s - Attn.rowMax (rowS x0 x1 x2 b h t))) (Attn.rowSum (rowS x0 x1 x2 b h t)) := by
  rw [val_main_v22_apply, v18_at, val_main_v21_apply, val_main_v20_apply]
  have e : idx_main_v20 (idx_main_v21 (ix4 b h t s)) = ix3 b h t := funext fun a => by
      match a with
      | ⟨0, _⟩ => rfl
      | ⟨1, _⟩ => rfl
      | ⟨2, _⟩ => rfl
  rw [e, v19_at]
  rfl

/-- One head's result at (b, h, t, d): the softmax-weighted sum of the values. -/
private theorem v23_at (x0 : (⟨S8x1024x1024, .f32⟩ : BufTy).Contents (Elt Ideal)) (x1 x2 x3 : (⟨S16x64x1024, .f32⟩ : BufTy).Contents (Elt Ideal)) (b : Fin 8) (h : Fin 16) (t : Fin 1024) (d : Fin 64) :
    val_main_v23 (F := Ideal) x0 x1 x2 x3 (ix4 b h t d)
      = Attn.softmaxRow (rowS x0 x1 x2 b h t) (fun s => Attn.proj x0 x3 b h s d) := by
  rw [val_main_v23_apply]
  unfold Attn.softmaxRow
  refine Finset.sum_congr rfl fun s _ => ?_
  have e1 : lidx_main_v23 (ix4 b h t d) s = ix4 b h t s := funext fun a => by
      match a with
      | ⟨0, _⟩ => rfl
      | ⟨1, _⟩ => rfl
      | ⟨2, _⟩ => rfl
      | ⟨3, _⟩ => rfl
  have e2 : ridx_main_v23 (ix4 b h t d) s = ix4 b h s d := funext fun a => by
      match a with
      | ⟨0, _⟩ => rfl
      | ⟨1, _⟩ => rfl
      | ⟨2, _⟩ => rfl
      | ⟨3, _⟩ => rfl
  rw [e1, e2, v22_at, v5_at]

/-- The reference's last stage, as a function of the four arguments, is the specification. -/
theorem result_eq (x0 : (⟨S8x1024x1024, .f32⟩ : BufTy).Contents (Elt Ideal)) (x1 x2 x3 : (⟨S16x64x1024, .f32⟩ : BufTy).Contents (Elt Ideal)) :
    val_main_v25 (F := Ideal) x0 x1 x2 x3 = Attn.G x0 x1 x2 x3 := by
  funext i
  rw [val_main_v25_apply, val_main_v24_apply]
  have h0 : (i 0).val < 8 := (i 0).isLt
  have h1 : (i 1).val < 1024 := (i 1).isLt
  have h2 : (i 2).val < 1024 := (i 2).isLt
  have e : idx_main_v24 (idx_main_v25 i)
      = ix4 (⟨(i 0).val, h0⟩ : Fin 8) (⟨(i 2).val / 64, by omega⟩ : Fin 16) (⟨(i 1).val, h1⟩ : Fin 1024)
          (⟨(i 2).val % 64, Nat.mod_lt _ (by decide)⟩ : Fin 64) := funext fun a => Fin.ext (by
    match a with
    | ⟨0, _⟩ => show (((i 0).val * 1024 + (i 1).val) * 1024 + (i 2).val) / 1048576 = (i 0).val; omega
    | ⟨1, _⟩ => show (((i 0).val * 1024 + (i 1).val) * 1024 + (i 2).val) / 64 % 16 = (i 2).val / 64; omega
    | ⟨2, _⟩ => show (((i 0).val * 1024 + (i 1).val) * 1024 + (i 2).val) / 1024 % 1024 = (i 1).val; omega
    | ⟨3, _⟩ => show (((i 0).val * 1024 + (i 1).val) * 1024 + (i 2).val) % 64 = (i 2).val % 64; omega)
  rw [e, v23_at]
  rfl

end Cert.ReferenceIdeal.RefValue

end
-- ==== Proof.Assembly.lean ====
/-
  The five claims, each from the parts that carry it: the two kernels' frames are their runs; the reference's
  frame is its run with the result's conjunct dropped; the idealization's four ledger entries are the named constant's
  statement at the table's value -∞; and at the ideal instance both programs end holding the attention specification G of
  the argument arrays: the kernel's last boundary is the composite of its four launches, which is G for real
  arguments, and the reference's last stage is G read one operation at a time.
-/
import proofs.«406224_j55722905699212_3_alg».proof.Defs
import proofs.«406224_j55722905699212_3_alg».proof.Proof.Gen.Kernel
import proofs.«406224_j55722905699212_3_alg».proof.Proof.Gen.Kernel.Skeleton
import proofs.«406224_j55722905699212_3_alg».proof.Proof.Gen.Kernel.Loops
import proofs.«406224_j55722905699212_3_alg».proof.Proof.Gen.Kernel.Launch
import proofs.«406224_j55722905699212_3_alg».proof.Proof.Gen.Kernel.Points
import proofs.«406224_j55722905699212_3_alg».proof.Proof.Gen.Kernel.Frame
import proofs.«406224_j55722905699212_3_alg».proof.Proof.Gen.KernelIdeal
import proofs.«406224_j55722905699212_3_alg».proof.Proof.Gen.KernelIdeal.Skeleton
import proofs.«406224_j55722905699212_3_alg».proof.Proof.Gen.KernelIdeal.Loops
import proofs.«406224_j55722905699212_3_alg».proof.Proof.Gen.KernelIdeal.Launch
import proofs.«406224_j55722905699212_3_alg».proof.Proof.Gen.KernelIdeal.Points
import proofs.«406224_j55722905699212_3_alg».proof.Proof.Gen.KernelIdeal.Frame
import proofs.«406224_j55722905699212_3_alg».proof.Proof.Gen.ReferenceIdeal
import proofs.«406224_j55722905699212_3_alg».proof.Proof.Gen.ReferenceIdeal.Run
import proofs.«406224_j55722905699212_3_alg».proof.Proof.Gen.ReferenceIdeal.Read
import proofs.«406224_j55722905699212_3_alg».proof.Proof.Gen.Pre_finite_inputs
import proofs.«406224_j55722905699212_3_alg».proof.Proof.Spec
import proofs.«406224_j55722905699212_3_alg».proof.Proof.KernelRun
import proofs.«406224_j55722905699212_3_alg».proof.Proof.KernelFold
import proofs.«406224_j55722905699212_3_alg».proof.Proof.Bridge
import proofs.«406224_j55722905699212_3_alg».proof.Proof.Finite
import proofs.«406224_j55722905699212_3_alg».proof.Proof.RefValue
import Idealize.ShloMosaic.Adequacy
import Idealize.ShloMosaic.Init

noncomputable section

namespace Cert.Proof.Parts

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, without the result's conjunct. -/
theorem frame_ri : Cert.frame_ReferenceIdeal := fun m ρ _ =>
  (θ_run Cert.ReferenceIdeal.defs _ _).mono (fun _ h c => (h c).2) (Cert.ReferenceIdeal.Value.run (F := Ideal) m ρ)

/-- The ledger's four entries are one statement: the table gives the name the value -∞, and the printed constant is
    that value at the ideal instance. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end holding G of the argument arrays: the kernel's result buffer is the composite of its launches,
    which is G when the arguments are real (they are, by the precondition); the reference's last stage is G, of
    arguments that agree with the kernel's. -/
theorem algebraic : Cert.algebraic_KernelIdeal_ReferenceIdeal := by
  intro m ρ m' ρ' hpre hagree
  refine ⟨fun c => Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunValue.run_result (F := Ideal) m ρ)
    obtain ⟨h0, h1, h2, h3⟩ := Cert.KernelIdeal.Finite.args_real m hpre c
    exact (Cert.KernelIdeal.Fold.result_eq m ρ c h0 h1 h2 h3).trans (Cert.KernelIdeal.Bridge.kernelOut_eq_G _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, Cert.ReferenceIdeal.RefValue.result_eq,
      (hagree c).1, (hagree c).2.1, (hagree c).2.2.1, (hagree c).2.2.2]

/-- The conjunction, under the witnesses of the programs' stated facts. -/
theorem claim' : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Parts

end
-- ==== Proof.lean ====
/-
  A flash-attention kernel against softmax attention, on the extended reals.

  The kernel projects x by the three stacked weight matrices (three launches of one matrix product each), reshapes the
  projections to [batch, head, token, dim], and in a fourth launch computes, per (batch, head) and per tile of 256
  query rows, causal attention by the tile-by-tile recurrence: over the key tiles up to the diagonal it keeps a running
  maximum m, a running normaliser l and a running weighted sum a, rescaling l and a by exp(m - m') whenever the
  maximum moves, and stores a / l.  The reference computes the same projections by one contraction each, the full
  1024 × 1024 score matrix scaled by 1/32 and masked to -∞ above the diagonal, its row-wise softmax
  exp(S - max) / Σ exp(S - max), and the weighted sum of the values.

  At the ideal instance both results are one function G of the four argument arrays (Proof/Spec.lean):
  the masked columns contribute exp(-∞) = 0 on both sides (the kernel's finite sentinel is named -∞), and for real
  scores the recurrence's quotient a / l is Σ_s (exp(S_s - M)/L)·v_s because exp(m - m')·exp(S - m) = exp(S - m')
  and the normaliser L is a positive real (Proof/OnlineSoftmax.lean).  Reality of the scores is where the
  precondition (every input finite) is used.  The five claims are assembled in Proof/Assembly.lean.
-/
import proofs.«406224_j55722905699212_3_alg».proof.Defs
import proofs.«406224_j55722905699212_3_alg».proof.Proof.Assembly

noncomputable section

namespace Cert.Proof

theorem claim : Cert.Claim := Cert.Proof.Parts.claim'

end Cert.Proof

end
